-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S262144 : Shape := ⟨1, ![262144]⟩
abbrev S512x512 : Shape := ⟨2, ![512, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S_S_d : S_.ReducesTo [] S_
  bcast_S_S262144 : S_.BroadcastsInDim S262144 (![] : Fin 0 → Fin S262144.rank)
  reducesTo_S262144_S_d0 : S262144.ReducesTo [0] S_

variable [Facts]

def fn_part4 {F : FTy → Type} [FloatOps F] (main_arg2 : IVec S262144 32) (main_v64 : IVec S_ 1) (main_v66 : IVec S262144 32) (main_c_26 : IVec S_ 32) : IVec S_ 1 :=
  let main_v67 : IVec S262144 32 := broadcastInDim S262144 ![] bcast_S_S262144 main_c_26
  let main_v68 : IVec S262144 32 := Host.divsi main_arg2 main_v67
  let main_v69 : IVec S262144 1 := cmpi .eq main_v66 main_v68
  let main_c_27 : IVec S_ 1 := constantI S_ 1 1#1
  let main_v70 : IVec S_ 1 := (fun x v => Host.reduce IntOp.andi x v reducesTo_S262144_S_d0 h_S_) main_v69 main_c_27
  let main_v71 : IVec S_ 1 := andi main_v64 main_v70
  main_v71

def fn_part3 {F : FTy → Type} [FloatOps F] (main_arg1 : IVec S262144 32) (main_arg2 : IVec S262144 32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_c_20 : IVec S_ 32 := constantI S_ 32 0#32
  let main_v52 : IVec S262144 32 := broadcastInDim S262144 ![] bcast_S_S262144 main_c_20
  let main_v53 : IVec S262144 1 := cmpi .sge main_arg1 main_v52
  let main_c_21 : IVec S_ 32 := constantI S_ 32 32768#32
  let main_v54 : IVec S262144 32 := broadcastInDim S262144 ![] bcast_S_S262144 main_c_21
  let main_v55 : IVec S262144 1 := cmpi .slt main_arg1 main_v54
  let main_v56 : IVec S262144 1 := andi main_v53 main_v55
  let main_c_22 : IVec S_ 32 := constantI S_ 32 0#32
  let main_v57 : IVec S262144 32 := broadcastInDim S262144 ![] bcast_S_S262144 main_c_22
  let main_v58 : IVec S262144 1 := cmpi .sge main_arg2 main_v57
  let main_v59 : IVec S262144 1 := andi main_v56 main_v58
  let main_c_23 : IVec S_ 32 := constantI S_ 32 32768#32
  let main_v60 : IVec S262144 32 := broadcastInDim S262144 ![] bcast_S_S262144 main_c_23
  let main_v61 : IVec S262144 1 := cmpi .slt main_arg2 main_v60
  let main_v62 : IVec S262144 1 := andi main_v59 main_v61
  let main_c_24 : IVec S_ 1 := constantI S_ 1 1#1
  let main_v63 : IVec S_ 1 := (fun x v => Host.reduce IntOp.andi x v reducesTo_S262144_S_d0 h_S_) main_v62 main_c_24
  let main_v64 : IVec S_ 1 := andi main_v51 main_v63
  let main_c_25 : IVec S_ 32 := constantI S_ 32 1024#32
  let main_v65 : IVec S262144 32 := broadcastInDim S262144 ![] bcast_S_S262144 main_c_25
  let main_v66 : IVec S262144 32 := Host.divsi main_arg1 main_v65
  let main_c_26 : IVec S_ 32 := constantI S_ 32 1024#32
  fn_part4 (F := F) main_arg2 main_v64 main_v66 main_c_26

def fn_part2 {F : FTy → Type} [FloatOps F] (main_arg1 : IVec S262144 32) (main_arg2 : IVec S262144 32) (main_arg9 : FVec F S_ .f32) (main_arg10 : FVec F S512x512 .f32) (main_arg11 : FVec F S512 .f32) (main_arg12 : FVec F S_ .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S512x512 .f32 := Host.absf main_arg10
  let main_cst_14 : FVec F S_ .f32 := constant S_ .f32 0x7F800000#32
  let main_v39 : FVec F S512x512 .f32 := broadcastInDim S512x512 ![] bcast_S_S512x512 main_cst_14
  let main_v40 : IVec S512x512 1 := cmpf .olt main_v38 main_v39
  let main_c_15 : IVec S_ 1 := constantI S_ 1 1#1
  let main_v41 : IVec S_ 1 := (fun x v => Host.reduce IntOp.andi x v reducesTo_S512x512_S_d0_1 h_S_) main_v40 main_c_15
  let main_v42 : IVec S_ 1 := andi main_v37 main_v41
  let main_v43 : FVec F S512 .f32 := Host.absf main_arg11
  let main_cst_16 : FVec F S_ .f32 := constant S_ .f32 0x7F800000#32
  let main_v44 : FVec F S512 .f32 := broadcastInDim S512 ![] bcast_S_S512 main_cst_16
  let main_v45 : IVec S512 1 := cmpf .olt main_v43 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v42 main_v46
  let main_v48 : FVec F S_ .f32 := Host.absf main_arg12
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg1 main_arg2 main_v47 main_v49 main_c_19

def fn_part1 {F : FTy → Type} [FloatOps F] (main_arg1 : IVec S262144 32) (main_arg2 : IVec S262144 32) (main_arg6 : FVec F S512 .f32) (main_arg7 : FVec F S512 .f32) (main_arg8 : FVec F S512 .f32) (main_arg9 : FVec F S_ .f32) (main_arg10 : FVec F S512x512 .f32) (main_arg11 : FVec F S512 .f32) (main_arg12 : FVec F S_ .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg2 main_arg9 main_arg10 main_arg11 main_arg12 main_v33

def fn {F : FTy → Type} [FloatOps F] (main_arg0 : FVec F S32x1024x512 .f32) (main_arg1 : IVec S262144 32) (main_arg2 : IVec S262144 32) (main_arg3 : FVec F S512x512 .f32) (main_arg4 : FVec F S512 .f32) (main_arg5 : FVec F S512 .f32) (main_arg6 : FVec F S512 .f32) (main_arg7 : FVec F S512 .f32) (main_arg8 : FVec F S512 .f32) (main_arg9 : FVec F S_ .f32) (main_arg10 : FVec F S512x512 .f32) (main_arg11 : FVec F S512 .f32) (main_arg12 : FVec F S_ .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_arg6 main_arg7 main_arg8 main_arg9 main_arg10 main_arg11 main_arg12 main_v13 main_v16
-- ==== Kernel.lean ====
abbrev S32x1024x512 : Shape := ⟨3, ![32, 1024, 512]⟩
abbrev S262144 : Shape := ⟨1, ![262144]⟩
abbrev S512x512 : Shape := ⟨2, ![512, 512]⟩
abbrev S512 : Shape := ⟨1, ![512]⟩
abbrev S_ : Shape := ⟨0, ![]⟩
abbrev S32768x512 : Shape := ⟨2, ![32768, 512]⟩
abbrev S32x1024x1024 : Shape := ⟨3, ![32, 1024, 1024]⟩
abbrev S262144x1 : Shape := ⟨2, ![262144, 1]⟩
abbrev S262144x3 : Shape := ⟨2, ![262144, 3]⟩
abbrev S1024x1024 : Shape := ⟨2, ![1024, 1024]⟩
abbrev S1x1024x1024 : Shape := ⟨3, ![1, 1024, 1024]⟩
abbrev S32x1024 : Shape := ⟨2, ![32, 1024]⟩
abbrev S32768x1 : Shape := ⟨2, ![32768, 1]⟩
abbrev S1x512 : Shape := ⟨2, ![1, 512]⟩
abbrev S1x1 : Shape := ⟨2, ![1, 1]⟩
abbrev S1024x512 : Shape := ⟨2, ![1024, 512]⟩
abbrev S1024x1 : Shape := ⟨2, ![1024, 1]⟩
abbrev S32x1024x1 : Shape := ⟨3, ![32, 1024, 1]⟩
abbrev S1x1024x512 : Shape := ⟨3, ![1, 1024, 512]⟩
abbrev S1x1024x1 : Shape := ⟨3, ![1, 1024, 1]⟩
abbrev S1024 : Shape := ⟨1, ![1024]⟩

abbrev nBuf : Space → Nat
  | .hbm => 133
  | .vmem => 26
  | .smem => 0
  | _ => 0

abbrev hbmTy0_0 (i : Nat) : BufTy := match i % 128 with
  | 0 => ⟨S32x1024x512, .f32⟩
  | 1 => ⟨S262144, .i32⟩
  | 2 => ⟨S262144, .i32⟩
  | 3 => ⟨S512x512, .f32⟩
  | 4 => ⟨S512, .f32⟩
  | 5 => ⟨S512, .f32⟩
  | 6 => ⟨S512, .f32⟩
  | 7 => ⟨S512, .f32⟩
  | 8 => ⟨S512, .f32⟩
  | 9 => ⟨S_, .f32⟩
  | 10 => ⟨S512x512, .f32⟩
  | 11 => ⟨S512, .f32⟩
  | 12 => ⟨S_, .f32⟩
  | 13 => ⟨S32768x512, .f32⟩
  | 14 => ⟨S_, .i32⟩
  | 15 => ⟨S_, .i32⟩
  | 16 => ⟨S262144, .i32⟩
  | 17 => ⟨S262144, .i32⟩
  | 18 => ⟨S262144, .i32⟩
  | 19 => ⟨S_, .i32⟩
  | 20 => ⟨S262144, .i32⟩
  | 21 => ⟨S262144, .i1⟩
  | 22 => ⟨S262144, .i32⟩
  | 23 => ⟨S262144, .i32⟩
  | 24 => ⟨S_, .i32⟩
  | 25 => ⟨S262144, .i32⟩
  | 26 => ⟨S262144, .i1⟩
  | 27 => ⟨S262144, .i1⟩
  | 28 => ⟨S_, .i32⟩
  | 29 => ⟨S262144, .i32⟩
  | 30 => ⟨S262144, .i32⟩
  | 31 => ⟨S262144, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S262144, .i32⟩
  | 39 => ⟨S262144, .i32⟩
  | 40 => ⟨S_, .i32⟩
  | 41 => ⟨S262144, .i32⟩
  | 42 => ⟨S262144, .i1⟩
  | 43 => ⟨S_, .i32⟩
  | 44 => ⟨S262144, .i32⟩
  | 45 => ⟨S262144, .i1⟩
  | 46 => ⟨S_, .i32⟩
  | 47 => ⟨S_, .i1⟩
  | 48 => ⟨S262144, .i1⟩
  | 49 => ⟨S262144, .i1⟩
  | 50 => ⟨S262144, .i1⟩
  | 51 => ⟨S262144, .i32⟩
  | 52 => ⟨S262144, .i32⟩
  | 53 => ⟨S262144, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S262144, .i32⟩
  | 61 => ⟨S262144, .i32⟩
  | 62 => ⟨S_, .i32⟩
  | 63 => ⟨S262144, .i32⟩
  | 64 => ⟨S262144, .i1⟩
  | 65 => ⟨S_, .i32⟩
  | 66 => ⟨S262144, .i32⟩
  | 67 => ⟨S262144, .i1⟩
  | 68 => ⟨S_, .i32⟩
  | 69 => ⟨S_, .i1⟩
  | 70 => ⟨S262144, .i1⟩
  | 71 => ⟨S262144, .i1⟩
  | 72 => ⟨S262144, .i1⟩
  | 73 => ⟨S262144, .i32⟩
  | 74 => ⟨S262144, .i32⟩
  | 75 => ⟨S262144, .i32⟩
  | 76 => ⟨S_, .f32⟩
  | 77 => ⟨S32x1024x1024, .f32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S262144, .i32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S262144x1, .i32⟩
  | 100 => ⟨S262144x1, .i32⟩
  | 101 => ⟨S262144x1, .i32⟩
  | 102 => ⟨S262144x3, .i32⟩
  | 103 => ⟨S_, .f32⟩
  | 104 => ⟨S262144, .f32⟩
  | 105 => ⟨S32x1024x1024, .f32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S1024x1024, .i1⟩
  | 112 => ⟨S1024x1024, .f32⟩
  | 113 => ⟨S1x1024x1024, .f32⟩
  | 114 => ⟨S32x1024x1024, .f32⟩
  | 115 => ⟨S32x1024x1024, .f32⟩
  | 116 => ⟨S_, .f32⟩
  | 117 => ⟨S32x1024, .f32⟩
  | 118 => ⟨S32x1024, .f32⟩
  | 119 => ⟨S32x1024x1024, .bf16⟩
  | 120 => ⟨S32768x1, .f32⟩
  | 121 => ⟨S1x512, .f32⟩
  | 122 => ⟨S1x512, .f32⟩
  | 123 => ⟨S1x512, .f32⟩
  | 124 => ⟨S1x512, .f32⟩
  | 125 => ⟨S1x512, .f32⟩
  | 126 => ⟨S1x1, .f32⟩
  | 127 => ⟨S32768x512, .bf16⟩
  | _ => ⟨S32x1024x512, .f32⟩

abbrev hbmTy0_1 (i : Nat) : BufTy := match i % 128 with
  | 0 => ⟨S32x1024x512, .bf16⟩
  | 1 => ⟨S32x1024x1, .f32⟩
  | 2 => ⟨S1x512, .f32⟩
  | 3 => ⟨S1x1, .f32⟩
  | 4 => ⟨S32x1024x512, .f32⟩
  | _ => ⟨S32x1024x512, .f32⟩

abbrev hbmTy (i : Nat) : BufTy := match i / 128 with
  | 0 => hbmTy0_0 i
  | 1 => hbmTy0_1 i
  | _ => ⟨S32x1024x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S512x512, .f32⟩
  | .local _ .vmem, ⟨10, _⟩ => ⟨S1024x1, .f32⟩
  | .local _ .vmem, ⟨11, _⟩ => ⟨S1024x1, .f32⟩
  | .local _ .vmem, ⟨12, _⟩ => ⟨S1024x512, .bf16⟩
  | .local _ .vmem, ⟨13, _⟩ => ⟨S1024x512, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x1, .f32⟩
  | .local _ .vmem, ⟨19, _⟩ => ⟨S1x1024x1, .f32⟩
  | .local _ .vmem, ⟨20, _⟩ => ⟨S1x512, .f32⟩
  | .local _ .vmem, ⟨21, _⟩ => ⟨S1x1, .f32⟩
  | .local _ .vmem, ⟨22, _⟩ => ⟨S1x1024x512, .f32⟩
  | .local _ .vmem, ⟨23, _⟩ => ⟨S1x1024x512, .f32⟩
  | .local _ .vmem, ⟨24, _⟩ => ⟨S1x1024x512, .f32⟩
  | .local _ .vmem, ⟨25, _⟩ => ⟨S1x1024x512, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v2 : Ref sig .tc := ⟨.hbm, 53, rfl⟩
abbrev main_c_1 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v3 : Ref sig .tc := ⟨.hbm, 75, rfl⟩
abbrev main_cst : Ref sig .tc := ⟨.hbm, 76, rfl⟩
abbrev main_v4 : Ref sig .tc := ⟨.hbm, 77, rfl⟩
abbrev main_c_2 : Ref sig .tc := ⟨.hbm, 78, rfl⟩
abbrev main_v5 : Ref sig .tc := ⟨.hbm, 79, rfl⟩
abbrev main_v6 : Ref sig .tc := ⟨.hbm, 80, rfl⟩
abbrev main_c_3 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_c_4 : Ref sig .tc := ⟨.hbm, 85, rfl⟩
abbrev main_v10 : Ref sig .tc := ⟨.hbm, 86, rfl⟩
abbrev main_v11 : Ref sig .tc := ⟨.hbm, 87, rfl⟩
abbrev main_c_5 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_c_6 : Ref sig .tc := ⟨.hbm, 92, rfl⟩
abbrev main_v15 : Ref sig .tc := ⟨.hbm, 93, rfl⟩
abbrev main_v16 : Ref sig .tc := ⟨.hbm, 94, rfl⟩
abbrev main_c_7 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_cst_8 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_c_9 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_cst_10 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S32x1024x512_S32768x512 : S32x1024x512.ShapeCasts S32768x512
  bcast_S_S262144 : S_.BroadcastsInDim S262144 (![] : Fin 0 → Fin S262144.rank)
  bcast_S_S32x1024x1024 : S_.BroadcastsInDim S32x1024x1024 (![] : Fin 0 → Fin S32x1024x1024.rank)
  bcast_S262144_S262144x1_0 : S262144.BroadcastsInDim S262144x1 (![0] : Fin 1 → Fin S262144x1.rank)
  concatenates_S262144x1_S262144x1_S262144x1_S262144x3_d1 : Shape.Concatenates [S262144x1, S262144x1, S262144x1] S262144x3 1
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bitsLt_bf16_f32 : FTy.bits .bf16 < FTy.bits .f32
  shapeCasts_S32x1024_S32768x1 : S32x1024.ShapeCasts S32768x1
  shapeCasts_S512_S1x512 : S512.ShapeCasts S1x512
  shapeCasts_S_S1x1 : S_.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S32768x512_S32x1024x512 : S32768x512.ShapeCasts S32x1024x512
  shapeCasts_S32x1024_S32x1024x1 : S32x1024.ShapeCasts S32x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  reduces_S1024x512_S1024 : S1024x512.Reduces [1] S1024
  shapeCasts_S1024_S1024x1 : S1024.ShapeCasts S1024x1
  shapeCasts_S1024x512_S1x1024x512 : S1024x512.ShapeCasts S1x1024x512
  scatter_S32x1024x1024_S262144x3_S262144_n_012_012_1_wf : ScatterDims.WF S32x1024x1024 S262144x3 S262144 [] [0, 1, 2] [0, 1, 2] 1
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S32768x1.size a
  hwx0_9 : ∀ i : grid0.Coords, EltTy.bits .f32 = 32 ∨ (Rect.block (s := S32768x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S32768x512.size a
  hwx0_10 : ∀ i : grid0.Coords, EltTy.bits .bf16 = 32 ∨ (Rect.block (s := S32768x512) S1024x512.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x1024x1024.size a
  hwx1_0 : ∀ i : grid1.Coords, EltTy.bits .bf16 = 32 ∨ (Rect.block (s := S32x1024x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S32x1024x512.size a
  hwx1_1 : ∀ i : grid1.Coords, EltTy.bits .bf16 = 32 ∨ (Rect.block (s := S32x1024x512) S1x1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S32x1024x1.size a
  hwx1_2 : ∀ i : grid1.Coords, EltTy.bits .f32 = 32 ∨ (Rect.block (s := S32x1024x1) S1x1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S32x1024x512.size a
  hwx1_5 : ∀ i : grid1.Coords, EltTy.bits .f32 = 32 ∨ (Rect.block (s := S32x1024x512) S1x1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x512.size a ≤ S32x1024x512.size a
  hwx1_6 : ∀ i : grid1.Coords, EltTy.bits .f32 = 32 ∨ (Rect.block (s := S32x1024x512) S1x1024x512.size (cc1_transform_6 i) (hinb1_6 i)).WholeWords (EltTy.packing .f32)

variable [Facts₀]

def scatter_S32x1024x1024_S262144x3_S262144_n_012_012_1 : ScatterDims S32x1024x1024 S262144x3 S262144 where
  updateWindowDims := []
  insertedWindowDims := [0, 1, 2]
  scatterDimsToOperandDims := [0, 1, 2]
  indexVectorDim := 1
  wf := scatter_S32x1024x1024_S262144x3_S262144_n_012_012_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1024x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v37) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1x1024x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x1024x512 : Shape := ⟨3, ![32, 1024, 512]⟩
abbrev S262144 : Shape := ⟨1, ![262144]⟩
abbrev S512x512 : Shape := ⟨2, ![512, 512]⟩
abbrev S512 : Shape := ⟨1, ![512]⟩
abbrev S_ : Shape := ⟨0, ![]⟩
abbrev S32768x512 : Shape := ⟨2, ![32768, 512]⟩
abbrev S1x512 : Shape := ⟨2, ![1, 512]⟩
abbrev S32768 : Shape := ⟨1, ![32768]⟩
abbrev S294912 : Shape := ⟨1, ![294912]⟩
abbrev S294912x1 : Shape := ⟨2, ![294912, 1]⟩
abbrev S32768x1 : Shape := ⟨2, ![32768, 1]⟩
abbrev S294912x512 : Shape := ⟨2, ![294912, 512]⟩
abbrev S32x1024 : Shape := ⟨2, ![32, 1024]⟩
abbrev S32x1024x1 : Shape := ⟨3, ![32, 1024, 1]⟩

abbrev nBuf : Space → Nat
  | .hbm => 106
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S262144, .i32⟩
  | .hbm, ⟨2, _⟩ => ⟨S262144, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512x512, .f32⟩
  | .hbm, ⟨11, _⟩ => ⟨S512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .i1⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768, .i32⟩
  | .hbm, ⟨41, _⟩ => ⟨S294912, .i32⟩
  | .hbm, ⟨42, _⟩ => ⟨S294912, .i32⟩
  | .hbm, ⟨43, _⟩ => ⟨S_, .f32⟩
  | .hbm, ⟨44, _⟩ => ⟨S32768, .f32⟩
  | .hbm, ⟨45, _⟩ => ⟨S_, .i32⟩
  | .hbm, ⟨46, _⟩ => ⟨S294912, .i32⟩
  | .hbm, ⟨47, _⟩ => ⟨S294912, .i1⟩
  | .hbm, ⟨48, _⟩ => ⟨S_, .i32⟩
  | .hbm, ⟨49, _⟩ => ⟨S294912, .i32⟩
  | .hbm, ⟨50, _⟩ => ⟨S294912, .i32⟩
  | .hbm, ⟨51, _⟩ => ⟨S294912, .i32⟩
  | .hbm, ⟨52, _⟩ => ⟨S294912x1, .i32⟩
  | .hbm, ⟨53, _⟩ => ⟨S_, .f32⟩
  | .hbm, ⟨54, _⟩ => ⟨S294912, .f32⟩
  | .hbm, ⟨55, _⟩ => ⟨S32768, .f32⟩
  | .hbm, ⟨56, _⟩ => ⟨S32768, .f32⟩
  | .hbm, ⟨57, _⟩ => ⟨S32768x512, .f32⟩
  | .hbm, ⟨58, _⟩ => ⟨S32768x1, .f32⟩
  | .hbm, ⟨59, _⟩ => ⟨S32768x512, .f32⟩
  | .hbm, ⟨60, _⟩ => ⟨S32768x512, .f32⟩
  | .hbm, ⟨61, _⟩ => ⟨S_, .i32⟩
  | .hbm, ⟨62, _⟩ => ⟨S294912, .i32⟩
  | .hbm, ⟨63, _⟩ => ⟨S294912, .i1⟩
  | .hbm, ⟨64, _⟩ => ⟨S_, .i32⟩
  | .hbm, ⟨65, _⟩ => ⟨S294912, .i32⟩
  | .hbm, ⟨66, _⟩ => ⟨S294912, .i32⟩
  | .hbm, ⟨67, _⟩ => ⟨S294912, .i32⟩
  | .hbm, ⟨68, _⟩ => ⟨S294912x1, .i32⟩
  | .hbm, ⟨69, _⟩ => ⟨S294912x512, .f32⟩
  | .hbm, ⟨70, _⟩ => ⟨S_, .f32⟩
  | .hbm, ⟨71, _⟩ => ⟨S32768x512, .f32⟩
  | .hbm, ⟨72, _⟩ => ⟨S_, .i32⟩
  | .hbm, ⟨73, _⟩ => ⟨S294912, .i32⟩
  | .hbm, ⟨74, _⟩ => ⟨S294912, .i1⟩
  | .hbm, ⟨75, _⟩ => ⟨S_, .i32⟩
  | .hbm, ⟨76, _⟩ => ⟨S294912, .i32⟩
  | .hbm, ⟨77, _⟩ => ⟨S294912, .i32⟩
  | .hbm, ⟨78, _⟩ => ⟨S294912, .i32⟩
  | .hbm, ⟨79, _⟩ => ⟨S294912x1, .i32⟩
  | .hbm, ⟨80, _⟩ => ⟨S32768x512, .f32⟩
  | .hbm, ⟨81, _⟩ => ⟨S32768x1, .f32⟩
  | .hbm, ⟨82, _⟩ => ⟨S32768x512, .f32⟩
  | .hbm, ⟨83, _⟩ => ⟨S32768x512, .f32⟩
  | .hbm, ⟨84, _⟩ => ⟨S1x512, .f32⟩
  | .hbm, ⟨85, _⟩ => ⟨S32768x512, .f32⟩
  | .hbm, ⟨86, _⟩ => ⟨S32768x512, .f32⟩
  | .hbm, ⟨87, _⟩ => ⟨S_, .f32⟩
  | .hbm, ⟨88, _⟩ => ⟨S32768x512, .f32⟩
  | .hbm, ⟨89, _⟩ => ⟨S32768x512, .i1⟩
  | .hbm, ⟨90, _⟩ => ⟨S32768x512, .f32⟩
  | .hbm, ⟨91, _⟩ => ⟨S32768x512, .f32⟩
  | .hbm, ⟨92, _⟩ => ⟨S32768x512, .f32⟩
  | .hbm, ⟨93, _⟩ => ⟨S32x1024x512, .f32⟩
  | .hbm, ⟨94, _⟩ => ⟨S32x1024x512, .f32⟩
  | .hbm, ⟨95, _⟩ => ⟨S_, .f32⟩
  | .hbm, ⟨96, _⟩ => ⟨S32x1024, .f32⟩
  | .hbm, ⟨97, _⟩ => ⟨S32x1024x1, .f32⟩
  | .hbm, ⟨98, _⟩ => ⟨S32x1024x1, .f32⟩
  | .hbm, ⟨99, _⟩ => ⟨S_, .f32⟩
  | .hbm, ⟨100, _⟩ => ⟨S_, .f32⟩
  | .hbm, ⟨101, _⟩ => ⟨S32x1024x1, .f32⟩
  | .hbm, ⟨102, _⟩ => ⟨S32x1024x1, .f32⟩
  | .hbm, ⟨103, _⟩ => ⟨S32x1024x512, .f32⟩
  | .hbm, ⟨104, _⟩ => ⟨S32x1024x512, .f32⟩
  | .hbm, ⟨105, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_4 : Ref sig .tc := ⟨.hbm, 61, rfl⟩
abbrev main_v42 : Ref sig .tc := ⟨.hbm, 62, rfl⟩
abbrev main_v43 : Ref sig .tc := ⟨.hbm, 63, rfl⟩
abbrev main_c_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v69 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  shapeCasts_S32x1024x512_S32768x512 : S32x1024x512.ShapeCasts S32768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  bcast_S_S32768x512 : S_.BroadcastsInDim S32768x512 (![] : Fin 0 → Fin S32768x512.rank)
  concatenates_S262144_S32768_S294912_d0 : Shape.Concatenates [S262144, S32768] S294912 0
  bcast_S_S32768 : S_.BroadcastsInDim S32768 (![] : Fin 0 → Fin S32768.rank)
  bcast_S_S294912 : S_.BroadcastsInDim S294912 (![] : Fin 0 → Fin S294912.rank)
  bcast_S294912_S294912x1_0 : S294912.BroadcastsInDim S294912x1 (![0] : Fin 1 → Fin S294912x1.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  shapeCasts_S32768x512_S32x1024x512 : S32768x512.ShapeCasts S32x1024x512
  reducesTo_S32x1024x512_S32x1024_d2 : S32x1024x512.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x512_0_1_2 : S32x1024x1.BroadcastsInDim S32x1024x512 (![0, 1, 2] : Fin 3 → Fin S32x1024x512.rank)
  dot_S32768x512_S512x512_S32768x512_1_0_0_1_n_n_wf : DotDims.WF S32768x512 S512x512 S32768x512 [1] [0] [0] [1] [] []
  scatter_S32768_S294912x1_S294912_n_0_0_1_wf : ScatterDims.WF S32768 S294912x1 S294912 [] [0] [0] 1
  gather_S32768x512_S294912x1_S294912x512_1_0_n_n_0_1_1512_wf : GatherDims.WF S32768x512 S294912x1 S294912x512 [1] [0] [] [0] [] 1 ![1, 512]
  scatter_S32768x512_S294912x1_S294912x512_1_0_0_1_wf : ScatterDims.WF S32768x512 S294912x1 S294912x512 [1] [0] [0] 1

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def scatter_S32768_S294912x1_S294912_n_0_0_1 : ScatterDims S32768 S294912x1 S294912 where
  updateWindowDims := []
  insertedWindowDims := [0]
  scatterDimsToOperandDims := [0]
  indexVectorDim := 1
  wf := scatter_S32768_S294912x1_S294912_n_0_0_1_wf
def gather_S32768x512_S294912x1_S294912x512_1_0_n_n_0_1_1512 : GatherDims S32768x512 S294912x1 S294912x512 where
  offsetDims := [1]
  collapsedSliceDims := [0]
  operandBatchingDims := []
  startIndicesBatchingDims := []
  startIndexMap := [0]
  indexVectorDim := 1
  sliceSizes := ![1, 512]
  wf := gather_S32768x512_S294912x1_S294912x512_1_0_n_n_0_1_1512_wf
def scatter_S32768x512_S294912x1_S294912x512_1_0_0_1 : ScatterDims S32768x512 S294912x1 S294912x512 where
  updateWindowDims := [1]
  insertedWindowDims := [0]
  scatterDimsToOperandDims := [0]
  indexVectorDim := 1
  wf := scatter_S32768x512_S294912x1_S294912x512_1_0_0_1_wf

class Facts : Prop extends Facts₀ where

variable [Facts]
-- ==== Proof.KIDat.lean ====
/-
  The data the two kernel regions of the idealized kernel program are described by, and the contents of the
  TensorCore's buffers at every boundary of its entry function.

  Region 0 (the node transform) runs on 32 row blocks of 1024 nodes: at block `t` it reads rows
  `1024 t … 1024 t + 1023` of the feature matrix and of the degree column, the whole weight matrices and the
  per-feature rows, and writes the same rows of its result.  Region 1 (aggregation and normalisation) runs on
  the 32 graphs: at graph `b` it reads that graph's adjacency counts, scaled features, degree column and
  input features, the bias row and the slope, and writes that graph's rows of the result.  Each body stores
  its whole output block once, a pure function (`pay0`, `pay1`) of the blocks it loaded.
-/
import proofs.«425183_j61959198212219_2_alg».proof.Proof.Gen.KernelIdeal.Launch
import proofs.«425183_j61959198212219_2_alg».proof.Proof.Gen.KernelIdeal.Skeleton
import proofs.«425183_j61959198212219_2_alg».proof.Proof.Gen.KernelIdeal.Points
import proofs.«425183_j61959198212219_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Regions
variable (V : (c : Dev nD) → (b : Ref sig .tc) → Buf (Elt F) ((c : Thread nD τ).loc b))

/-! ## Region 0 -/

/-- Window `w`'s block at grid point `t`, cut from its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the bodies load and store through. -/
abbrev rA : Rect S1024x512 := Rect.unit (s := S1024x512) ![0, 0] S1024x512.size inb_S1024x512_S1024x512_0_0
abbrev rW : Rect S512x512 := Rect.unit (s := S512x512) ![0, 0] S512x512.size inb_S512x512_S512x512_0_0
abbrev rV : Rect S1x512 := Rect.unit (s := S1x512) ![0, 0] S1x512.size inb_S1x512_S1x512_0_0
abbrev rS : Rect S1x1 := Rect.unit (s := S1x1) ![0, 0] S1x1.size inb_S1x1_S1x1_0_0
abbrev rD : Rect S1024x1 := Rect.unit (s := S1024x1) ![0, 0] S1024x1.size inb_S1024x1_S1024x1_0_0

/-- What region 0's body stores, from the ten blocks it loads (features, first weights, bias, scale, shift,
    mean, variance, slope, second weights, degree column). -/
def pay0 (x0 : Vec F S1024x512 .f32) (x1 : Vec F S512x512 .f32) (x2 x3 x4 x5 x6 : Vec F S1x512 .f32)
    (x7 : Vec F S1x1 .f32) (x8 : Vec F S512x512 .f32) (x9 : Vec F S1024x1 .f32) : Vec F S1024x512 .bf16 :=
  k0_pay1 (k0_pay2 (View.ld x0 rA) (View.ld x1 rW) (View.ld x2 rV) (View.ld x5 rV) (View.ld x6 rV) (View.ld x3 rV) (View.ld x4 rV) (View.ld x7 rS))
    (View.ld x8 rW) (View.ld x9 rD)

/-- The output block after the body: its one store. -/
def out0_10 (x0 : Vec F S1024x512 .f32) (x1 : Vec F S512x512 .f32) (x2 x3 x4 x5 x6 : Vec F S1x512 .f32)
    (x7 : Vec F S1x1 .f32) (x8 : Vec F S512x512 .f32) (x9 : Vec F S1024x1 .f32) : Vec F S1024x512 .bf16 :=
  View.canon [⟨rA, pay0 x0 x1 x2 x3 x4 x5 x6 x7 x8 x9⟩]

/-- Region 0's proof data on core `c`: arrays as found, every input block left in place, the output block at
    `out0_10` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t =
    out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAdj : Rect S1x1024x1024 := Rect.unit (s := S1x1024x1024) ![0, 0, 0] S1x1024x1024.size inb_S1x1024x1024_S1x1024x1024_0_0_0
abbrev rB : Rect S1x1024x512 := Rect.unit (s := S1x1024x512) ![0, 0, 0] S1x1024x512.size inb_S1x1024x512_S1x1024x512_0_0_0
abbrev rC : Rect S1x1024x1 := Rect.unit (s := S1x1024x1) ![0, 0, 0] S1x1024x1.size inb_S1x1024x1_S1x1024x1_0_0_0

/-- What region 1's body stores, from the six blocks it loads (adjacency counts, scaled features, degree
    column, bias row, slope, input features). -/
def pay1 (x0 : Vec F S1x1024x1024 .bf16) (x1 : Vec F S1x1024x512 .bf16) (x2 : Vec F S1x1024x1 .f32)
    (x3 : Vec F S1x512 .f32) (x4 : Vec F S1x1 .f32) (x5 : Vec F S1x1024x512 .f32) : Vec F S1x1024x512 .f32 :=
  k1_pay1 (View.ld x0 rAdj) (View.ld x1 rB) (View.ld x2 rC) (View.ld x3 rV) (View.ld x4 rS) (View.ld x5 rB)

def out1_6 (x0 : Vec F S1x1024x1024 .bf16) (x1 : Vec F S1x1024x512 .bf16) (x2 : Vec F S1x1024x1 .f32)
    (x3 : Vec F S1x512 .f32) (x4 : Vec F S1x1 .f32) (x5 : Vec F S1x1024x512 .f32) : Vec F S1x1024x512 .f32 :=
  View.canon [⟨rB, pay1 x0 x1 x2 x3 x4 x5⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

end Regions

/-! ## The buffers' contents at the boundaries of the entry function -/

variable (m : (ℓ : Loc nD τ sig) → Buf (Elt F) ℓ)

/-- At region 0's entry: the launch memory after the seven host stretches before it. -/
abbrev W7 : Dev nD → Valuation τ sig (Elt F) := fun c => Gen.V7 m c
abbrev VV7 : (c : Dev nD) → (b : Ref sig .tc) → Buf (Elt F) ((c : Thread nD τ).loc b) := fun c b => W7 m c b

/-- At region 0's exit: its arrays at what its write-backs leave, every other buffer as entered. -/
def W8 (c : Dev nD) : Valuation τ sig (Elt F) :=
  Pipeline.withArrays spec0 c (W7 m c) fun w => (dat0 (VV7 m) c).arrAt w cfg0.N
abbrev VV8 : (c : Dev nD) → (b : Ref sig .tc) → Buf (Elt F) ((c : Thread nD τ).loc b) := fun c b => W8 m c b

/-- At region 1's entry: after the host stretch between the regions. -/
abbrev W9 : Dev nD → Valuation τ sig (Elt F) := fun c => StableHlo.after hostOps1 (W8 m c)
abbrev VV9 : (c : Dev nD) → (b : Ref sig .tc) → Buf (Elt F) ((c : Thread nD τ).loc b) := fun c b => W9 m c b

/-- At region 1's exit, which is the return. -/
def W10 (c : Dev nD) : Valuation τ sig (Elt F) :=
  Pipeline.withArrays spec1 c (W9 m c) fun w => (dat1 (VV9 m) c).arrAt w cfg1.N
abbrev VV10 : (c : Dev nD) → (b : Ref sig .tc) → Buf (Elt F) ((c : Thread nD τ).loc b) := fun c b => W10 m c b

theorem W8_arr (c : Dev nD) (w : Fin cfg0.W) :
    W8 m c (Proc.devRef .tc (Pipeline.arrRef spec0 w)) = (dat0 (VV7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W10_arr (c : Dev nD) (w : Fin cfg1.W) :
    W10 m c (Proc.devRef .tc (Pipeline.arrRef spec1 w)) = (dat1 (VV9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.KernelIdeal.Hand

end
-- ==== Proof.KIFrame.lean ====
/-
  The run of the idealized kernel program, generic in the float instance.

  Per kernel region: each input window's current buffer holds the window's block at every grid point (moved there at
  that point or left from the point before, the block index unchanged); the body — whole-block loads of every input,
  a load of the output block whose value is unused, one whole-block store — leaves the inputs in place and the output
  block at the pure function `out` of the input blocks; hence the body obligation of the region's proof data.

  The run: the entry function is ten segments — seven stretches of host operations, the node-transform region, one
  host stretch, the aggregation region.  The thread state between two segments is "every unscoped buffer of the
  core, whole, at the boundary's contents; the generator register at some state; nothing owed".  A host stretch
  takes the contents to its result on them; a region takes them to the same contents with its arrays at what its
  write-backs leave.  So every execution terminates with every unscoped buffer at the return's contents `W10`, and in
  particular every argument array as launched.
-/
import proofs.«425183_j61959198212219_2_alg».proof.Proof.KIDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: what the body finds in each input window's buffer -/

/-- Input window 0's current buffer holds its block at every point, moved there at that point or not: an
    unmoved block index leaves the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, moved there at that point or not: an
    unmoved block index leaves the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, moved there at that point or not: an
    unmoved block index leaves the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, moved there at that point or not: an
    unmoved block index leaves the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, moved there at that point or not: an
    unmoved block index leaves the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, moved there at that point or not: an
    unmoved block index leaves the previous point's block, which is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, moved there at that point or not: an
    unmoved block index leaves the previous point's block, which is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, moved there at that point or not: an
    unmoved block index leaves the previous point's block, which is this point's. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, moved there at that point or not: an
    unmoved block index leaves the previous point's block, which is this point's. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current buffer holds its block at every point, moved there at that point or not: an
    unmoved block index leaves the previous point's block, which is this point's. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_10 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## Region 0: the body's triple -/

set_option maxHeartbeats 4000000 in
/-- The body on whole buffers, the inputs' at contents `x` and the output's at anything, runs to the continuation
    holding the inputs' as they were and the output's at `out0_10` of the inputs': it loads every input block whole,
    loads the output block (unused), and stores the whole output block once. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S512x512 .f32) (harg9 : arg9.IsWhole) (arg10 : Memref sig .tc .vmem S1024x1 .f32) (harg10 : arg10.IsWhole) (arg11 : Memref sig .tc .vmem S1024x512 .bf16) (harg11 : arg11.IsWhole)
    (x0 : Vec F S1024x512 .f32) (x1 : Vec F S512x512 .f32) (x2 : Vec F S1x512 .f32) (x3 : Vec F S1x512 .f32) (x4 : Vec F S1x512 .f32) (x5 : Vec F S1x512 .f32) (x6 : Vec F S1x512 .f32) (x7 : Vec F S1x1 .f32) (x8 : Vec F S512x512 .f32) (x9 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__node_transform_kernel i arg1 harg1 arg2 harg2 arg3 harg3 arg4 harg4 arg5 harg5 arg6 harg6 arg7 harg7 arg8 harg8 arg9 harg9 arg10 harg10 arg11 harg11) K := by
  simp only [cc0__node_transform_kernel_eq_skeleton]; unfold cc0__node_transform_kernel_skel
  simp only [k0_part1_eq_skeleton]; unfold k0_part1_skel
  unfold owns out0_10 pay0
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## Region 0: the proof data, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## Region 0: the body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: what the body finds in each input window's buffer -/

/-- Input window 0's current buffer holds its block at every point, moved there at that point or not: an
    unmoved block index leaves the previous point's block, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, moved there at that point or not: an
    unmoved block index leaves the previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, moved there at that point or not: an
    unmoved block index leaves the previous point's block, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, moved there at that point or not: an
    unmoved block index leaves the previous point's block, which is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, moved there at that point or not: an
    unmoved block index leaves the previous point's block, which is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, moved there at that point or not: an
    unmoved block index leaves the previous point's block, which is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers it. -/
theorem cover1_6 (p0 : Vec F S1x1024x512 .f32) (y : S1x1024x512.Idx) :
    ∃ pc ∈ ([⟨rB, p0⟩] : List (View.Piece (Elt F) S1x1024x512 .f32)), y ∈ pc.1.set :=
  View.cover_of_tiled [⟨rB, p0⟩] S1x1024x512.size (by rfl) y

/-! ## Region 1: the body's triple -/

set_option maxHeartbeats 4000000 in
/-- The body on whole buffers, the inputs' at contents `x` and the output's at anything, runs to the continuation
    holding the inputs' as they were and the output's at `out1_6` of the inputs': it loads every input block whole,
    loads the output block (unused), and stores the whole output block once. -/
theorem sound_kernel1 (c : Dev nD) (E : Set ℕ) (i : grid1.Coords) (arg1 : Memref sig .tc .vmem S1x1024x1024 .bf16) (harg1 : arg1.IsWhole) (arg2 : Memref sig .tc .vmem S1x1024x512 .bf16) (harg2 : arg2.IsWhole) (arg3 : Memref sig .tc .vmem S1x1024x1 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1024x512 .f32) (harg6 : arg6.IsWhole) (arg7 : Memref sig .tc .vmem S1x1024x512 .f32) (harg7 : arg7.IsWhole)
    (x0 : Vec F S1x1024x1024 .bf16) (x1 : Vec F S1x1024x512 .bf16) (x2 : Vec F S1x1024x1 .f32) (x3 : Vec F S1x512 .f32) (x4 : Vec F S1x1 .f32) (x5 : Vec F S1x1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__agg_finalize_kernel i arg1 harg1 arg2 harg2 arg3 harg3 arg4 harg4 arg5 harg5 arg6 harg6 arg7 harg7) K := by
  simp only [cc1__agg_finalize_kernel_eq_skeleton]; unfold cc1__agg_finalize_kernel_skel
  unfold owns out1_6 pay1
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## Region 1: the proof data, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Region 1: the body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

/-! # The run: the entry function's segments from the launch to the return

## The contents at each boundary -/

variable (m : (ℓ : Loc nD τ sig) → Buf (Elt F) ℓ) (ρ : Dev nD → PrngReg)

/-- At a region's exit each of its arrays holds what its write-backs leave, and every other buffer what it held at
    the region's entry. -/
theorem hF0 (c : Dev nD) (w : Fin cfg0.W) : (dat0 (VV7 m) c).arrAt w cfg0.N = VV8 m c (Pipeline.arrRef spec0 w) :=
  (W8_arr m c w).symm
theorem hrest0 (c : Dev nD) : ∀ b, b ∉ Finset.univ.image (Pipeline.arrRef spec0) → VV8 m c b = VV7 m c b :=
  fun b hb => W8_of_ne m c b fun w e => hb (Finset.mem_image.mpr ⟨w, Finset.mem_univ _, e⟩)
theorem hF1 (c : Dev nD) (w : Fin cfg1.W) : (dat1 (VV9 m) c).arrAt w cfg1.N = VV10 m c (Pipeline.arrRef spec1 w) :=
  (W10_arr m c w).symm
theorem hrest1 (c : Dev nD) : ∀ b, b ∉ Finset.univ.image (Pipeline.arrRef spec1) → VV10 m c b = VV9 m c b :=
  fun b hb => W10_of_ne m c b fun w e => hb (Finset.mem_image.mpr ⟨w, Finset.mem_univ _, e⟩)

/-! ## The arguments end as launched

No host operation writes an argument, and a region reads one through an input window or not at all, so the
contents at an argument's buffer walk back to the launch memory. -/

theorem W7_main_arg0 (c : Dev nD) : W7 m c (Proc.devRef .tc main_arg0) = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg6 (c : Dev nD) : W7 m c (Proc.devRef .tc main_arg6) = m ((c : Thread nD τ).loc main_arg6) :=
  (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem W7_main_arg7 (c : Dev nD) : W7 m c (Proc.devRef .tc main_arg7) = m ((c : Thread nD τ).loc main_arg7) :=
  (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem W7_main_arg8 (c : Dev nD) : W7 m c (Proc.devRef .tc main_arg8) = m ((c : Thread nD τ).loc main_arg8) :=
  (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem W7_main_arg9 (c : Dev nD) : W7 m c (Proc.devRef .tc main_arg9) = m ((c : Thread nD τ).loc main_arg9) :=
  (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
theorem W7_main_arg10 (c : Dev nD) : W7 m c (Proc.devRef .tc main_arg10) = m ((c : Thread nD τ).loc main_arg10) :=
  (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem W7_main_arg11 (c : Dev nD) : W7 m c (Proc.devRef .tc main_arg11) = m ((c : Thread nD τ).loc main_arg11) :=
  (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
theorem W7_main_arg12 (c : Dev nD) : W7 m c (Proc.devRef .tc main_arg12) = m ((c : Thread nD τ).loc main_arg12) :=
  (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl

theorem W10_main_arg0 (c : Dev nD) : W10 m c (Proc.devRef .tc main_arg0) = m ((c : Thread nD τ).loc main_arg0) :=
  calc W10 m c (Proc.devRef .tc main_arg0)
    _ = W9 m c (Proc.devRef .tc main_arg0) := (W10_arr m c 5).trans (((dat1 (VV9 m) c).arrAt_in 5 rfl _).trans (A_eq1 (VV9 m) c 5))
    _ = W8 m c (Proc.devRef .tc main_arg0) := StableHlo.after_of_writes_sub hostOps1 _ hostOps1_writes (by decide)
    _ = W7 m c (Proc.devRef .tc main_arg0) := W8_of_ne m c main_arg0 (by decide)
    _ = m ((c : Thread nD τ).loc main_arg0) := W7_main_arg0 m c
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps1 _ hostOps1_writes (by decide)
    _ = W7 m c (Proc.devRef .tc main_arg1) := W8_of_ne m c main_arg1 (by decide)
    _ = m ((c : Thread nD τ).loc main_arg1) := W7_main_arg1 m c
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps1 _ hostOps1_writes (by decide)
    _ = W7 m c (Proc.devRef .tc main_arg2) := W8_of_ne m c main_arg2 (by decide)
    _ = m ((c : Thread nD τ).loc main_arg2) := W7_main_arg2 m c
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps1 _ hostOps1_writes (by decide)
    _ = W7 m c (Proc.devRef .tc main_arg3) := (W8_arr m c 1).trans (((dat0 (VV7 m) c).arrAt_in 1 rfl _).trans (A_eq0 (VV7 m) c 1))
    _ = m ((c : Thread nD τ).loc main_arg3) := W7_main_arg3 m c
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps1 _ hostOps1_writes (by decide)
    _ = W7 m c (Proc.devRef .tc main_arg4) := W8_of_ne m c main_arg4 (by decide)
    _ = m ((c : Thread nD τ).loc main_arg4) := W7_main_arg4 m c
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps1 _ hostOps1_writes (by decide)
    _ = W7 m c (Proc.devRef .tc main_arg5) := W8_of_ne m c main_arg5 (by decide)
    _ = m ((c : Thread nD τ).loc main_arg5) := W7_main_arg5 m c
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := StableHlo.after_of_writes_sub hostOps1 _ hostOps1_writes (by decide)
    _ = W7 m c (Proc.devRef .tc main_arg6) := W8_of_ne m c main_arg6 (by decide)
    _ = m ((c : Thread nD τ).loc main_arg6) := W7_main_arg6 m c
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps1 _ hostOps1_writes (by decide)
    _ = W7 m c (Proc.devRef .tc main_arg7) := W8_of_ne m c main_arg7 (by decide)
    _ = m ((c : Thread nD τ).loc main_arg7) := W7_main_arg7 m c
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := StableHlo.after_of_writes_sub hostOps1 _ hostOps1_writes (by decide)
    _ = W7 m c (Proc.devRef .tc main_arg8) := W8_of_ne m c main_arg8 (by decide)
    _ = m ((c : Thread nD τ).loc main_arg8) := W7_main_arg8 m c
theorem W10_main_arg9 (c : Dev nD) : W10 m c (Proc.devRef .tc main_arg9) = m ((c : Thread nD τ).loc main_arg9) :=
  calc W10 m c (Proc.devRef .tc main_arg9)
    _ = W9 m c (Proc.devRef .tc main_arg9) := W10_of_ne m c main_arg9 (by decide)
    _ = W8 m c (Proc.devRef .tc main_arg9) := StableHlo.after_of_writes_sub hostOps1 _ hostOps1_writes (by decide)
    _ = W7 m c (Proc.devRef .tc main_arg9) := W8_of_ne m c main_arg9 (by decide)
    _ = m ((c : Thread nD τ).loc main_arg9) := W7_main_arg9 m c
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_of_ne m c main_arg10 (by decide)
    _ = W8 m c (Proc.devRef .tc main_arg10) := StableHlo.after_of_writes_sub hostOps1 _ hostOps1_writes (by decide)
    _ = W7 m c (Proc.devRef .tc main_arg10) := (W8_arr m c 8).trans (((dat0 (VV7 m) c).arrAt_in 8 rfl _).trans (A_eq0 (VV7 m) c 8))
    _ = m ((c : Thread nD τ).loc main_arg10) := W7_main_arg10 m c
theorem W10_main_arg11 (c : Dev nD) : W10 m c (Proc.devRef .tc main_arg11) = m ((c : Thread nD τ).loc main_arg11) :=
  calc W10 m c (Proc.devRef .tc main_arg11)
    _ = W9 m c (Proc.devRef .tc main_arg11) := W10_of_ne m c main_arg11 (by decide)
    _ = W8 m c (Proc.devRef .tc main_arg11) := StableHlo.after_of_writes_sub hostOps1 _ hostOps1_writes (by decide)
    _ = W7 m c (Proc.devRef .tc main_arg11) := W8_of_ne m c main_arg11 (by decide)
    _ = m ((c : Thread nD τ).loc main_arg11) := W7_main_arg11 m c
theorem W10_main_arg12 (c : Dev nD) : W10 m c (Proc.devRef .tc main_arg12) = m ((c : Thread nD τ).loc main_arg12) :=
  calc W10 m c (Proc.devRef .tc main_arg12)
    _ = W9 m c (Proc.devRef .tc main_arg12) := W10_of_ne m c main_arg12 (by decide)
    _ = W8 m c (Proc.devRef .tc main_arg12) := StableHlo.after_of_writes_sub hostOps1 _ hostOps1_writes (by decide)
    _ = W7 m c (Proc.devRef .tc main_arg12) := W8_of_ne m c main_arg12 (by decide)
    _ = m ((c : Thread nD τ).loc main_arg12) := W7_main_arg12 m c

/-! ## The proof data family and the thread state -/

/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (VV7 m) c
  | ⟨1, _⟩ => fun c => dat1 (VV9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its
    debts, none. -/
abbrev R (c : Dev nD) : sProp 𝕄 := iprop((∃ r, prngReg c r) ∗ ∃ W, owes (c : Thread nD τ) (0 : CellTallies nD τ sig Unit) W)
/-- A host stretch as a segment over the unscoped buffers, from the contents `W`; it leaves them at the stretch's
    result on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return's contents, the generator register
    at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs
    leave; the generator register goes into the invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (VV7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV7 m c) (VV8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs
    leave; the generator register goes into the invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV9 m c) (VV10 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's ten segments in order. -/
abbrev segsH : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .host (hseg hostOps1 hostOps1_sub hostOps1_fresh (W8 m)),
    .region (reg1 m) ]

set_option backward.isDefEq.respectTransparency.types false in
/-- THE RUN. From any memory with zero counters, every weakly fair execution of the entry function on the
    TensorCores terminates, nothing faulting, and every final memory holds, at every unscoped buffer of every core,
    the return's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- THE FRAME: the entry function runs, and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c),
     (h c _ (mem_uc main_arg11 (by decide))).trans (W10_main_arg11 m c),
     (h c _ (mem_uc main_arg12 (by decide))).trans (W10_main_arg12 m c)⟩)
    (run_all m ρ)

end Cert.KernelIdeal.Hand

end
-- ==== Proof.KDat.lean ====
/-
  The data the two kernel regions of the word-level kernel program are described by, and the contents of the
  TensorCore's buffers at every boundary of its entry function.

  Region 0 (the node transform) runs on 32 row blocks of 1024 nodes: at block `t` it reads rows
  `1024 t … 1024 t + 1023` of the feature matrix and of the degree column, the whole weight matrices and the
  per-feature rows, and writes the same rows of its result.  Region 1 (aggregation and normalisation) runs on
  the 32 graphs: at graph `b` it reads that graph's adjacency counts, scaled features, degree column and
  input features, the bias row and the slope, and writes that graph's rows of the result.  Each body stores
  its whole output block once, a pure function (`pay0`, `pay1`) of the blocks it loaded.
-/
import proofs.«425183_j61959198212219_2_alg».proof.Proof.Gen.Kernel.Launch
import proofs.«425183_j61959198212219_2_alg».proof.Proof.Gen.Kernel.Skeleton
import proofs.«425183_j61959198212219_2_alg».proof.Proof.Gen.Kernel.Points
import proofs.«425183_j61959198212219_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Regions
variable (V : (c : Dev nD) → (b : Ref sig .tc) → Buf (Elt F) ((c : Thread nD τ).loc b))

/-! ## Region 0 -/

/-- Window `w`'s block at grid point `t`, cut from its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the bodies load and store through. -/
abbrev rA : Rect S1024x512 := Rect.unit (s := S1024x512) ![0, 0] S1024x512.size inb_S1024x512_S1024x512_0_0
abbrev rW : Rect S512x512 := Rect.unit (s := S512x512) ![0, 0] S512x512.size inb_S512x512_S512x512_0_0
abbrev rV : Rect S1x512 := Rect.unit (s := S1x512) ![0, 0] S1x512.size inb_S1x512_S1x512_0_0
abbrev rS : Rect S1x1 := Rect.unit (s := S1x1) ![0, 0] S1x1.size inb_S1x1_S1x1_0_0
abbrev rD : Rect S1024x1 := Rect.unit (s := S1024x1) ![0, 0] S1024x1.size inb_S1024x1_S1024x1_0_0

/-- What region 0's body stores, from the ten blocks it loads (features, first weights, bias, scale, shift,
    mean, variance, slope, second weights, degree column). -/
def pay0 (x0 : Vec F S1024x512 .f32) (x1 : Vec F S512x512 .f32) (x2 x3 x4 x5 x6 : Vec F S1x512 .f32)
    (x7 : Vec F S1x1 .f32) (x8 : Vec F S512x512 .f32) (x9 : Vec F S1024x1 .f32) : Vec F S1024x512 .bf16 :=
  k0_pay1 (k0_pay2 (View.ld x0 rA) (View.ld x1 rW) (View.ld x2 rV) (View.ld x5 rV) (View.ld x6 rV) (View.ld x3 rV) (View.ld x4 rV) (View.ld x7 rS))
    (View.ld x8 rW) (View.ld x9 rD)

/-- The output block after the body: its one store. -/
def out0_10 (x0 : Vec F S1024x512 .f32) (x1 : Vec F S512x512 .f32) (x2 x3 x4 x5 x6 : Vec F S1x512 .f32)
    (x7 : Vec F S1x1 .f32) (x8 : Vec F S512x512 .f32) (x9 : Vec F S1024x1 .f32) : Vec F S1024x512 .bf16 :=
  View.canon [⟨rA, pay0 x0 x1 x2 x3 x4 x5 x6 x7 x8 x9⟩]

/-- Region 0's proof data on core `c`: arrays as found, every input block left in place, the output block at
    `out0_10` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t =
    out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAdj : Rect S1x1024x1024 := Rect.unit (s := S1x1024x1024) ![0, 0, 0] S1x1024x1024.size inb_S1x1024x1024_S1x1024x1024_0_0_0
abbrev rB : Rect S1x1024x512 := Rect.unit (s := S1x1024x512) ![0, 0, 0] S1x1024x512.size inb_S1x1024x512_S1x1024x512_0_0_0
abbrev rC : Rect S1x1024x1 := Rect.unit (s := S1x1024x1) ![0, 0, 0] S1x1024x1.size inb_S1x1024x1_S1x1024x1_0_0_0

/-- What region 1's body stores, from the six blocks it loads (adjacency counts, scaled features, degree
    column, bias row, slope, input features). -/
def pay1 (x0 : Vec F S1x1024x1024 .bf16) (x1 : Vec F S1x1024x512 .bf16) (x2 : Vec F S1x1024x1 .f32)
    (x3 : Vec F S1x512 .f32) (x4 : Vec F S1x1 .f32) (x5 : Vec F S1x1024x512 .f32) : Vec F S1x1024x512 .f32 :=
  k1_pay1 (View.ld x0 rAdj) (View.ld x1 rB) (View.ld x2 rC) (View.ld x3 rV) (View.ld x4 rS) (View.ld x5 rB)

def out1_6 (x0 : Vec F S1x1024x1024 .bf16) (x1 : Vec F S1x1024x512 .bf16) (x2 : Vec F S1x1024x1 .f32)
    (x3 : Vec F S1x512 .f32) (x4 : Vec F S1x1 .f32) (x5 : Vec F S1x1024x512 .f32) : Vec F S1x1024x512 .f32 :=
  View.canon [⟨rB, pay1 x0 x1 x2 x3 x4 x5⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

end Regions

/-! ## The buffers' contents at the boundaries of the entry function -/

variable (m : (ℓ : Loc nD τ sig) → Buf (Elt F) ℓ)

/-- At region 0's entry: the launch memory after the seven host stretches before it. -/
abbrev W7 : Dev nD → Valuation τ sig (Elt F) := fun c => Gen.V7 m c
abbrev VV7 : (c : Dev nD) → (b : Ref sig .tc) → Buf (Elt F) ((c : Thread nD τ).loc b) := fun c b => W7 m c b

/-- At region 0's exit: its arrays at what its write-backs leave, every other buffer as entered. -/
def W8 (c : Dev nD) : Valuation τ sig (Elt F) :=
  Pipeline.withArrays spec0 c (W7 m c) fun w => (dat0 (VV7 m) c).arrAt w cfg0.N
abbrev VV8 : (c : Dev nD) → (b : Ref sig .tc) → Buf (Elt F) ((c : Thread nD τ).loc b) := fun c b => W8 m c b

/-- At region 1's entry: after the host stretch between the regions. -/
abbrev W9 : Dev nD → Valuation τ sig (Elt F) := fun c => StableHlo.after hostOps1 (W8 m c)
abbrev VV9 : (c : Dev nD) → (b : Ref sig .tc) → Buf (Elt F) ((c : Thread nD τ).loc b) := fun c b => W9 m c b

/-- At region 1's exit, which is the return. -/
def W10 (c : Dev nD) : Valuation τ sig (Elt F) :=
  Pipeline.withArrays spec1 c (W9 m c) fun w => (dat1 (VV9 m) c).arrAt w cfg1.N
abbrev VV10 : (c : Dev nD) → (b : Ref sig .tc) → Buf (Elt F) ((c : Thread nD τ).loc b) := fun c b => W10 m c b

theorem W8_arr (c : Dev nD) (w : Fin cfg0.W) :
    W8 m c (Proc.devRef .tc (Pipeline.arrRef spec0 w)) = (dat0 (VV7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W10_arr (c : Dev nD) (w : Fin cfg1.W) :
    W10 m c (Proc.devRef .tc (Pipeline.arrRef spec1 w)) = (dat1 (VV9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.Kernel.Hand

end
-- ==== Proof.KFrame.lean ====
/-
  The run of the word-level kernel program, generic in the float instance.

  Per kernel region: each input window's current buffer holds the window's block at every grid point (moved there at
  that point or left from the point before, the block index unchanged); the body — whole-block loads of every input,
  a load of the output block whose value is unused, one whole-block store — leaves the inputs in place and the output
  block at the pure function `out` of the input blocks; hence the body obligation of the region's proof data.

  The run: the entry function is ten segments — seven stretches of host operations, the node-transform region, one
  host stretch, the aggregation region.  The thread state between two segments is "every unscoped buffer of the
  core, whole, at the boundary's contents; the generator register at some state; nothing owed".  A host stretch
  takes the contents to its result on them; a region takes them to the same contents with its arrays at what its
  write-backs leave.  So every execution terminates with every unscoped buffer at the return's contents `W10`, and in
  particular every argument array as launched.
-/
import proofs.«425183_j61959198212219_2_alg».proof.Proof.KDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: what the body finds in each input window's buffer -/

/-- Input window 0's current buffer holds its block at every point, moved there at that point or not: an
    unmoved block index leaves the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, moved there at that point or not: an
    unmoved block index leaves the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, moved there at that point or not: an
    unmoved block index leaves the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, moved there at that point or not: an
    unmoved block index leaves the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, moved there at that point or not: an
    unmoved block index leaves the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, moved there at that point or not: an
    unmoved block index leaves the previous point's block, which is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, moved there at that point or not: an
    unmoved block index leaves the previous point's block, which is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, moved there at that point or not: an
    unmoved block index leaves the previous point's block, which is this point's. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, moved there at that point or not: an
    unmoved block index leaves the previous point's block, which is this point's. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current buffer holds its block at every point, moved there at that point or not: an
    unmoved block index leaves the previous point's block, which is this point's. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_10 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## Region 0: the body's triple -/

set_option maxHeartbeats 4000000 in
/-- The body on whole buffers, the inputs' at contents `x` and the output's at anything, runs to the continuation
    holding the inputs' as they were and the output's at `out0_10` of the inputs': it loads every input block whole,
    loads the output block (unused), and stores the whole output block once. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S512x512 .f32) (harg9 : arg9.IsWhole) (arg10 : Memref sig .tc .vmem S1024x1 .f32) (harg10 : arg10.IsWhole) (arg11 : Memref sig .tc .vmem S1024x512 .bf16) (harg11 : arg11.IsWhole)
    (x0 : Vec F S1024x512 .f32) (x1 : Vec F S512x512 .f32) (x2 : Vec F S1x512 .f32) (x3 : Vec F S1x512 .f32) (x4 : Vec F S1x512 .f32) (x5 : Vec F S1x512 .f32) (x6 : Vec F S1x512 .f32) (x7 : Vec F S1x1 .f32) (x8 : Vec F S512x512 .f32) (x9 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__node_transform_kernel i arg1 harg1 arg2 harg2 arg3 harg3 arg4 harg4 arg5 harg5 arg6 harg6 arg7 harg7 arg8 harg8 arg9 harg9 arg10 harg10 arg11 harg11) K := by
  simp only [cc0__node_transform_kernel_eq_skeleton]; unfold cc0__node_transform_kernel_skel
  simp only [k0_part1_eq_skeleton]; unfold k0_part1_skel
  unfold owns out0_10 pay0
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## Region 0: the proof data, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## Region 0: the body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: what the body finds in each input window's buffer -/

/-- Input window 0's current buffer holds its block at every point, moved there at that point or not: an
    unmoved block index leaves the previous point's block, which is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, moved there at that point or not: an
    unmoved block index leaves the previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, moved there at that point or not: an
    unmoved block index leaves the previous point's block, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, moved there at that point or not: an
    unmoved block index leaves the previous point's block, which is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, moved there at that point or not: an
    unmoved block index leaves the previous point's block, which is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, moved there at that point or not: an
    unmoved block index leaves the previous point's block, which is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers it. -/
theorem cover1_6 (p0 : Vec F S1x1024x512 .f32) (y : S1x1024x512.Idx) :
    ∃ pc ∈ ([⟨rB, p0⟩] : List (View.Piece (Elt F) S1x1024x512 .f32)), y ∈ pc.1.set :=
  View.cover_of_tiled [⟨rB, p0⟩] S1x1024x512.size (by rfl) y

/-! ## Region 1: the body's triple -/

set_option maxHeartbeats 4000000 in
/-- The body on whole buffers, the inputs' at contents `x` and the output's at anything, runs to the continuation
    holding the inputs' as they were and the output's at `out1_6` of the inputs': it loads every input block whole,
    loads the output block (unused), and stores the whole output block once. -/
theorem sound_kernel1 (c : Dev nD) (E : Set ℕ) (i : grid1.Coords) (arg1 : Memref sig .tc .vmem S1x1024x1024 .bf16) (harg1 : arg1.IsWhole) (arg2 : Memref sig .tc .vmem S1x1024x512 .bf16) (harg2 : arg2.IsWhole) (arg3 : Memref sig .tc .vmem S1x1024x1 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1024x512 .f32) (harg6 : arg6.IsWhole) (arg7 : Memref sig .tc .vmem S1x1024x512 .f32) (harg7 : arg7.IsWhole)
    (x0 : Vec F S1x1024x1024 .bf16) (x1 : Vec F S1x1024x512 .bf16) (x2 : Vec F S1x1024x1 .f32) (x3 : Vec F S1x512 .f32) (x4 : Vec F S1x1 .f32) (x5 : Vec F S1x1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__agg_finalize_kernel i arg1 harg1 arg2 harg2 arg3 harg3 arg4 harg4 arg5 harg5 arg6 harg6 arg7 harg7) K := by
  simp only [cc1__agg_finalize_kernel_eq_skeleton]; unfold cc1__agg_finalize_kernel_skel
  unfold owns out1_6 pay1
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## Region 1: the proof data, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Region 1: the body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

/-! # The run: the entry function's segments from the launch to the return

## The contents at each boundary -/

variable (m : (ℓ : Loc nD τ sig) → Buf (Elt F) ℓ) (ρ : Dev nD → PrngReg)

/-- At a region's exit each of its arrays holds what its write-backs leave, and every other buffer what it held at
    the region's entry. -/
theorem hF0 (c : Dev nD) (w : Fin cfg0.W) : (dat0 (VV7 m) c).arrAt w cfg0.N = VV8 m c (Pipeline.arrRef spec0 w) :=
  (W8_arr m c w).symm
theorem hrest0 (c : Dev nD) : ∀ b, b ∉ Finset.univ.image (Pipeline.arrRef spec0) → VV8 m c b = VV7 m c b :=
  fun b hb => W8_of_ne m c b fun w e => hb (Finset.mem_image.mpr ⟨w, Finset.mem_univ _, e⟩)
theorem hF1 (c : Dev nD) (w : Fin cfg1.W) : (dat1 (VV9 m) c).arrAt w cfg1.N = VV10 m c (Pipeline.arrRef spec1 w) :=
  (W10_arr m c w).symm
theorem hrest1 (c : Dev nD) : ∀ b, b ∉ Finset.univ.image (Pipeline.arrRef spec1) → VV10 m c b = VV9 m c b :=
  fun b hb => W10_of_ne m c b fun w e => hb (Finset.mem_image.mpr ⟨w, Finset.mem_univ _, e⟩)

/-! ## The arguments end as launched

No host operation writes an argument, and a region reads one through an input window or not at all, so the
contents at an argument's buffer walk back to the launch memory. -/

theorem W7_main_arg0 (c : Dev nD) : W7 m c (Proc.devRef .tc main_arg0) = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c (Proc.devRef .tc main_arg2) = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c (Proc.devRef .tc main_arg3) = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg6 (c : Dev nD) : W7 m c (Proc.devRef .tc main_arg6) = m ((c : Thread nD τ).loc main_arg6) :=
  (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem W7_main_arg7 (c : Dev nD) : W7 m c (Proc.devRef .tc main_arg7) = m ((c : Thread nD τ).loc main_arg7) :=
  (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem W7_main_arg8 (c : Dev nD) : W7 m c (Proc.devRef .tc main_arg8) = m ((c : Thread nD τ).loc main_arg8) :=
  (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem W7_main_arg9 (c : Dev nD) : W7 m c (Proc.devRef .tc main_arg9) = m ((c : Thread nD τ).loc main_arg9) :=
  (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
theorem W7_main_arg10 (c : Dev nD) : W7 m c (Proc.devRef .tc main_arg10) = m ((c : Thread nD τ).loc main_arg10) :=
  (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem W7_main_arg11 (c : Dev nD) : W7 m c (Proc.devRef .tc main_arg11) = m ((c : Thread nD τ).loc main_arg11) :=
  (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
theorem W7_main_arg12 (c : Dev nD) : W7 m c (Proc.devRef .tc main_arg12) = m ((c : Thread nD τ).loc main_arg12) :=
  (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl

theorem W10_main_arg0 (c : Dev nD) : W10 m c (Proc.devRef .tc main_arg0) = m ((c : Thread nD τ).loc main_arg0) :=
  calc W10 m c (Proc.devRef .tc main_arg0)
    _ = W9 m c (Proc.devRef .tc main_arg0) := (W10_arr m c 5).trans (((dat1 (VV9 m) c).arrAt_in 5 rfl _).trans (A_eq1 (VV9 m) c 5))
    _ = W8 m c (Proc.devRef .tc main_arg0) := StableHlo.after_of_writes_sub hostOps1 _ hostOps1_writes (by decide)
    _ = W7 m c (Proc.devRef .tc main_arg0) := W8_of_ne m c main_arg0 (by decide)
    _ = m ((c : Thread nD τ).loc main_arg0) := W7_main_arg0 m c
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps1 _ hostOps1_writes (by decide)
    _ = W7 m c (Proc.devRef .tc main_arg1) := W8_of_ne m c main_arg1 (by decide)
    _ = m ((c : Thread nD τ).loc main_arg1) := W7_main_arg1 m c
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps1 _ hostOps1_writes (by decide)
    _ = W7 m c (Proc.devRef .tc main_arg2) := W8_of_ne m c main_arg2 (by decide)
    _ = m ((c : Thread nD τ).loc main_arg2) := W7_main_arg2 m c
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps1 _ hostOps1_writes (by decide)
    _ = W7 m c (Proc.devRef .tc main_arg3) := (W8_arr m c 1).trans (((dat0 (VV7 m) c).arrAt_in 1 rfl _).trans (A_eq0 (VV7 m) c 1))
    _ = m ((c : Thread nD τ).loc main_arg3) := W7_main_arg3 m c
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps1 _ hostOps1_writes (by decide)
    _ = W7 m c (Proc.devRef .tc main_arg4) := W8_of_ne m c main_arg4 (by decide)
    _ = m ((c : Thread nD τ).loc main_arg4) := W7_main_arg4 m c
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps1 _ hostOps1_writes (by decide)
    _ = W7 m c (Proc.devRef .tc main_arg5) := W8_of_ne m c main_arg5 (by decide)
    _ = m ((c : Thread nD τ).loc main_arg5) := W7_main_arg5 m c
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := StableHlo.after_of_writes_sub hostOps1 _ hostOps1_writes (by decide)
    _ = W7 m c (Proc.devRef .tc main_arg6) := W8_of_ne m c main_arg6 (by decide)
    _ = m ((c : Thread nD τ).loc main_arg6) := W7_main_arg6 m c
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := StableHlo.after_of_writes_sub hostOps1 _ hostOps1_writes (by decide)
    _ = W7 m c (Proc.devRef .tc main_arg7) := W8_of_ne m c main_arg7 (by decide)
    _ = m ((c : Thread nD τ).loc main_arg7) := W7_main_arg7 m c
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := StableHlo.after_of_writes_sub hostOps1 _ hostOps1_writes (by decide)
    _ = W7 m c (Proc.devRef .tc main_arg8) := W8_of_ne m c main_arg8 (by decide)
    _ = m ((c : Thread nD τ).loc main_arg8) := W7_main_arg8 m c
theorem W10_main_arg9 (c : Dev nD) : W10 m c (Proc.devRef .tc main_arg9) = m ((c : Thread nD τ).loc main_arg9) :=
  calc W10 m c (Proc.devRef .tc main_arg9)
    _ = W9 m c (Proc.devRef .tc main_arg9) := W10_of_ne m c main_arg9 (by decide)
    _ = W8 m c (Proc.devRef .tc main_arg9) := StableHlo.after_of_writes_sub hostOps1 _ hostOps1_writes (by decide)
    _ = W7 m c (Proc.devRef .tc main_arg9) := W8_of_ne m c main_arg9 (by decide)
    _ = m ((c : Thread nD τ).loc main_arg9) := W7_main_arg9 m c
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_of_ne m c main_arg10 (by decide)
    _ = W8 m c (Proc.devRef .tc main_arg10) := StableHlo.after_of_writes_sub hostOps1 _ hostOps1_writes (by decide)
    _ = W7 m c (Proc.devRef .tc main_arg10) := (W8_arr m c 8).trans (((dat0 (VV7 m) c).arrAt_in 8 rfl _).trans (A_eq0 (VV7 m) c 8))
    _ = m ((c : Thread nD τ).loc main_arg10) := W7_main_arg10 m c
theorem W10_main_arg11 (c : Dev nD) : W10 m c (Proc.devRef .tc main_arg11) = m ((c : Thread nD τ).loc main_arg11) :=
  calc W10 m c (Proc.devRef .tc main_arg11)
    _ = W9 m c (Proc.devRef .tc main_arg11) := W10_of_ne m c main_arg11 (by decide)
    _ = W8 m c (Proc.devRef .tc main_arg11) := StableHlo.after_of_writes_sub hostOps1 _ hostOps1_writes (by decide)
    _ = W7 m c (Proc.devRef .tc main_arg11) := W8_of_ne m c main_arg11 (by decide)
    _ = m ((c : Thread nD τ).loc main_arg11) := W7_main_arg11 m c
theorem W10_main_arg12 (c : Dev nD) : W10 m c (Proc.devRef .tc main_arg12) = m ((c : Thread nD τ).loc main_arg12) :=
  calc W10 m c (Proc.devRef .tc main_arg12)
    _ = W9 m c (Proc.devRef .tc main_arg12) := W10_of_ne m c main_arg12 (by decide)
    _ = W8 m c (Proc.devRef .tc main_arg12) := StableHlo.after_of_writes_sub hostOps1 _ hostOps1_writes (by decide)
    _ = W7 m c (Proc.devRef .tc main_arg12) := W8_of_ne m c main_arg12 (by decide)
    _ = m ((c : Thread nD τ).loc main_arg12) := W7_main_arg12 m c

/-! ## The proof data family and the thread state -/

/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (VV7 m) c
  | ⟨1, _⟩ => fun c => dat1 (VV9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its
    debts, none. -/
abbrev R (c : Dev nD) : sProp 𝕄 := iprop((∃ r, prngReg c r) ∗ ∃ W, owes (c : Thread nD τ) (0 : CellTallies nD τ sig Unit) W)
/-- A host stretch as a segment over the unscoped buffers, from the contents `W`; it leaves them at the stretch's
    result on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return's contents, the generator register
    at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs
    leave; the generator register goes into the invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (VV7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV7 m c) (VV8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs
    leave; the generator register goes into the invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV9 m c) (VV10 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's ten segments in order. -/
abbrev segsH : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .host (hseg hostOps1 hostOps1_sub hostOps1_fresh (W8 m)),
    .region (reg1 m) ]

set_option backward.isDefEq.respectTransparency.types false in
/-- THE RUN. From any memory with zero counters, every weakly fair execution of the entry function on the
    TensorCores terminates, nothing faulting, and every final memory holds, at every unscoped buffer of every core,
    the return's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- THE FRAME: the entry function runs, and its thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c),
     (h c _ (mem_uc main_arg11 (by decide))).trans (W10_main_arg11 m c),
     (h c _ (mem_uc main_arg12 (by decide))).trans (W10_main_arg12 m c)⟩)
    (run_all m ρ)

end Cert.Kernel.Hand

end
-- ==== Proof.Spec.lean ====
/-
  The mathematics both programs compute, stated once over plain index types.

  A batch of 32 graphs of 1024 nodes each (32768 nodes, 512 features).  Every node first goes through a
  linear layer, an affine normalisation with fixed statistics and a leaky rectifier (`hid`), then a second
  linear layer (`xw`).  A graph convolution follows: with `deg n` the number of edges entering node `n`
  (a self loop included) and `dinv n = deg n ^ (-1/2)`, node `n` receives
  `dinv n * ∑_{edges j into n} dinv (src j) * xw (src j)`; a bias, a second leaky rectifier, a division by
  the row's Euclidean norm (clipped from below) and the residual input close the layer (`fin`).

  The reference sums over the global edge list (`degR`, `aggR`).  The kernel first builds, per graph `b`,
  the dense matrix `Aval b i k` = number of edges `k → i` inside graph `b` (plus the identity), and then
  multiplies (`degK`, `aggK`).  When every edge stays inside one graph the two agree (`degK_eq`, `aggK_eq`),
  on all extended reals: a natural number times `x` is `x` added that many times even at the infinities,
  and regrouping a finite sum needs only commutativity and associativity.
-/
import Idealize.ShloMosaic.PureOps.Ideal

noncomputable section

namespace Cert.Spec

open Idealize.ShloMosaic

/-- The normalisation's epsilon and the norm's lower clip, as the binary32 words both programs carry. -/
abbrev epsBN : EReal := Ideal.ofBits .f32 0x3727C5AC#32
abbrev epsN : EReal := Ideal.ofBits .f32 0x2B8CBCCC#32

/-- The leaky rectifier as both programs spell it: `y` where `y ≥ 0`, else `a * y`. -/
def prelu (a y : EReal) : EReal := Scalar.select (Ideal.cmp .oge y 0) y (a * y)

/-- The float arguments, read at plain coordinates (the node features flattened to 32768 rows). -/
structure Params where
  X : Fin 32768 → Fin 512 → EReal
  W1 : Fin 512 → Fin 512 → EReal
  b1 : Fin 512 → EReal
  gm : Fin 512 → EReal
  bt : Fin 512 → EReal
  rm : Fin 512 → EReal
  rv : Fin 512 → EReal
  a1 : EReal
  Wg : Fin 512 → Fin 512 → EReal
  bg : Fin 512 → EReal
  a2 : EReal

/-- The edge list: sources and destinations as natural numbers below 32768, each edge inside one graph. -/
structure Graph where
  src : Fin 262144 → ℕ
  dst : Fin 262144 → ℕ
  hs : ∀ e, src e < 32768
  hd : ∀ e, dst e < 32768
  hb : ∀ e, src e / 1024 = dst e / 1024

/-- The node MLP: linear layer, normalisation, leaky rectifier. -/
def hid (P : Params) (n : Fin 32768) (f : Fin 512) : EReal :=
  prelu P.a1 (((((∑ k : Fin 512, P.X n k * P.W1 k f) + P.b1 f) - P.rm f) * Ideal.rsqrt (P.rv f + epsBN)) * P.gm f + P.bt f)

/-- The convolution's linear layer. -/
def xw (P : Params) (n : Fin 32768) (f : Fin 512) : EReal := ∑ k : Fin 512, hid P n k * P.Wg k f

/-- The source-side scaling. -/
def scaled (P : Params) (dinv : Fin 32768 → EReal) (n : Fin 32768) (f : Fin 512) : EReal := xw P n f * dinv n

/-- What follows the aggregation at node `n`: destination-side scaling, bias, rectifier, normalisation, residual. -/
def fin (P : Params) (dinvn : EReal) (aggn : Fin 512 → EReal) (n : Fin 32768) (f : Fin 512) : EReal :=
  Ideal.div (prelu P.a2 (aggn f * dinvn + P.bg f))
    (max (Ideal.sqrt (∑ f' : Fin 512, prelu P.a2 (aggn f' * dinvn + P.bg f') * prelu P.a2 (aggn f' * dinvn + P.bg f'))) epsN)
    + P.X n f

/-- Node `i` of graph `b`. -/
def node (b : Fin 32) (i : Fin 1024) : Fin 32768 := ⟨b.val * 1024 + i.val, by omega⟩

/-! ## The reference's sums: over the edge list with one self loop per node appended -/

/-- Source of extended edge `j`: the edge list's, then the self loops `0, 1, …`. -/
def srcJ (G : Graph) (j : Fin 294912) : ℕ := if h : j.val < 262144 then G.src ⟨j.val, h⟩ else j.val - 262144
def dstJ (G : Graph) (j : Fin 294912) : ℕ := if h : j.val < 262144 then G.dst ⟨j.val, h⟩ else j.val - 262144

theorem srcJ_lt (G : Graph) (j : Fin 294912) : srcJ G j < 32768 := by
  unfold srcJ; split
  · exact G.hs _
  · omega
theorem dstJ_lt (G : Graph) (j : Fin 294912) : dstJ G j < 32768 := by
  unfold dstJ; split
  · exact G.hd _
  · omega

def degR (G : Graph) (n : Fin 32768) : EReal :=
  ∑ _j ∈ Finset.univ.filter (fun j : Fin 294912 => dstJ G j = n.val), (1 : EReal)

def aggR (G : Graph) (s : Fin 32768 → Fin 512 → EReal) (n : Fin 32768) (f : Fin 512) : EReal :=
  ∑ j ∈ Finset.univ.filter (fun j : Fin 294912 => dstJ G j = n.val), s ⟨srcJ G j, srcJ_lt G j⟩ f

def dinvR (G : Graph) (n : Fin 32768) : EReal := Ideal.rsqrt (degR G n)

/-- The reference's result at node `n`, feature `f`. -/
def outR (P : Params) (G : Graph) (n : Fin 32768) (f : Fin 512) : EReal :=
  fin P (dinvR G n) (aggR G (scaled P (dinvR G)) n) n f

/-! ## The kernel's sums: a dense count matrix per graph -/

/-- Edges `k → i` inside graph `b`, plus the identity. -/
def Aval (G : Graph) (b : Fin 32) (i k : Fin 1024) : EReal :=
  (∑ _e ∈ Finset.univ.filter (fun e : Fin 262144 => G.src e / 1024 = b.val ∧ G.dst e % 1024 = i.val ∧ G.src e % 1024 = k.val), (1 : EReal))
    + (if i = k then 1 else 0)

def degK (G : Graph) (b : Fin 32) (i : Fin 1024) : EReal := ∑ k : Fin 1024, Aval G b i k

def dinvK (G : Graph) (b : Fin 32) (i : Fin 1024) : EReal := Ideal.rsqrt (degK G b i)

def aggK (G : Graph) (s : Fin 32768 → Fin 512 → EReal) (b : Fin 32) (i : Fin 1024) (f : Fin 512) : EReal :=
  ∑ k : Fin 1024, Aval G b i k * s (node b k) f

/-- The source-side scaling as the kernel applies it: by its own per-graph degrees. -/
def scaledK (P : Params) (G : Graph) (n : Fin 32768) (f : Fin 512) : EReal :=
  xw P n f * dinvK G ⟨n.val / 1024, by omega⟩ ⟨n.val % 1024, Nat.mod_lt _ (by norm_num)⟩

/-- The kernel's result at node `i` of graph `b`, feature `f`. -/
def outK (P : Params) (G : Graph) (b : Fin 32) (i : Fin 1024) (f : Fin 512) : EReal :=
  fin P (dinvK G b i) (aggK G (scaledK P G) b i) (node b i) f

end Cert.Spec

end
-- ==== Proof.SpecIO.lean ====
/-
  The mathematical objects of `Spec` built from raw argument arrays: the float arguments read at plain
  coordinates (node `n` of the flattened feature matrix is row `n % 1024` of graph `n / 1024`), and the edge
  list read as natural numbers, under the hypothesis that every endpoint is a node and no edge leaves its graph.
-/
import proofs.«425183_j61959198212219_2_alg».proof.Proof.Spec
import Idealize.ShloMosaic.Lib.ValueIdx

noncomputable section

namespace Cert.Spec

open Idealize.ShloMosaic Idealize.ShloMosaic.ValueIdx

/-- Every edge endpoint is a node index, and source and destination lie in the same graph of the batch. -/
structure EdgesOk (a1 a2 : (⟨1, ![262144]⟩ : Shape).Idx → BitVec 32) : Prop where
  hs : ∀ e : Fin 262144, (a1 (ix1 e)).toNat < 32768
  hd : ∀ e : Fin 262144, (a2 (ix1 e)).toNat < 32768
  hb : ∀ e : Fin 262144, (a1 (ix1 e)).toNat / 1024 = (a2 (ix1 e)).toNat / 1024

/-- The edge list as natural numbers. -/
def mkGraph (a1 a2 : (⟨1, ![262144]⟩ : Shape).Idx → BitVec 32) (h : EdgesOk a1 a2) : Graph where
  src e := (a1 (ix1 e)).toNat
  dst e := (a2 (ix1 e)).toNat
  hs := h.hs
  hd := h.hd
  hb := h.hb

/-- The float arguments at plain coordinates, in the entry point's order: features, first linear layer and
    its bias, normalisation scale, shift, mean and variance, first slope, second linear layer, bias, second slope. -/
def mkParams (a0 : (⟨3, ![32, 1024, 512]⟩ : Shape).Idx → EReal) (a3 : (⟨2, ![512, 512]⟩ : Shape).Idx → EReal)
    (a4 a5 a6 a7 a8 : (⟨1, ![512]⟩ : Shape).Idx → EReal) (a9 : (⟨0, ![]⟩ : Shape).Idx → EReal)
    (a10 : (⟨2, ![512, 512]⟩ : Shape).Idx → EReal) (a11 : (⟨1, ![512]⟩ : Shape).Idx → EReal)
    (a12 : (⟨0, ![]⟩ : Shape).Idx → EReal) : Params where
  X n k := a0 (ix3 (⟨n.val / 1024, by omega⟩ : Fin 32) (⟨n.val % 1024, Nat.mod_lt _ (by norm_num)⟩ : Fin 1024) k)
  W1 k f := a3 (ix2 k f)
  b1 f := a4 (ix1 f)
  gm f := a5 (ix1 f)
  bt f := a6 (ix1 f)
  rm f := a7 (ix1 f)
  rv f := a8 (ix1 f)
  a1 := a9 ix0
  Wg k f := a10 (ix2 k f)
  bg f := a11 (ix1 f)
  a2 := a12 ix0

end Cert.Spec

end
-- ==== Proof.KIVal0.lean ====
/-
  Region 0's result array, index by index: row `n`, feature `f` holds the second linear layer of the node
  MLP of row `n`, times the degree column's entry of row `n`.
-/
import proofs.«425183_j61959198212219_2_alg».proof.Proof.KIDat
import proofs.«425183_j61959198212219_2_alg».proof.Proof.SpecIO
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.ValueIdx Idealize.SL.Sem
open Cert.KernelIdeal Cert.KernelIdeal.Gen Cert.KernelIdeal.Hand

/-! ## The layout operations of the body, read at an index -/

theorem zeros2 : (![0, 0] : Fin 2 → Nat) = fun _ => 0 :=
  funext fun a => by match a with | ⟨0, _⟩ => rfl | ⟨1, _⟩ => rfl

/-- A column `[1024, 1]` broadcast to `[1024, 512]` reads, at `(r, f)`, the column's entry of row `r`. -/
theorem bcast_col {α : Type} (v : S1024x1.Idx → α) (r : Fin 1024) (f : Fin 512) :
    broadcastTo S1024x512 v broadcasts_S1024x1_S1024x512 (ix2 r f) = v (ix2 r (0 : Fin 1)) := by
  refine broadcastTo_apply v broadcasts_S1024x1_S1024x512 (ix2 r f) (ix2 r (0 : Fin 1)) fun ax => ?_
  match ax with
  | ⟨0, _⟩ =>
    show r.val = if (1024 : ℕ) = 1 then 0 else r.val
    rw [if_neg (by decide)]
  | ⟨1, _⟩ => rfl

/-- A row `[1, 512]` broadcast to `[1024, 512]` reads, at `(r, f)`, the row's entry of feature `f`. -/
theorem bcast_row {α : Type} (v : S1x512.Idx → α) (r : Fin 1024) (f : Fin 512) :
    broadcastTo S1024x512 v broadcasts_S1x512_S1024x512 (ix2 r f) = v (ix2 (0 : Fin 1) f) :=
  broadcastTo_1b_ab_apply v broadcasts_S1x512_S1024x512 r f

/-! ## The body's matrix product, read at an index -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a `[1024, 512]` block by a `[512, 512]` matrix into a zero accumulator is, at `(r, f)`,
    the sum over `k` of the block's `(r, k)` times the matrix's `(k, f)`. -/
theorem mm_apply {φ₁ φ₂ : FTy} (A : FVec Ideal S1024x512 φ₁) (B : FVec Ideal S512x512 φ₂) (r : Fin 1024) (f : Fin 512) :
    matmul dot_S1024x512_S512x512_S1024x512_1_0_0_1_n_n none A B (constant (F := Ideal) S1024x512 .f32 0x00000000#32) (ix2 r f)
      = ∑ k : Fin 512, A (ix2 r k) * B (ix2 k f) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r f) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r f) ((ValueIdx.contrEquiv1 dot_S1024x512_S512x512_S1024x512_1_0_0_1_n_n 512 rfl rfl).symm k) = ix2 k f := funext fun a => Fin.ext (by
    match a with
    | ⟨0, _⟩ => exact (rhs_mm_0 _ _).trans hk
    | ⟨1, _⟩ => exact rhs_mm_1 _ _)
  rw [el, er]

/-! ## The body's two payloads, read at an index -/

theorem rsqrt_apply {s : Shape} {φ : FTy} (x : FVec Ideal s φ) (i : s.Idx) : rsqrt x i = Ideal.rsqrt (x i) := rfl

theorem extract00 {α : Type} (x : S1x1.Idx → α) : extractAt ![0, 0] x inpos_S1x1_p0_0 = x (ix2 (0 : Fin 1) (0 : Fin 1)) := by
  unfold extractAt
  exact congrArg x (funext fun a => by match a with | ⟨0, _⟩ => rfl | ⟨1, _⟩ => rfl)

/-- The hidden activation of row `r`, feature `k`, from the body's loaded blocks. -/
theorem pay2_apply (v0 : Vec Ideal S1024x512 .f32) (v3 : Vec Ideal S512x512 .f32) (v6 v10 v12 v14 v16 : Vec Ideal S1x512 .f32)
    (v29 : Vec Ideal S1x1 .f32) (r : Fin 1024) (k : Fin 512) :
    (k0_pay2 (F := Ideal) v0 v3 v6 v10 v12 v14 v16 v29 : S1024x512.Idx → EReal) (ix2 r k)
      = Cert.Spec.prelu (v29 (ix2 (0 : Fin 1) (0 : Fin 1)))
          (((((∑ j : Fin 512, v0 (ix2 r j) * v3 (ix2 j k)) + v6 (ix2 (0 : Fin 1) k)) - v10 (ix2 (0 : Fin 1) k))
            * Ideal.rsqrt (v12 (ix2 (0 : Fin 1) k) + Cert.Spec.epsBN)) * v14 (ix2 (0 : Fin 1) k) + v16 (ix2 (0 : Fin 1) k)) := by
  unfold k0_pay2
  simp only [shapeCast_self]
  simp only [truncf_apply, select_apply, cmpf_apply, mulf_apply, addf_apply, subf_apply, broadcast_apply, bcast_row, mm_apply, rsqrt_apply, extract00, Ideal.cmpf_def]
  have h0 : (FloatOps.ofBits (F := Ideal) .f32 0x00000000#32) = (0 : EReal) := Ideal.ofBits_zero_f32
  rw [h0]
  rfl

/-- The body's stored value at row `r`, feature `f`: the hidden row times the second weights' column, times
    the row's entry of the degree column. -/
theorem pay1_apply (v36 : FVec Ideal S1024x512 .bf16) (v37 : Vec Ideal S512x512 .f32) (v40 : Vec Ideal S1024x1 .f32)
    (r : Fin 1024) (f : Fin 512) :
    (k0_pay1 (F := Ideal) v36 v37 v40 : S1024x512.Idx → EReal) (ix2 r f)
      = (∑ k : Fin 512, v36 (ix2 r k) * v37 (ix2 k f)) * v40 (ix2 r (0 : Fin 1)) := by
  unfold k0_pay1
  simp only [shapeCast_self]
  simp only [truncf_apply, mulf_apply, bcast_col, mm_apply]

/-- The body's stored block at row `r`, feature `f`, from its ten loaded blocks. -/
theorem pay0_apply (x0 : Vec Ideal S1024x512 .f32) (x1 : Vec Ideal S512x512 .f32) (x2 x3 x4 x5 x6 : Vec Ideal S1x512 .f32)
    (x7 : Vec Ideal S1x1 .f32) (x8 : Vec Ideal S512x512 .f32) (x9 : Vec Ideal S1024x1 .f32) (r : Fin 1024) (f : Fin 512) :
    (pay0 (F := Ideal) x0 x1 x2 x3 x4 x5 x6 x7 x8 x9 : S1024x512.Idx → EReal) (ix2 r f)
      = (∑ k : Fin 512, Cert.Spec.prelu (x7 (ix2 (0 : Fin 1) (0 : Fin 1)))
            (((((∑ j : Fin 512, x0 (ix2 r j) * x1 (ix2 j k)) + x2 (ix2 (0 : Fin 1) k)) - x5 (ix2 (0 : Fin 1) k))
              * Ideal.rsqrt (x6 (ix2 (0 : Fin 1) k) + Cert.Spec.epsBN)) * x3 (ix2 (0 : Fin 1) k) + x4 (ix2 (0 : Fin 1) k))
          * x8 (ix2 k f)) * x9 (ix2 r (0 : Fin 1)) := by
  unfold pay0
  simp only [View.ld_unit_zero (S := S1024x512) zeros2, View.ld_unit_zero (S := S512x512) zeros2,
    View.ld_unit_zero (S := S1x512) zeros2, View.ld_unit_zero (S := S1x1) zeros2, View.ld_unit_zero (S := S1024x1) zeros2]
  rw [pay1_apply]
  simp only [pay2_apply]

/-! ## One entry of the result, from arrays of literal shapes -/

/-- Row `n`, feature `f` of the scaled second linear layer, written over the ten arrays the region reads. -/
def entry (X : S32768x512.Idx → EReal) (W1 : S512x512.Idx → EReal) (b1 gm bt rm rv : S1x512.Idx → EReal)
    (a1 : S1x1.Idx → EReal) (Wg : S512x512.Idx → EReal) (dg : S32768x1.Idx → EReal) (n : Fin 32768) (f : Fin 512) : EReal :=
  (∑ k : Fin 512, Cert.Spec.prelu (a1 (ix2 (0 : Fin 1) (0 : Fin 1)))
        (((((∑ j : Fin 512, X (ix2 n j) * W1 (ix2 j k)) + b1 (ix2 (0 : Fin 1) k)) - rm (ix2 (0 : Fin 1) k))
          * Ideal.rsqrt (rv (ix2 (0 : Fin 1) k) + Cert.Spec.epsBN)) * gm (ix2 (0 : Fin 1) k) + bt (ix2 (0 : Fin 1) k))
      * Wg (ix2 k f)) * dg (ix2 n (0 : Fin 1))

/-- A block of 1024 rows starting at row `1024 T`: when the first and last loaded blocks are those rows of the
    feature matrix and of the degree column, and the other eight are the whole arrays, the stored block holds
    the entries of those rows. -/
theorem block_entry (X : S32768x512.Idx → EReal) (W1 : S512x512.Idx → EReal) (b1 gm bt rm rv : S1x512.Idx → EReal)
    (a1 : S1x1.Idx → EReal) (Wg : S512x512.Idx → EReal) (dg : S32768x1.Idx → EReal)
    (x0 : Vec Ideal S1024x512 .f32) (x1 : Vec Ideal S512x512 .f32) (x2 x3 x4 x5 x6 : Vec Ideal S1x512 .f32)
    (x7 : Vec Ideal S1x1 .f32) (x8 : Vec Ideal S512x512 .f32) (x9 : Vec Ideal S1024x1 .f32) (T : ℕ) (hT : T < 32)
    (h0 : ∀ (p : Fin 1024) (j : Fin 512), x0 (ix2 p j) = X (ix2 (⟨T * 1024 + p.val, by have := p.isLt; omega⟩ : Fin 32768) j))
    (h1 : x1 = W1) (h2 : x2 = b1) (h3 : x3 = gm) (h4 : x4 = bt) (h5 : x5 = rm) (h6 : x6 = rv) (h7 : x7 = a1) (h8 : x8 = Wg)
    (h9 : ∀ p : Fin 1024, x9 (ix2 p (0 : Fin 1)) = dg (ix2 (⟨T * 1024 + p.val, by have := p.isLt; omega⟩ : Fin 32768) (0 : Fin 1)))
    (p : Fin 1024) (f : Fin 512) :
    (pay0 (F := Ideal) x0 x1 x2 x3 x4 x5 x6 x7 x8 x9 : S1024x512.Idx → EReal) (ix2 p f)
      = entry X W1 b1 gm bt rm rv a1 Wg dg ⟨T * 1024 + p.val, by have := p.isLt; omega⟩ f := by
  subst h1 h2 h3 h4 h5 h6 h7 h8
  rw [pay0_apply]
  unfold entry
  simp only [h0, h9]

variable (V : (c : Dev nD) → (b : Ref sig .tc) → Buf (Elt Ideal) ((c : Thread nD τ).loc b))

/-- The parameters region 0 reads, from the arrays it is entered with (the fields it does not read are zero). -/
def params0 (c : Dev nD) : Cert.Spec.Params where
  X n k := (V c main_v0 : S32768x512.Idx → EReal) (ix2 n k)
  W1 k f := (V c main_arg3 : S512x512.Idx → EReal) (ix2 k f)
  b1 f := (V c main_v39 : S1x512.Idx → EReal) (ix2 0 f)
  gm f := (V c main_v40 : S1x512.Idx → EReal) (ix2 0 f)
  bt f := (V c main_v41 : S1x512.Idx → EReal) (ix2 0 f)
  rm f := (V c main_v42 : S1x512.Idx → EReal) (ix2 0 f)
  rv f := (V c main_v43 : S1x512.Idx → EReal) (ix2 0 f)
  a1 := (V c main_v44 : S1x1.Idx → EReal) (ix2 0 0)
  Wg k f := (V c main_arg10 : S512x512.Idx → EReal) (ix2 k f)
  bg _ := 0
  a2 := 0

/-! ## From blocks to the array -/

/-- The ten arrays the region reads, at their literal shapes. -/
abbrev arrX (c : Dev nD) : S32768x512.Idx → EReal := V c main_v0
abbrev arrW1 (c : Dev nD) : S512x512.Idx → EReal := V c main_arg3
abbrev arrB1 (c : Dev nD) : S1x512.Idx → EReal := V c main_v39
abbrev arrGm (c : Dev nD) : S1x512.Idx → EReal := V c main_v40
abbrev arrBt (c : Dev nD) : S1x512.Idx → EReal := V c main_v41
abbrev arrRm (c : Dev nD) : S1x512.Idx → EReal := V c main_v42
abbrev arrRv (c : Dev nD) : S1x512.Idx → EReal := V c main_v43
abbrev arrA1 (c : Dev nD) : S1x1.Idx → EReal := V c main_v44
abbrev arrWg (c : Dev nD) : S512x512.Idx → EReal := V c main_arg10
abbrev arrDg (c : Dev nD) : S32768x1.Idx → EReal := V c main_v38

/-- The whole result array as one function of the arrays the region reads. -/
def result (c : Dev nD) : S32768x512.Idx → EReal := fun i =>
  entry (arrX V c) (arrW1 V c) (arrB1 V c) (arrGm V c) (arrBt V c) (arrRm V c) (arrRv V c) (arrA1 V c) (arrWg V c) (arrDg V c)
    ⟨(i 0).val, (i 0).isLt⟩ ⟨(i 1).val, (i 1).isLt⟩

/-- The index maps over the grid: windows 0, 9 and 10 move down one block of rows per point, windows 1–8 stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem lt32 (t : Fin cfg0.N) : t.val < 32 := lt_of_lt_of_eq t.isLt N_0

/-- Window 0's block at point `t` is rows `1024 t … 1024 t + 1023` of the feature matrix. -/
theorem blk_X (c : Dev nD) (t : Fin cfg0.N) (p : Fin 1024) (j : Fin 512) :
    (iblk0 V c 0 t : S1024x512.Idx → EReal) (ix2 p j)
      = arrX V c (ix2 (⟨t.val * 1024 + p.val, by have := p.isLt; have := lt32 t; omega⟩ : Fin 32768) j) := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 512 + 1 * j.val = j.val; rw [e1]; omega

/-! Windows 1–8 hold their whole arrays at every point. -/

theorem blk_W1 (c : Dev nD) (t : Fin cfg0.N) : (iblk0 V c 1 t : S512x512.Idx → EReal) = V c main_arg3 := by
  obtain ⟨-, -, e0, e1, -⟩ := idx_facts t
  funext y
  unfold iblk0
  rw [View.read_apply]
  show V c main_arg3 _ = V c main_arg3 _
  refine congrArg (V c main_arg3) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

theorem blk_B1 (c : Dev nD) (t : Fin cfg0.N) : (iblk0 V c 2 t : S1x512.Idx → EReal) = V c main_v39 := by
  obtain ⟨-, -, -, -, e0, e1, -⟩ := idx_facts t
  funext y
  unfold iblk0
  rw [View.read_apply]
  show V c main_v39 _ = V c main_v39 _
  refine congrArg (V c main_v39) (funext fun a => Fin.ext ?_)
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem blk_Gm (c : Dev nD) (t : Fin cfg0.N) : (iblk0 V c 3 t : S1x512.Idx → EReal) = V c main_v40 := by
  obtain ⟨-, -, -, -, -, -, e0, e1, -⟩ := idx_facts t
  funext y
  unfold iblk0
  rw [View.read_apply]
  show V c main_v40 _ = V c main_v40 _
  refine congrArg (V c main_v40) (funext fun a => Fin.ext ?_)
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

theorem blk_Bt (c : Dev nD) (t : Fin cfg0.N) : (iblk0 V c 4 t : S1x512.Idx → EReal) = V c main_v41 := by
  obtain ⟨-, -, -, -, -, -, -, -, e0, e1, -⟩ := idx_facts t
  funext y
  unfold iblk0
  rw [View.read_apply]
  show V c main_v41 _ = V c main_v41 _
  refine congrArg (V c main_v41) (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

theorem blk_Rm (c : Dev nD) (t : Fin cfg0.N) : (iblk0 V c 5 t : S1x512.Idx → EReal) = V c main_v42 := by
  obtain ⟨-, -, -, -, -, -, -, -, -, -, e0, e1, -⟩ := idx_facts t
  funext y
  unfold iblk0
  rw [View.read_apply]
  show V c main_v42 _ = V c main_v42 _
  refine congrArg (V c main_v42) (funext fun a => Fin.ext ?_)
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

theorem blk_Rv (c : Dev nD) (t : Fin cfg0.N) : (iblk0 V c 6 t : S1x512.Idx → EReal) = V c main_v43 := by
  obtain ⟨-, -, -, -, -, -, -, -, -, -, -, -, e0, e1, -⟩ := idx_facts t
  funext y
  unfold iblk0
  rw [View.read_apply]
  show V c main_v43 _ = V c main_v43 _
  refine congrArg (V c main_v43) (funext fun a => Fin.ext ?_)
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

theorem blk_A1 (c : Dev nD) (t : Fin cfg0.N) : (iblk0 V c 7 t : S1x1.Idx → EReal) = V c main_v44 := by
  obtain ⟨-, -, -, -, -, -, -, -, -, -, -, -, -, -, e0, e1, -⟩ := idx_facts t
  funext y
  unfold iblk0
  rw [View.read_apply]
  show V c main_v44 _ = V c main_v44 _
  refine congrArg (V c main_v44) (funext fun a => Fin.ext ?_)
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

theorem blk_Wg (c : Dev nD) (t : Fin cfg0.N) : (iblk0 V c 8 t : S512x512.Idx → EReal) = V c main_arg10 := by
  obtain ⟨-, -, -, -, -, -, -, -, -, -, -, -, -, -, -, -, e0, e1, -⟩ := idx_facts t
  funext y
  unfold iblk0
  rw [View.read_apply]
  show V c main_arg10 _ = V c main_arg10 _
  refine congrArg (V c main_arg10) (funext fun a => Fin.ext ?_)
  match a with
  | ⟨0, _⟩ => show win0_8.index t (0 : Fin 2) * 512 + 1 * (y 0).val = (y 0).val; rw [e0]; omega
  | ⟨1, _⟩ => show win0_8.index t (1 : Fin 2) * 512 + 1 * (y 1).val = (y 1).val; rw [e1]; omega

/-- Window 9's block at point `t` is rows `1024 t … 1024 t + 1023` of the degree column. -/
theorem blk_D (c : Dev nD) (t : Fin cfg0.N) (p : Fin 1024) :
    (iblk0 V c 9 t : S1024x1.Idx → EReal) (ix2 p (0 : Fin 1))
      = arrDg V c (ix2 (⟨t.val * 1024 + p.val, by have := p.isLt; have := lt32 t; omega⟩ : Fin 32768) (0 : Fin 1)) := by
  obtain ⟨-, -, -, -, -, -, -, -, -, -, -, -, -, -, -, -, -, -, e0, e1, -⟩ := idx_facts t
  unfold iblk0
  rw [View.read_apply]
  show V c main_v38 _ = V c main_v38 _
  refine congrArg (V c main_v38) (funext fun a => Fin.ext ?_)
  match a with
  | ⟨0, _⟩ => show win0_9.index t (0 : Fin 2) * 1024 + 1 * p.val = t.val * 1024 + p.val; rw [e0]; omega
  | ⟨1, _⟩ => show win0_9.index t (1 : Fin 2) * 1 + 1 * 0 = 0; rw [e1]

/-- What point `t` writes back is block `t` of the result. -/
theorem flushed_eq (c : Dev nD) (t : Fin cfg0.N) :
    (dat0 V c).flushed 10 t = ((cfg0.win 10).blk t).view.read (Elt Ideal) (result V c) := by
  show (cfg0.win 10).cut (grid0.coords t) ((dat0 V c).after 10 t) = _
  rw [after0_10]
  unfold out0_10
  rw [View.canon_unit_zero zeros2]
  obtain ⟨-, -, -, -, -, -, -, -, -, -, -, -, -, -, -, -, -, -, -, -, e0, e1⟩ := idx_facts t
  funext j
  have hj0 : (j 0).val < 1024 := (j 0).isLt
  have hj1 : (j 1).val < 512 := (j 1).isLt
  have e : (cfg0.win 10).xinj (grid0.coords t) j = ix2 (⟨(j 0).val, hj0⟩ : Fin 1024) (⟨(j 1).val, hj1⟩ : Fin 512) :=
    funext fun a => by match a with | ⟨0, _⟩ => rfl | ⟨1, _⟩ => rfl
  refine (congrArg (pay0 (F := Ideal) (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t)) e).trans ?_
  refine (block_entry (arrX V c) (arrW1 V c) (arrB1 V c) (arrGm V c) (arrBt V c) (arrRm V c) (arrRv V c) (arrA1 V c) (arrWg V c) (arrDg V c)
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) t.val (lt32 t)
    (blk_X V c t) (blk_W1 V c t) (blk_B1 V c t) (blk_Gm V c t) (blk_Bt V c t) (blk_Rm V c t) (blk_Rv V c t) (blk_A1 V c t) (blk_Wg V c t)
    (blk_D V c t) ⟨(j 0).val, hj0⟩ ⟨(j 1).val, hj1⟩).trans ?_
  rw [View.read_apply]
  show _ = result V c (((cfg0.win 10).blk t).view.emb j)
  unfold result
  have r0 : ((((cfg0.win 10).blk t).view.emb j) 0).val = t.val * 1024 + (j 0).val := by
    show win0_10.index t (0 : Fin 2) * 1024 + 1 * (j 0).val = _; rw [e0]; omega
  have r1 : ((((cfg0.win 10).blk t).view.emb j) 1).val = (j 1).val := by
    show win0_10.index t (1 : Fin 2) * 512 + 1 * (j 1).val = _; rw [e1]; omega
  exact congrArg₂ (entry (arrX V c) (arrW1 V c) (arrB1 V c) (arrGm V c) (arrBt V c) (arrRm V c) (arrRv V c) (arrA1 V c) (arrWg V c) (arrDg V c))
    (Fin.ext r0.symm) (Fin.ext r1.symm)

/-- An index of the array is in point `t`'s block iff each coordinate is in the block's range on its axis. -/
theorem mem_blk (t : Fin cfg0.N) (i : S32768x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v45).slice (win0_10.rect t)).set ↔ _
  rw [View.set_slice_whole, Rect.mem_set_unit]
  exact Iff.rfl

/-- Row `n` lies in the block of point `n / 1024`: the blocks cover the array. -/
theorem cover (i : S32768x512.Idx) : ∃ t : Fin cfg0.N, (cfg0.win 10).flush t = true ∧ i ∈ ((cfg0.win 10).blk t).view.set := by
  have hi0 : (i 0).val < 32768 := (i 0).isLt
  have hi1 : (i 1).val < 512 := (i 1).isLt
  have hN : cfg0.N = 32 := N_0
  refine ⟨⟨(i 0).val / 1024, by rw [hN]; omega⟩, flush0_10 _, ?_⟩
  obtain ⟨-, -, -, -, -, -, -, -, -, -, -, -, -, -, -, -, -, -, -, -, e0, e1⟩ := idx_facts ⟨(i 0).val / 1024, by rw [hN]; omega⟩
  rw [mem_blk]
  intro a
  match a with
  | ⟨0, _⟩ =>
    show win0_10.index ⟨(i 0).val / 1024, _⟩ (0 : Fin 2) * 1024 ≤ (i 0).val ∧ (i 0).val < win0_10.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_10.index ⟨(i 0).val / 1024, _⟩ (1 : Fin 2) * 512 ≤ (i 1).val ∧ (i 1).val < win0_10.index ⟨(i 0).val / 1024, _⟩ (1 : Fin 2) * 512 + 512
    rw [e1]; omega

/-- The array region 0 leaves in its output window is the result. -/
theorem arr_eq (c : Dev nD) : (dat0 V c).arrAt 10 cfg0.N = result V c :=
  (dat0 V c).arrAt_eq_of_cover 10 (result V c) (fun t _ => flushed_eq V c t) cover

theorem arr0 (c : Dev nD) (n : Fin 32768) (f : Fin 512) :
    ((dat0 V c).arrAt 10 cfg0.N : S32768x512.Idx → EReal) (ix2 n f)
      = Cert.Spec.scaled (params0 V c) (fun n' => (V c main_v38 : S32768x1.Idx → EReal) (ix2 n' 0)) n f := by
  exact (congrFun (arr_eq V c) (ix2 n f)).trans rfl

end Cert.KernelIdeal.Val0

end
-- ==== Proof.KIVal1.lean ====
/-
  Region 1's result array, index by index: node `i` of graph `b`, feature `f` holds the epilogue (`Spec.fin`) of
  the dense aggregation `∑ k, A[b,i,k] * scaled[b,k,·]`.
-/
import proofs.«425183_j61959198212219_2_alg».proof.Proof.KIDat
import proofs.«425183_j61959198212219_2_alg».proof.Proof.SpecIO
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen Cert.KernelIdeal.Hand

/-! ## Layout operations on a column, read at coordinates -/

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The aggregation product at an entry: a sum over the graph's 1024 nodes -/

theorem lhs_agg_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_agg_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_agg_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_agg_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a `[1024, 1024]` by a `[1024, 512]` matrix into a zero accumulator, at `(i, f)`. -/
theorem matmul_agg_apply (l : FVec Ideal S1024x1024 .bf16) (r : FVec Ideal S1024x512 .bf16) (i : Fin 1024) (f : Fin 512) :
    matmul dot_S1024x1024_S1024x512_S1024x512_1_0_0_1_n_n none l r (constant (F := Ideal) S1024x512 .f32 0x00000000#32) (ix2 i f)
      = ∑ k : Fin 1024, l (ix2 i k) * r (ix2 k f) := by
  refine (Ideal.matmul_constant_zero_apply dot_S1024x1024_S1024x512_S1024x512_1_0_0_1_n_n none l r (ix2 i f)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 i f) ((ValueIdx.contrEquiv1 dot_S1024x1024_S1024x512_S1024x512_1_0_0_1_n_n 1024 rfl rfl).symm k) = ix2 i k := funext fun a => Fin.ext (by
    match a with
    | ⟨0, _⟩ => exact lhs_agg_0 _ _
    | ⟨1, _⟩ => exact (lhs_agg_1 _ _).trans hk)
  have er : dot_S1024x1024_S1024x512_S1024x512_1_0_0_1_n_n.rhsIdx (ix2 i f) ((ValueIdx.contrEquiv1 dot_S1024x1024_S1024x512_S1024x512_1_0_0_1_n_n 1024 rfl rfl).symm k) = ix2 k f := funext fun a => Fin.ext (by
    match a with
    | ⟨0, _⟩ => exact (rhs_agg_0 _ _).trans hk
    | ⟨1, _⟩ => exact rhs_agg_1 _ _)
  rw [el, er]

/-- The sum over a row's 512 features. -/
theorem rowsum_apply (v : FVec Ideal S1024x512 .f32) (hφ : FKind.Formats .f32)
    (hacc : (0x00000000#32 : BitVec 32) = FKind.add.neutral .f32 hφ) (i : Fin 1024) :
    multiReduction (F := Ideal) .add [1] S1024 v 0x00000000#32 reduces_S1024x512_S1024 hφ hacc (ix1 i)
      = ∑ f' : Fin 512, v (ix2 i f') := by
  refine (Ideal.multiReduction_add_single v 0x00000000#32 reduces_S1024x512_S1024 hφ hacc (ix1 i)).trans ?_
  refine Finset.sum_congr rfl fun k _ => congrArg v ?_
  funext a
  apply Fin.ext
  match a with
  | ⟨0, _⟩ => rfl
  | ⟨1, _⟩ => rfl

/-! ## What region 1's body stores, entry by entry -/

theorem hz3 : (![0, 0, 0] : Fin 3 → Nat) = fun _ => 0 := funext fun a => by fin_cases a <;> rfl
theorem hz2 : (![0, 0] : Fin 2 → Nat) = fun _ => 0 := funext fun a => by fin_cases a <;> rfl

theorem sqrt_apply {s : Shape} {φ : FTy} (v : FVec Ideal s φ) (j : s.Idx) : sqrt v j = Ideal.sqrt (v j) := rfl
theorem cmpf_ideal {φ : FTy} (p : CmpFPredicate) (x y : Ideal φ) : FloatOps.cmpf (F := Ideal) p x y = Ideal.cmp p x y := rfl
/-- The slope: the one entry of its `[1, 1]` block. -/
theorem extract_slope (x4 : FVec Ideal S1x1 .f32) (h : ∀ a, (![0, 0] : Fin 2 → Nat) a < S1x1.size a) :
    extractAt ![0, 0] x4 h = x4 (ix2 0 0) :=
  congrArg x4 (funext fun a => Fin.ext (by
    match a with
    | ⟨0, _⟩ => rfl
    | ⟨1, _⟩ => rfl))

/-- Two epilogues differ only in the sum of squares under the root. -/
theorem epilogue_congr {a s s' e x : EReal} (hs : s = s') :
    Ideal.div a (max (Ideal.sqrt s) e) + x = Ideal.div a (max (Ideal.sqrt s') e) + x := by rw [hs]

/-- Row `i`'s value at feature `f'` before the norm: the aggregated row scaled by the node's degree factor, plus the
    bias, through the leaky rectifier. -/
def gval (x0 : Vec Ideal S1x1024x1024 .bf16) (x1 : Vec Ideal S1x1024x512 .bf16) (x2 : Vec Ideal S1x1024x1 .f32)
    (x3 : Vec Ideal S1x512 .f32) (x4 : Vec Ideal S1x1 .f32) (i : Fin 1024) (f' : Fin 512) : EReal :=
  Cert.Spec.prelu (x4 (ix2 0 0)) ((∑ k : Fin 1024, x0 (ix3 0 i k) * x1 (ix3 0 k f')) * x2 (ix3 0 i 0) + x3 (ix2 0 f'))

/-- The stored block at `(0, i, f)`: row `i`'s rectified value at `f` over the row's clipped Euclidean norm, plus the
    input feature. -/
theorem pay1_apply (x0 : Vec Ideal S1x1024x1024 .bf16) (x1 : Vec Ideal S1x1024x512 .bf16) (x2 : Vec Ideal S1x1024x1 .f32)
    (x3 : Vec Ideal S1x512 .f32) (x4 : Vec Ideal S1x1 .f32) (x5 : Vec Ideal S1x1024x512 .f32) (i : Fin 1024) (f : Fin 512) :
    pay1 x0 x1 x2 x3 x4 x5 (ix3 0 i f)
      = Ideal.div (gval x0 x1 x2 x3 x4 i f)
          (max (Ideal.sqrt (∑ f' : Fin 512, gval x0 x1 x2 x3 x4 i f' * gval x0 x1 x2 x3 x4 i f')) Cert.Spec.epsN)
        + x5 (ix3 0 i f) := by
  unfold pay1
  simp only [View.ld_unit_zero (S := S1x1024x1024) hz3, View.ld_unit_zero (S := S1x1024x512) hz3,
    View.ld_unit_zero (S := S1x1024x1) hz3, View.ld_unit_zero (S := S1x512) hz2, View.ld_unit_zero (S := S1x1) hz2]
  unfold k1_pay1 gval Cert.Spec.prelu
  simp only [shapeCast_ab_1ab_apply, shapeCast_1ab_ab_apply, addf_apply, divf_apply, mulf_apply, maximumf_apply,
    broadcastTo_a1_ab_apply, broadcastTo_1b_ab_apply, broadcast_apply, select_apply, cmpf_apply, shapeCast_self,
    shapeCast_a_a1_apply, matmul_agg_apply, sqrt_apply, cmpf_ideal, extract_slope, Ideal.ofBits_def, Ideal.ofBits_zero_f32]
  refine epilogue_congr ?_
  refine (rowsum_apply _ _ _ i).trans ?_
  simp only [shapeCast_1ab_ab_apply, addf_apply, mulf_apply,
    broadcastTo_a1_ab_apply, broadcastTo_1b_ab_apply, broadcast_apply, select_apply, cmpf_apply, shapeCast_self,
    matmul_agg_apply, cmpf_ideal, extract_slope, Ideal.ofBits_def, Ideal.ofBits_zero_f32]

variable (V : (c : Dev nD) → (b : Ref sig .tc) → Buf (Elt Ideal) ((c : Thread nD τ).loc b))

/-- The parameters region 1 reads, from the arrays it is entered with (the fields it does not read are zero). -/
def params1 (c : Dev nD) : Cert.Spec.Params where
  X n k := (V c main_arg0 : S32x1024x512.Idx → EReal)
    (ix3 (⟨n.val / 1024, by omega⟩ : Fin 32) (⟨n.val % 1024, Nat.mod_lt _ (by norm_num)⟩ : Fin 1024) k)
  W1 _ _ := 0
  b1 _ := 0
  gm _ := 0
  bt _ := 0
  rm _ := 0
  rv _ := 0
  a1 := 0
  Wg _ _ := 0
  bg f := (V c main_v48 : S1x512.Idx → EReal) (ix2 0 f)
  a2 := (V c main_v49 : S1x1.Idx → EReal) (ix2 0 0)

/-- The adjacency counts and the scaled features region 1 is entered with, at their literal types. -/
abbrev adj (c : Dev nD) : S32x1024x1024.Idx → EReal := V c main_v37
abbrev sca (c : Dev nD) : S32x1024x512.Idx → EReal := V c main_v46
abbrev dcol (c : Dev nD) : S32x1024x1.Idx → EReal := V c main_v47

/-! ## The blocks region 1 loads at graph `t`, as entries of the arrays -/

/-- The input blocks at a grid point, at their literal types. -/
abbrev blkAdj (c : Dev nD) (t : Fin cfg1.N) : Vec Ideal S1x1024x1024 .bf16 := iblk1 V c 0 t
abbrev blkSca (c : Dev nD) (t : Fin cfg1.N) : Vec Ideal S1x1024x512 .bf16 := iblk1 V c 1 t
abbrev blkDeg (c : Dev nD) (t : Fin cfg1.N) : Vec Ideal S1x1024x1 .f32 := iblk1 V c 2 t
abbrev blkBias (c : Dev nD) (t : Fin cfg1.N) : Vec Ideal S1x512 .f32 := iblk1 V c 3 t
abbrev blkSlope (c : Dev nD) (t : Fin cfg1.N) : Vec Ideal S1x1 .f32 := iblk1 V c 4 t
abbrev blkX (c : Dev nD) (t : Fin cfg1.N) : Vec Ideal S1x1024x512 .f32 := iblk1 V c 5 t
/-- The arrays behind the last three, at their literal types. -/
abbrev biasArr (c : Dev nD) : S1x512.Idx → EReal := V c main_v48
abbrev slopeArr (c : Dev nD) : S1x1.Idx → EReal := V c main_v49
abbrev featArr (c : Dev nD) : S32x1024x512.Idx → EReal := V c main_arg0

/-- The block indices at grid point `t`: the per-graph windows sit at block `(t, 0, 0)`, the bias row and the slope are
    whole arrays. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

theorem blkAdj_apply (c : Dev nD) (t : Fin cfg1.N) (b : Fin 32) (hb : b.val = t.val) (i k : Fin 1024) :
    blkAdj V c t (ix3 0 i k) = adj V c (ix3 b i k) := by
  obtain ⟨⟨e0, e1, e2⟩, -⟩ := idx_facts1 t
  show V c main_v37 (((cfg1.win 0).blk t).view.emb (ix3 0 i k)) = V c main_v37 (ix3 b i k)
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * i.val = i.val; omega
  | ⟨2, _⟩ => show win1_0.index t (2 : Fin 3) * 1024 + 1 * k.val = k.val; omega

theorem blkSca_apply (c : Dev nD) (t : Fin cfg1.N) (b : Fin 32) (hb : b.val = t.val) (k : Fin 1024) (f : Fin 512) :
    blkSca V c t (ix3 0 k f) = sca V c (ix3 b k f) := by
  obtain ⟨-, ⟨e0, e1, e2⟩, -⟩ := idx_facts1 t
  show V c main_v46 (((cfg1.win 1).blk t).view.emb (ix3 0 k f)) = V c main_v46 (ix3 b k f)
  refine congrArg _ (funext fun a => Fin.ext ?_)
  match a with
  | ⟨0, _⟩ => show win1_1.index t (0 : Fin 3) * 1 + 1 * 0 = b.val; omega
  | ⟨1, _⟩ => show win1_1.index t (1 : Fin 3) * 1024 + 1 * k.val = k.val; omega
  | ⟨2, _⟩ => show win1_1.index t (2 : Fin 3) * 512 + 1 * f.val = f.val; omega

theorem blkDeg_apply (c : Dev nD) (t : Fin cfg1.N) (b : Fin 32) (hb : b.val = t.val) (i : Fin 1024) :
    blkDeg V c t (ix3 0 i 0) = dcol V c (ix3 b i 0) := by
  obtain ⟨-, -, ⟨e0, e1, e2⟩, -⟩ := idx_facts1 t
  show V c main_v47 (((cfg1.win 2).blk t).view.emb (ix3 0 i 0)) = V c main_v47 (ix3 b i 0)
  refine congrArg _ (funext fun a => Fin.ext ?_)
  match a with
  | ⟨0, _⟩ => show win1_2.index t (0 : Fin 3) * 1 + 1 * 0 = b.val; omega
  | ⟨1, _⟩ => show win1_2.index t (1 : Fin 3) * 1024 + 1 * i.val = i.val; omega
  | ⟨2, _⟩ => show win1_2.index t (2 : Fin 3) * 1 + 1 * 0 = 0; omega

theorem blkBias_apply (c : Dev nD) (t : Fin cfg1.N) (f : Fin 512) :
    blkBias V c t (ix2 0 f) = biasArr V c (ix2 0 f) := by
  obtain ⟨-, -, -, ⟨e0, e1⟩, -⟩ := idx_facts1 t
  show V c main_v48 (((cfg1.win 3).blk t).view.emb (ix2 0 f)) = V c main_v48 (ix2 0 f)
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * f.val = f.val; omega

theorem blkSlope_apply (c : Dev nD) (t : Fin cfg1.N) :
    blkSlope V c t (ix2 0 0) = slopeArr V c (ix2 0 0) := by
  obtain ⟨-, -, -, -, ⟨e0, e1⟩, -⟩ := idx_facts1 t
  show V c main_v49 (((cfg1.win 4).blk t).view.emb (ix2 0 0)) = V c main_v49 (ix2 0 0)
  refine congrArg _ (funext fun a => Fin.ext ?_)
  match a with
  | ⟨0, _⟩ => show win1_4.index t (0 : Fin 2) * 1 + 1 * 0 = 0; omega
  | ⟨1, _⟩ => show win1_4.index t (1 : Fin 2) * 1 + 1 * 0 = 0; omega

theorem blkX_apply (c : Dev nD) (t : Fin cfg1.N) (b : Fin 32) (hb : b.val = t.val) (i : Fin 1024) (f : Fin 512) :
    blkX V c t (ix3 0 i f) = featArr V c (ix3 b i f) := by
  obtain ⟨-, -, -, -, -, ⟨e0, e1, e2⟩, -⟩ := idx_facts1 t
  show V c main_arg0 (((cfg1.win 5).blk t).view.emb (ix3 0 i f)) = V c main_arg0 (ix3 b i f)
  refine congrArg _ (funext fun a => Fin.ext ?_)
  match a with
  | ⟨0, _⟩ => show win1_5.index t (0 : Fin 3) * 1 + 1 * 0 = b.val; omega
  | ⟨1, _⟩ => show win1_5.index t (1 : Fin 3) * 1024 + 1 * i.val = i.val; omega
  | ⟨2, _⟩ => show win1_5.index t (2 : Fin 3) * 512 + 1 * f.val = f.val; omega

/-- The input feature of node `i` of graph `b`, as the parameters read it. -/
theorem featArr_node (c : Dev nD) (b : Fin 32) (i : Fin 1024) (f : Fin 512) :
    featArr V c (ix3 b i f) = (params1 V c).X (Cert.Spec.node b i) f := by
  show V c main_arg0 (ix3 b i f) = V c main_arg0 (ix3 _ _ f)
  have hb : (b.val * 1024 + i.val) / 1024 = b.val := by omega
  have hi : (b.val * 1024 + i.val) % 1024 = i.val := by omega
  refine congrArg _ (funext fun a => Fin.ext ?_)
  match a with
  | ⟨0, _⟩ => exact hb.symm
  | ⟨1, _⟩ => exact hi.symm
  | ⟨2, _⟩ => rfl

/-- A row's rectified value over the blocks of graph `b` is the one over the arrays. -/
theorem gval_blk (c : Dev nD) (t : Fin cfg1.N) (b : Fin 32) (hb : b.val = t.val) (i : Fin 1024) (f' : Fin 512) :
    gval (blkAdj V c t) (blkSca V c t) (blkDeg V c t) (blkBias V c t) (blkSlope V c t) i f'
      = Cert.Spec.prelu (params1 V c).a2
          ((∑ k : Fin 1024, adj V c (ix3 b i k) * sca V c (ix3 b k f')) * dcol V c (ix3 b i 0) + (params1 V c).bg f') := by
  unfold gval
  rw [blkDeg_apply V c t b hb i, blkBias_apply V c t f', blkSlope_apply V c t,
    Finset.sum_congr rfl fun k _ => congrArg₂ (· * ·) (blkAdj_apply V c t b hb i k) (blkSca_apply V c t b hb k f')]
  rfl

/-! ## From the blocks to the array -/

/-- What the result array ends holding, index by index: at `(b, i, f)` the epilogue of graph `b`'s dense aggregation at
    node `i`. -/
def G1 (c : Dev nD) : S32x1024x512.Idx → EReal := fun j =>
  Cert.Spec.fin (params1 V c) (dcol V c (ix3 (j 0) (j 1) 0))
    (fun f' => ∑ k : Fin 1024, adj V c (ix3 (j 0) (j 1) k) * sca V c (ix3 (j 0) k f'))
    (Cert.Spec.node (j 0) (j 1)) (j 2)

/-- What graph `t`'s grid point writes back is block `t` of `G1`. -/
theorem flushed1_eq (c : Dev nD) (t : Fin cfg1.N) :
    (dat1 V c).flushed 6 t = ((cfg1.win 6).blk t).view.read (Elt Ideal) (G1 V c) := by
  have hN : t.val < 32 := Nat.lt_of_lt_of_eq t.isLt N_1
  obtain ⟨-, -, -, -, -, -, ⟨e0, e1, e2⟩⟩ := idx_facts1 t
  show (cfg1.win 6).cut (grid1.coords t) ((dat1 V c).after 6 t) = _
  rw [after1_6]
  unfold out1_6
  rw [View.canon_unit_zero hz3]
  funext y
  have hy0 : (y 0).val < 1 := (y 0).isLt
  have hy1 : (y 1).val < 1024 := (y 1).isLt
  have hy2 : (y 2).val < 512 := (y 2).isLt
  obtain ⟨i, f, hi, hf, hy⟩ : ∃ (i : Fin 1024) (f : Fin 512), i.val = (y 1).val ∧ f.val = (y 2).val ∧
      (cfg1.win 6).xinj (grid1.coords t) y = ix3 (0 : Fin 1) i f :=
    ⟨⟨(y 1).val, hy1⟩, ⟨(y 2).val, hy2⟩, rfl, rfl, funext fun a => Fin.ext (by
      match a with
      | ⟨0, _⟩ => show (y 0).val = 0; omega
      | ⟨1, _⟩ => rfl
      | ⟨2, _⟩ => rfl)⟩
  have hemb : ((cfg1.win 6).blk t).view.emb y = ix3 (⟨t.val, hN⟩ : Fin 32) i f := funext fun a => Fin.ext (by
    match a with
    | ⟨0, _⟩ => show win1_6.index t (0 : Fin 3) * 1 + 1 * (y 0).val = t.val; omega
    | ⟨1, _⟩ => show win1_6.index t (1 : Fin 3) * 1024 + 1 * (y 1).val = i.val; omega
    | ⟨2, _⟩ => show win1_6.index t (2 : Fin 3) * 512 + 1 * (y 2).val = f.val; omega)
  show pay1 (blkAdj V c t) (blkSca V c t) (blkDeg V c t) (blkBias V c t) (blkSlope V c t) (blkX V c t)
      ((cfg1.win 6).xinj (grid1.coords t) y) = G1 V c (((cfg1.win 6).blk t).view.emb y)
  rw [hy, hemb]
  refine (pay1_apply (blkAdj V c t) (blkSca V c t) (blkDeg V c t) (blkBias V c t) (blkSlope V c t) (blkX V c t) i f).trans ?_
  rw [blkX_apply V c t ⟨t.val, hN⟩ rfl i f, featArr_node V c ⟨t.val, hN⟩ i f, gval_blk V c t ⟨t.val, hN⟩ rfl i f,
    Finset.sum_congr rfl fun f' _ => congrArg₂ (· * ·) (gval_blk V c t ⟨t.val, hN⟩ rfl i f') (gval_blk V c t ⟨t.val, hN⟩ rfl i f')]
  rfl

/-- An index of the array is in graph `t`'s block iff each coordinate is in the block's range on its axis. -/
theorem mem_blk6 (t : Fin cfg1.N) (j : S32x1024x512.Idx) :
    j ∈ ((cfg1.win 6).blk t).view.set ↔ ∀ a : Fin 3, win1_6.index t a * S1x1024x512.size a ≤ (j a).val
      ∧ (j a).val < win1_6.index t a * S1x1024x512.size a + S1x1024x512.size a := by
  show j ∈ ((View.whole main_v50).slice (win1_6.rect t)).set ↔ _
  rw [View.set_slice_whole, Rect.mem_set_unit]
  exact Iff.rfl

/-- The 32 graphs' blocks fill the array. -/
theorem cover6 (j : S32x1024x512.Idx) :
    ∃ t : Fin cfg1.N, (cfg1.win 6).flush t = true ∧ j ∈ ((cfg1.win 6).blk t).view.set := by
  have h0 : (j 0).val < 32 := (j 0).isLt
  have h1 : (j 1).val < 1024 := (j 1).isLt
  have h2 : (j 2).val < 512 := (j 2).isLt
  obtain ⟨t, ht⟩ : ∃ t : Fin cfg1.N, t.val = (j 0).val := ⟨⟨(j 0).val, Nat.lt_of_lt_of_eq h0 N_1.symm⟩, rfl⟩
  refine ⟨t, flush1_6 t, ?_⟩
  obtain ⟨-, -, -, -, -, -, ⟨e0, e1, e2⟩⟩ := idx_facts1 t
  rw [mem_blk6]
  intro a
  match a with
  | ⟨0, _⟩ => show win1_6.index t (0 : Fin 3) * 1 ≤ (j 0).val ∧ (j 0).val < win1_6.index t (0 : Fin 3) * 1 + 1; omega
  | ⟨1, _⟩ => show win1_6.index t (1 : Fin 3) * 1024 ≤ (j 1).val ∧ (j 1).val < win1_6.index t (1 : Fin 3) * 1024 + 1024; omega
  | ⟨2, _⟩ => show win1_6.index t (2 : Fin 3) * 512 ≤ (j 2).val ∧ (j 2).val < win1_6.index t (2 : Fin 3) * 512 + 512; omega

/-- So the result array ends holding `G1`. -/
theorem final6 (c : Dev nD) : (dat1 V c).arrAt 6 cfg1.N = G1 V c :=
  (dat1 V c).arrAt_eq_of_cover 6 (G1 V c) (fun t _ => flushed1_eq V c t) cover6

theorem arr1 (c : Dev nD) (b : Fin 32) (i : Fin 1024) (f : Fin 512) :
    ((dat1 V c).arrAt 6 cfg1.N : S32x1024x512.Idx → EReal) (ix3 b i f)
      = Cert.Spec.fin (params1 V c) (dcol V c (ix3 b i 0))
          (fun f' => ∑ k : Fin 1024, adj V c (ix3 b i k) * sca V c (ix3 b k f'))
          (Cert.Spec.node b i) f := by
  rw [final6 V c]
  rfl

end Cert.KernelIdeal.Val1

end
-- ==== Proof.PreDecode.lean ====
/-
  The integer part of the precondition, read back. The precondition is a conjunction of "all elements" reductions; its
  last two say, at every edge e: 0 ≤ src[e] < 32768 and 0 ≤ dst[e] < 32768 (signed), and src[e] / 1024 = dst[e] / 1024
  (signed division). A word in [0, 32768) signed is below 32768 unsigned, and the signed quotient of such a word by 1024
  is the quotient of its value. Hence: every endpoint is a node, and no edge leaves its graph.
-/
import proofs.«425183_j61959198212219_2_alg».proof.Proof.SpecIO
import proofs.«425183_j61959198212219_2_alg».proof.Pre_finite_inputs
import proofs.«425183_j61959198212219_2_alg».proof.Proof.Gen.Pre_finite_inputs
import Idealize.ShloMosaic.Lib.StableHlo.Predicate
import Idealize.ShloMosaic.Lib.ReduceAll
import Idealize.ShloMosaic.Lib.ValueIdx

noncomputable section

namespace Cert.PreDecode

open Idealize.ShloMosaic Idealize.ShloMosaic.ValueIdx
open Cert.Pre_finite_inputs

/-- The rank-0 shape has one index. -/
theorem subsingleton_S_ : Subsingleton S_.Idx := ⟨fun a b => funext fun d => d.elim0⟩
attribute [local instance] subsingleton_S_

/-- A word in [0, 32768) signed is below 32768 unsigned. -/
theorem toNat_lt_of_range {w : BitVec 32} (h0 : IntOp.cmpi .sge w 0#32 = 1#1) (h1 : IntOp.cmpi .slt w 32768#32 = 1#1) :
    w.toNat < 32768 := by
  rw [IntOp.cmpi_sge, show (0#32 : BitVec 32).toInt = 0 from by decide] at h0
  rw [IntOp.cmpi_slt, show (32768#32 : BitVec 32).toInt = 32768 from by decide] at h1
  have hlt : 2 * w.toNat < 2 ^ 32 := BitVec.toInt_pos_iff.1 h0
  rw [BitVec.toInt_eq_toNat_of_lt hlt] at h1
  omega

/-- A small word divided by 1024: signed division by a positive literal meets no corner, on any unit. -/
theorem divsi_1024 (u : ArithUnit) (w : BitVec 32) (hw : w.toNat < 2 ^ 31) :
    (IntOp.divsi u w 1024#32).toNat = w.toNat / 1024 := by
  have hcorner : ¬ IntOp.SDivCorner w 1024#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (1024#32 : BitVec 32).msb = false from by decide,
    BitVec.udiv_eq, BitVec.toNat_udiv, BitVec.toNat_ofNat]

/-- THE PRECONDITION'S INTEGER PART: every edge endpoint is a node, and source and destination lie in one graph. -/
theorem edgesOk_of_pre {F : FTy → Type} [FloatOps F] [Cert.Pre_finite_inputs.Facts]
    (a0 : FVec F S32x1024x512 .f32) (a1 a2 : IVec S262144 32) (a3 : FVec F S512x512 .f32)
    (a4 a5 a6 a7 a8 : FVec F S512 .f32) (a9 : FVec F S_ .f32) (a10 : FVec F S512x512 .f32)
    (a11 : FVec F S512 .f32) (a12 : FVec F S_ .f32)
    (h : Cert.Pre_finite_inputs.fn (F := F) a0 a1 a2 a3 a4 a5 a6 a7 a8 a9 a10 a11 a12 = (fun _ => 1#1)) :
    Cert.Spec.EdgesOk a1 a2 := by
  have e := congrFun h ix0
  simp only [fn, fn_part1, fn_part2, fn_part3, fn_part4] at e
  -- the conjunction's last two conjuncts: the two "all edges" reductions
  obtain ⟨h64, h70⟩ := IntOp.andi_eq_one.1 e
  obtain ⟨-, h63⟩ := IntOp.andi_eq_one.1 h64
  have r63 := fun i => Host.reduce_andi_all _ _ _ _ _ h63 i
  have r70 := fun i => Host.reduce_andi_all _ _ _ _ _ h70 i
  have key : ∀ e : Fin 262144, (a1 (ix1 e)).toNat < 32768 ∧ (a2 (ix1 e)).toNat < 32768 ∧
      (a1 (ix1 e)).toNat / 1024 = (a2 (ix1 e)).toNat / 1024 := by
    intro e
    have p := r63 (ix1 e)
    have q := r70 (ix1 e)
    simp only [andi, cmpi, broadcastInDim, constantI, IntOp.andi_eq_one] at p
    simp only [cmpi, Host.divsi, broadcastInDim, constantI, IntOp.cmpi_eq] at q
    obtain ⟨⟨⟨s0, s1⟩, d0⟩, d1⟩ := p
    have hs := toNat_lt_of_range s0 s1
    have hd := toNat_lt_of_range d0 d1
    refine ⟨hs, hd, ?_⟩
    have t := congrArg BitVec.toNat q
    rwa [divsi_1024 _ _ (by omega), divsi_1024 _ _ (by omega)] at t
  exact ⟨fun e => (key e).1, fun e => (key e).2.1, fun e => (key e).2.2⟩

end Cert.PreDecode

end
-- ==== Proof.KIWords.lean ====
/-
  Word-level facts about the host's index arithmetic on edge endpoints. For a word `x` below 2³¹ (read as a
  non-negative number): the host's floor division by 1024 is `x / 1024`, its floor remainder is `x % 1024`, and
  the wrap-around of negative indices leaves `x` unchanged.
-/
import proofs.«425183_j61959198212219_2_alg».proof.Proof.PreDecode
import Idealize.ShloMosaic.Lib.StableHlo.Predicate
import Idealize.ShloMosaic.Lib.Affine

noncomputable section

namespace Cert.KernelIdeal.Words

open Idealize.ShloMosaic

/-- The sign of a word: 0, 1 or -1. -/
def sgn (x : BitVec 32) : BitVec 32 := if x = 0 then 0 else if x.msb then -1 else 1

/-- Floor division by 1024 as the host spells it: the truncated quotient, less one when the signs differ and the
    remainder is not zero. -/
def fdivW (x : BitVec 32) : BitVec 32 :=
  Scalar.select (IntOp.andi (IntOp.cmpi .ne (sgn x) (sgn 1024#32)) (IntOp.cmpi .ne (IntOp.remsi .host x 1024#32) 0#32))
    (IntOp.subi (IntOp.divsi .host x 1024#32) 1#32) (IntOp.divsi .host x 1024#32)

/-- The divisor the host's remainder uses: 1024, or 1 were it zero. -/
def dvs : BitVec 32 := Scalar.select (IntOp.cmpi .eq 1024#32 0#32) 1#32 1024#32

/-- Floor remainder by 1024 as the host spells it: the truncated remainder, plus the divisor when it is not zero and
    its sign differs from the divisor's. -/
def fmodW (x : BitVec 32) : BitVec 32 :=
  Scalar.select (IntOp.andi (IntOp.cmpi .ne (IntOp.cmpi .slt (IntOp.remsi .host x dvs) 0#32) (IntOp.cmpi .slt dvs 0#32))
      (IntOp.cmpi .ne (IntOp.remsi .host x dvs) 0#32))
    (IntOp.addi (IntOp.remsi .host x dvs) dvs) (IntOp.remsi .host x dvs)

/-- A negative index wrapped around by the extent `k`. -/
def wrapW (k x : BitVec 32) : BitVec 32 := Scalar.select (IntOp.cmpi .slt x 0#32) (IntOp.addi x k) x

theorem dvs_eq : dvs = 1024#32 := by decide

theorem remsi_1024 (x : BitVec 32) (hx : x.toNat < 2 ^ 31) : (IntOp.remsi .host x 1024#32).toNat = x.toNat % 1024 :=
  IntOp.toNat_remsi .host (by omega) 1024 (by omega) (by omega)

theorem slt_zero_of_small (x : BitVec 32) (hx : x.toNat < 2 ^ 31) : IntOp.cmpi .slt x 0#32 = 0#1 := by
  have h : ¬ (IntOp.cmpi .slt x 0#32 = 1#1) := by
    rw [IntOp.cmpi_slt, BitVec.toInt_eq_toNat_of_lt (by omega), show (0#32 : BitVec 32).toInt = 0 from by decide]; omega
  rcases BitVec.eq_zero_or_eq_one (IntOp.cmpi .slt x 0#32) with h0 | h1
  · exact h0
  · exact absurd h1 h

theorem wrapW_of_small (k x : BitVec 32) (hx : x.toNat < 2 ^ 31) : wrapW k x = x := by
  unfold wrapW; rw [slt_zero_of_small x hx]; rfl

theorem fmodW_eq (x : BitVec 32) (hx : x.toNat < 2 ^ 31) : fmodW x = BitVec.ofNat 32 (x.toNat % 1024) := by
  have hr := remsi_1024 x hx
  have hrs : (IntOp.remsi .host x 1024#32).toNat < 2 ^ 31 := by rw [hr]; omega
  unfold fmodW
  rw [dvs_eq, slt_zero_of_small _ hrs, show IntOp.cmpi .slt 1024#32 0#32 = 0#1 from by decide,
    show IntOp.cmpi .ne (0#1) (0#1) = 0#1 from by decide]
  have : ∀ c : BitVec 1, IntOp.andi 0#1 c = 0#1 := by decide
  rw [this]
  show IntOp.remsi .host x 1024#32 = _
  apply BitVec.eq_of_toNat_eq
  rw [hr, BitVec.toNat_ofNat]; omega

theorem fdivW_eq (x : BitVec 32) (hx : x.toNat < 2 ^ 31) : fdivW x = BitVec.ofNat 32 (x.toNat / 1024) := by
  have hd := Cert.PreDecode.divsi_1024 .host x hx
  have hr := remsi_1024 x hx
  have hsel : IntOp.andi (IntOp.cmpi .ne (sgn x) (sgn 1024#32)) (IntOp.cmpi .ne (IntOp.remsi .host x 1024#32) 0#32) = 0#1 := by
    by_cases h0 : x = 0
    · subst h0; decide
    · have hm : x.msb = false := BitVec.msb_eq_false_iff_two_mul_lt.mpr (by omega)
      have : sgn x = 1#32 := by unfold sgn; rw [if_neg h0, hm]; rfl
      rw [this, show sgn 1024#32 = 1#32 from by decide, show IntOp.cmpi .ne (1#32) (1#32) = 0#1 from by decide]
      have : ∀ c : BitVec 1, IntOp.andi 0#1 c = 0#1 := by decide
      exact this _
  unfold fdivW
  rw [hsel]
  show IntOp.divsi .host x 1024#32 = _
  apply BitVec.eq_of_toNat_eq
  rw [hd, BitVec.toNat_ofNat]; omega

end Cert.KernelIdeal.Words

end
-- ==== Proof.KIHostIdx.lean ====
/-
  The three index vectors the host computes from the edge list before it scatters: at the entry of the last host
  stretch before region 0, `main_v1` holds every edge's graph `src / 1024`, `main_v2` its local source
  `src % 1024` and `main_v3` its local destination `dst % 1024`, for endpoints that are node indices.
  Each is written by one earlier stretch (floor division, floor remainder) from the argument words and the
  constant 1024, and no later stretch writes it.
-/
import proofs.«425183_j61959198212219_2_alg».proof.Proof.KIDat
import proofs.«425183_j61959198212219_2_alg».proof.Proof.SpecIO
import proofs.«425183_j61959198212219_2_alg».proof.Proof.KIWords
import Idealize.ShloMosaic.Lib.ValueIdx
import Idealize.ShloMosaic.Lib.StableHlo.Run

set_option maxRecDepth 16384

noncomputable section

namespace Cert.KernelIdeal.HostIdx

open Idealize.ShloMosaic Idealize.ShloMosaic.TcCoe Idealize.ShloMosaic.ValueIdx Idealize.SL.Sem
open Cert.KernelIdeal Cert.KernelIdeal.Gen Cert.KernelIdeal.Hand Cert.KernelIdeal.Words

/-! ## One stretch at a time, over any contents at its entry -/

section Stretch
variable (V : Valuation τ sig (Elt Ideal))

/-- The floor-division stretch writes, at every edge, the floor quotient of the source word. -/
theorem s1_v1 (x : IVec S262144 32) (hx : (V (Proc.devRef .tc main_arg1) : IVec S262144 32) = x)
    (hc : (V (Proc.devRef .tc main_c) : IVec S_ 32) = constantI S_ 32 1024#32) (e : Fin 262144) :
    (StableHlo.after hostOps0_1 V (Proc.devRef .tc main_v1) : IVec S262144 32) (ix1 e) = fdivW (x (ix1 e)) := by
  after_results
  simp only [StableHlo.TRef.ofBuf, StableHlo.TRef.toBuf, cast_eq]
  rw [hx, hc]
  rfl

/-- The first remainder stretch writes, at every edge, the floor remainder of the source word. -/
theorem s3_v2 (x : IVec S262144 32) (hx : (V (Proc.devRef .tc main_arg1) : IVec S262144 32) = x)
    (hc : (V (Proc.devRef .tc main_c_0) : IVec S_ 32) = constantI S_ 32 1024#32) (e : Fin 262144) :
    (StableHlo.after hostOps0_3 V (Proc.devRef .tc main_v2) : IVec S262144 32) (ix1 e) = fmodW (x (ix1 e)) := by
  after_results_simp
  simp only [StableHlo.TRef.ofBuf, StableHlo.TRef.toBuf, cast_eq]
  rw [hx, hc]
  rfl

/-- The second remainder stretch writes, at every edge, the floor remainder of the destination word. -/
theorem s5_v3 (x : IVec S262144 32) (hx : (V (Proc.devRef .tc main_arg2) : IVec S262144 32) = x)
    (hc : (V (Proc.devRef .tc main_c_1) : IVec S_ 32) = constantI S_ 32 1024#32) (e : Fin 262144) :
    (StableHlo.after hostOps0_5 V (Proc.devRef .tc main_v3) : IVec S262144 32) (ix1 e) = fmodW (x (ix1 e)) := by
  after_results_simp
  simp only [StableHlo.TRef.ofBuf, StableHlo.TRef.toBuf, cast_eq]
  rw [hx, hc]
  rfl

end Stretch

/-! ## At the entry of the last stretch -/

variable (m : (ℓ : Loc nD τ sig) → Buf (Elt Ideal) ℓ) (c : Dev nD)

theorem V6_v1 (e : Fin 262144) (h : (m ((c : Thread nD τ).loc main_arg1) (ix1 e)).toNat < 2 ^ 31) :
    (Gen.V6 m c main_v1 : S262144.Idx → BitVec 32) (ix1 e)
      = BitVec.ofNat 32 ((m ((c : Thread nD τ).loc main_arg1) (ix1 e)).toNat / 1024) := by
  have e1 : Gen.V6 m c main_v1 = StableHlo.after (hostOps0_1 (F := Ideal)) (Gen.V1 m c) (Proc.devRef .tc main_v1) :=
    (V6_of m c main_v1 (by decide)).trans <| (V5_of m c main_v1 (by decide)).trans <|
      (V4_of m c main_v1 (by decide)).trans (V3_of m c main_v1 (by decide))
  have hx : Gen.V1 m c (Proc.devRef .tc main_arg1) = m ((c : Thread nD τ).loc main_arg1) := V1_of m c main_arg1 (by decide)
  have hc : (Gen.V1 m c (Proc.devRef .tc main_c) : IVec S_ 32) = constantI S_ 32 1024#32 := by
    show StableHlo.after (hostOps0 (F := Ideal)) (Gen.V0 m c) (Proc.devRef .tc main_c) = _
    after_results
  rw [e1, s1_v1 (Gen.V1 m c) (m ((c : Thread nD τ).loc main_arg1)) hx hc e]
  exact fdivW_eq _ h

theorem V6_v2 (e : Fin 262144) (h : (m ((c : Thread nD τ).loc main_arg1) (ix1 e)).toNat < 2 ^ 31) :
    (Gen.V6 m c main_v2 : S262144.Idx → BitVec 32) (ix1 e)
      = BitVec.ofNat 32 ((m ((c : Thread nD τ).loc main_arg1) (ix1 e)).toNat % 1024) := by
  have e1 : Gen.V6 m c main_v2 = StableHlo.after (hostOps0_3 (F := Ideal)) (Gen.V3 m c) (Proc.devRef .tc main_v2) :=
    (V6_of m c main_v2 (by decide)).trans (V5_of m c main_v2 (by decide))
  have hx : Gen.V3 m c (Proc.devRef .tc main_arg1) = m ((c : Thread nD τ).loc main_arg1) :=
    (V3_of m c main_arg1 (by decide)).trans <| (V2_of m c main_arg1 (by decide)).trans (V1_of m c main_arg1 (by decide))
  have hc : (Gen.V3 m c (Proc.devRef .tc main_c_0) : IVec S_ 32) = constantI S_ 32 1024#32 := by
    show StableHlo.after (hostOps0_2 (F := Ideal)) (Gen.V2 m c) (Proc.devRef .tc main_c_0) = _
    after_results
  rw [e1, s3_v2 (Gen.V3 m c) (m ((c : Thread nD τ).loc main_arg1)) hx hc e]
  exact fmodW_eq _ h

theorem V6_v3 (e : Fin 262144) (h : (m ((c : Thread nD τ).loc main_arg2) (ix1 e)).toNat < 2 ^ 31) :
    (Gen.V6 m c main_v3 : S262144.Idx → BitVec 32) (ix1 e)
      = BitVec.ofNat 32 ((m ((c : Thread nD τ).loc main_arg2) (ix1 e)).toNat % 1024) := by
  have e1 : Gen.V6 m c main_v3 = StableHlo.after (hostOps0_5 (F := Ideal)) (Gen.V5 m c) (Proc.devRef .tc main_v3) := rfl
  have hx : Gen.V5 m c (Proc.devRef .tc main_arg2) = m ((c : Thread nD τ).loc main_arg2) :=
    (V5_of m c main_arg2 (by decide)).trans <| (V4_of m c main_arg2 (by decide)).trans <|
      (V3_of m c main_arg2 (by decide)).trans <| (V2_of m c main_arg2 (by decide)).trans (V1_of m c main_arg2 (by decide))
  have hc : (Gen.V5 m c (Proc.devRef .tc main_c_1) : IVec S_ 32) = constantI S_ 32 1024#32 := by
    show StableHlo.after (hostOps0_4 (F := Ideal)) (Gen.V4 m c) (Proc.devRef .tc main_c_1) = _
    after_results
  rw [e1, s5_v3 (Gen.V5 m c) (m ((c : Thread nD τ).loc main_arg2)) hx hc e]
  exact fmodW_eq _ h

end Cert.KernelIdeal.HostIdx

end
-- ==== Proof.KIHostAdj.lean ====
/-
  What the host operations before region 0 leave in the adjacency buffer, at the ideal instance.
  From every edge the host computes its graph `src / 1024`, its local destination `dst % 1024` and local source
  `src % 1024` (floor division and remainder, with the wrap-around of negative indices, which an in-range index
  never takes), scatter-adds a one at that triple into a zero array, and adds the identity matrix: entry
  `(b, i, k)` is `Spec.Aval`.
-/
import proofs.«425183_j61959198212219_2_alg».proof.Proof.KIDat
import proofs.«425183_j61959198212219_2_alg».proof.Proof.SpecIO
import proofs.«425183_j61959198212219_2_alg».proof.Proof.KIWords
import proofs.«425183_j61959198212219_2_alg».proof.Proof.KIHostIdx
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.Affine
import Idealize.ShloMosaic.Lib.IdealHost
import Idealize.ShloMosaic.PureOps.Ideal.Laws

set_option maxRecDepth 16384

noncomputable section

namespace Cert.KernelIdeal.HostAdj

open Idealize.ShloMosaic Idealize.ShloMosaic.TcCoe Idealize.ShloMosaic.ValueIdx Idealize.SL.Sem
open Idealize.ShloMosaic.StableHlo.Predicate (ij ixP)
open Cert.KernelIdeal Cert.KernelIdeal.Gen Cert.KernelIdeal.Hand Cert.KernelIdeal.Words

/-! ## Reading a buffer after a line of host operations -/

section Results
variable {τ' : Topo} {sig' : RefSig} {Val' : EltTy → Type}

/-- The result of an operation of three operands given as a literal family, each operand's contents at its own reference. -/
theorem nary3_result {x a b y : Ref sig' .tc}
    (f : ((k : Fin 3) → ((![x, a, b] : Fin 3 → Ref sig' .tc) k).ty.Contents Val') → y.ty.Contents Val') (hxs hy)
    (F : Valuation τ' sig' Val') :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem nary3_result' {x a b y : Ref sig' .tc}
    (f : ((k : Fin 3) → ((![x, a, b] : Fin 3 → Ref sig' .tc) k).ty.Contents Val') → y.ty.Contents Val') (hxs hy)
    (F : Valuation τ' sig' Val') :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Results

open Idealize.ShloMosaic.StableHlo in
/-- Rewrites `after ops V` at a reference into the operations' functions applied to `V` at the references they read. -/
macro "host_results_simp" : tactic =>
  `(tactic| (simp (disch := decide) only [after_cons, after_nil,
      nullary_result', unary_result', binary_result', ternary_result', quaternary_result', reshape_result', nary3_result', nary_result',
      nullary_result_ne', unary_result_ne', binary_result_ne', ternary_result_ne', quaternary_result_ne', reshape_result_ne',
      nary_result_ne']))

/-! ## The last host stretch as a function of the three index vectors -/

abbrev sd := scatter_S32x1024x1024_S262144x3_S262144_n_012_012_1

/-- A negative index wrapped around by the extent `k`, on every edge. -/
def wrapV (k : BitVec 32) (x : IVec S262144 32) : IVec S262144 32 :=
  select (cmpi .slt x (broadcastInDim S262144 ![] bcast_S_S262144 (constantI S_ 32 0#32)))
    (addi x (broadcastInDim S262144 ![] bcast_S_S262144 (constantI S_ 32 k))) x

/-- The table of index triples: graph, local destination, local source of every edge. -/
def idxTab (g d s : IVec S262144 32) : IVec S262144x3 32 :=
  concatenate S262144x3 1
    [⟨S262144x1, broadcastInDim S262144x1 ![0] bcast_S262144_S262144x1_0 (wrapV 32#32 g)⟩,
     ⟨S262144x1, broadcastInDim S262144x1 ![0] bcast_S262144_S262144x1_0 (wrapV 1024#32 d)⟩,
     ⟨S262144x1, broadcastInDim S262144x1 ![0] bcast_S262144_S262144x1_0 (wrapV 1024#32 s)⟩]
    concatenates_S262144x1_S262144x1_S262144x1_S262144x3_d1

/-- The identity matrix, repeated for every graph. -/
def eye : FVec Ideal S32x1024x1024 .f32 :=
  broadcastInDim S32x1024x1024 ![0, 1, 2] bcast_S1x1024x1024_S32x1024x1024_0_1_2
    (broadcastInDim S1x1024x1024 ![1, 2] bcast_S1024x1024_S1x1024x1024_1_2
      (uitofp .f32 (cmpi .eq (addi (iotaInDim S1024x1024 32 0) (broadcastInDim S1024x1024 ![] bcast_S_S1024x1024 (constantI S_ 32 0#32)))
        (iotaInDim S1024x1024 32 1))))

/-- The adjacency counts: a one scattered at every edge's triple into zeros, plus the identity. -/
def A34 (g d s : IVec S262144 32) : FVec Ideal S32x1024x1024 .f32 :=
  addf (Host.scatterAdd sd (broadcastInDim S32x1024x1024 ![] bcast_S_S32x1024x1024 (constant (F := Ideal) S_ .f32 0x00000000#32))
      (idxTab g d s) (broadcastInDim S262144 ![] bcast_S_S262144 (constant (F := Ideal) S_ .f32 0x3F800000#32))) eye

/-- Its row sums, and their inverse square roots. -/
def A35 (g d s : IVec S262144 32) : FVec Ideal S32x1024 .f32 :=
  Host.reduceAdd (A34 g d s) (constant (F := Ideal) S_ .f32 0x00000000#32) reducesTo_S32x1024x1024_S32x1024_d2 h_S_
def A36 (g d s : IVec S262144 32) : FVec Ideal S32x1024 .f32 := Host.rsqrt (A35 g d s)

/-! ## The scatter's landing index -/

theorem window_zero (j : S262144.Idx) (a : Fin 3) : sd.window j a = 0 := by
  unfold ScatterDims.window
  rw [dif_neg]
  revert a; decide

theorem siIdx_eq (e : Fin 262144) (q : Fin 3) : sd.siIdx (ix1 e) q = ij e q := by
  funext b
  match b with
  | ⟨0, _⟩ => rfl
  | ⟨1, _⟩ => rfl

theorem start_eq (idx : IVec S262144x3 32) (e : Fin 262144) (a : Fin 3) : sd.start (ix1 e) idx a = (idx (ij e a)).toInt := by
  fin_cases a
  · exact congrArg (fun t => (idx t).toInt) (siIdx_eq e 0)
  · exact congrArg (fun t => (idx t).toInt) (siIdx_eq e 1)
  · exact congrArg (fun t => (idx t).toInt) (siIdx_eq e 2)

/-- The update of edge `e` lands at `(b, i, k)` exactly when its three index words read `b`, `i`, `k`. -/
theorem resultIdx_iff (idx : IVec S262144x3 32) (e : Fin 262144) (b : Fin 32) (i k : Fin 1024) :
    sd.resultIdx? (ix1 e) idx = some (ix3 b i k) ↔
      (idx (ij e 0)).toInt = b.val ∧ (idx (ij e 1)).toInt = i.val ∧ (idx (ij e 2)).toInt = k.val := by
  have hsw : ∀ a : Fin 3, sd.start (ix1 e) idx a + (sd.window (ix1 e) a : Int) = (idx (ij e a)).toInt := fun a => by
    rw [start_eq, window_zero]; simp
  unfold ScatterDims.resultIdx?
  split
  · rename_i h
    rw [Option.some.injEq]
    constructor
    · intro hf
      have f0 := congrArg (fun f : S32x1024x1024.Idx => ((f 0).val : Int)) hf
      have f1 := congrArg (fun f : S32x1024x1024.Idx => ((f 1).val : Int)) hf
      have f2 := congrArg (fun f : S32x1024x1024.Idx => ((f 2).val : Int)) hf
      have g0 := (h 0).1; have g1 := (h 1).1; have g2 := (h 2).1
      simp only [hsw] at f0 f1 f2 g0 g1 g2
      refine ⟨?_, ?_, ?_⟩
      · rw [← Int.toNat_of_nonneg g0]; exact f0
      · rw [← Int.toNat_of_nonneg g1]; exact f1
      · rw [← Int.toNat_of_nonneg g2]; exact f2
    · rintro ⟨e0, e1, e2⟩
      funext a
      apply Fin.ext
      fin_cases a
      · show (sd.start (ix1 e) idx 0 + (sd.window (ix1 e) 0 : Int)).toNat = b.val
        rw [hsw, e0]; simp
      · show (sd.start (ix1 e) idx 1 + (sd.window (ix1 e) 1 : Int)).toNat = i.val
        rw [hsw, e1]; simp
      · show (sd.start (ix1 e) idx 2 + (sd.window (ix1 e) 2 : Int)).toNat = k.val
        rw [hsw, e2]; simp
  · rename_i h
    constructor
    · intro hh; cases hh
    · rintro ⟨e0, e1, e2⟩
      exfalso; apply h
      intro a
      rw [hsw]
      have hb := b.isLt; have hi := i.isLt; have hk := k.isLt
      fin_cases a
      · show 0 ≤ (idx (ij e 0)).toInt ∧ (idx (ij e 0)).toInt < ((32 : Nat) : Int)
        rw [e0]; omega
      · show 0 ≤ (idx (ij e 1)).toInt ∧ (idx (ij e 1)).toInt < ((1024 : Nat) : Int)
        rw [e1]; omega
      · show 0 ≤ (idx (ij e 2)).toInt ∧ (idx (ij e 2)).toInt < ((1024 : Nat) : Int)
        rw [e2]; omega

/-! ## The adjacency counts read at an entry -/

theorem wrapV_apply (k : BitVec 32) (x : IVec S262144 32) (j : S262144.Idx) : wrapV k x j = wrapW k (x j) := rfl

/-- A concatenation of three column vectors along the second axis, read at row `e`. -/
theorem concat3_apply (A B C : S262144x1.Idx → BitVec 32)
    (h : Shape.Concatenates (([⟨S262144x1, A⟩, ⟨S262144x1, B⟩, ⟨S262144x1, C⟩] : List ((s : Shape) × (s.Idx → BitVec 32))).map (·.1)) S262144x3 1)
    (e : Fin 262144) :
    concatenate S262144x3 1 [⟨S262144x1, A⟩, ⟨S262144x1, B⟩, ⟨S262144x1, C⟩] h (ij e (0 : Fin 3)) = A (ixP e)
      ∧ concatenate S262144x3 1 [⟨S262144x1, A⟩, ⟨S262144x1, B⟩, ⟨S262144x1, C⟩] h (ij e (1 : Fin 3)) = B (ixP e)
      ∧ concatenate S262144x3 1 [⟨S262144x1, A⟩, ⟨S262144x1, B⟩, ⟨S262144x1, C⟩] h (ij e (2 : Fin 3)) = C (ixP e) := by
  have hi : ∀ q : Fin 3, ∀ b : Fin S262144x1.rank, b.cast (rfl : S262144x1.rank = S262144x3.rank) ≠ (1 : Fin 2) →
      ((ixP e : S262144x1.Idx) b).val = ((ij e q : S262144x3.Idx) (b.cast rfl)).val := fun q b hb => by
    match b with
    | ⟨0, _⟩ => rfl
    | ⟨1, _⟩ => exact absurd rfl hb
  exact ⟨concatenate_apply_piece (1 : Fin 2) [⟨S262144x1, A⟩, ⟨S262144x1, B⟩, ⟨S262144x1, C⟩] h (ij e (0 : Fin 3)) 0 (by show (0 : Nat) < 3; omega)
      S262144x1 A rfl rfl 0 rfl (ixP e) (hi 0) rfl,
    concatenate_apply_piece (1 : Fin 2) [⟨S262144x1, A⟩, ⟨S262144x1, B⟩, ⟨S262144x1, C⟩] h (ij e (1 : Fin 3)) 1 (by show (1 : Nat) < 3; omega)
      S262144x1 B rfl rfl 1 rfl (ixP e) (hi 1) rfl,
    concatenate_apply_piece (1 : Fin 2) [⟨S262144x1, A⟩, ⟨S262144x1, B⟩, ⟨S262144x1, C⟩] h (ij e (2 : Fin 3)) 2 (by show (2 : Nat) < 3; omega)
      S262144x1 C rfl rfl 2 rfl (ixP e) (hi 2) rfl⟩

/-- Column `q` of the index table at edge `e` is the `q`-th index vector there. -/
theorem idxTab_apply (g d s : IVec S262144 32) (e : Fin 262144) :
    idxTab g d s (ij e (0 : Fin 3)) = wrapW 32#32 (g (ix1 e)) ∧ idxTab g d s (ij e (1 : Fin 3)) = wrapW 1024#32 (d (ix1 e))
      ∧ idxTab g d s (ij e (2 : Fin 3)) = wrapW 1024#32 (s (ix1 e)) := by
  have hb : ∀ x : IVec S262144 32, broadcastInDim S262144x1 ![0] bcast_S262144_S262144x1_0 x (ixP e) = x (ix1 e) := fun x =>
    broadcastInDim_apply _ bcast_S262144_S262144x1_0 x (ixP e) (ix1 e) (fun a => by
      match a with
      | ⟨0, _⟩ => show e.val = if (262144 : Nat) = 1 then 0 else e.val; rw [if_neg (by decide)])
  obtain ⟨c0, c1, c2⟩ := concat3_apply _ _ _ concatenates_S262144x1_S262144x1_S262144x1_S262144x3_d1 e
  unfold idxTab
  refine ⟨c0.trans ?_, c1.trans ?_, c2.trans ?_⟩ <;> rw [hb] <;> rfl

/-- The identity matrix read at an entry. -/
theorem eye_apply (b : Fin 32) (i k : Fin 1024) : eye (ix3 b i k) = if i = k then 1 else 0 := by
  unfold eye
  rw [broadcastInDim_apply _ bcast_S1x1024x1024_S32x1024x1024_0_1_2 _ (ix3 b i k) (ix3 (0 : Fin 1) i k) (fun a => by
      match a with
      | ⟨0, _⟩ => rfl
      | ⟨1, _⟩ => show i.val = if (1024 : Nat) = 1 then 0 else i.val; rw [if_neg (by decide)]
      | ⟨2, _⟩ => show k.val = if (1024 : Nat) = 1 then 0 else k.val; rw [if_neg (by decide)]),
    broadcastInDim_apply _ bcast_S1024x1024_S1x1024x1024_1_2 _ (ix3 (0 : Fin 1) i k) (ix2 i k) (fun a => by
      match a with
      | ⟨0, _⟩ => show i.val = if (1024 : Nat) = 1 then 0 else i.val; rw [if_neg (by decide)]
      | ⟨1, _⟩ => show k.val = if (1024 : Nat) = 1 then 0 else k.val; rw [if_neg (by decide)])]
  have hc : IntOp.cmpi .eq (IntOp.addi (BitVec.ofNat 32 i.val) 0#32) (BitVec.ofNat 32 k.val) = if i = k then 1#1 else 0#1 := by
    have hadd : IntOp.addi (BitVec.ofNat 32 i.val) 0#32 = BitVec.ofNat 32 i.val := BitVec.add_zero _
    rw [hadd]
    by_cases h : i = k
    · subst h; rw [if_pos rfl]; exact IntOp.cmpi_eq.2 rfl
    · rw [if_neg h]
      apply ValueIdx.eq_zero_of_ne_one
      intro h1
      have h2 := congrArg BitVec.toNat (IntOp.cmpi_eq.1 h1)
      simp only [BitVec.toNat_ofNat] at h2
      have hi := i.isLt; have hk := k.isLt
      apply h; apply Fin.ext; omega
  show (((IntOp.cmpi .eq (IntOp.addi (BitVec.ofNat 32 i.val) 0#32) (BitVec.ofNat 32 k.val)).toNat : ℝ) : EReal) = _
  rw [hc]
  by_cases h : i = k
  · rw [if_pos h, if_pos h]; simp
  · rw [if_neg h, if_neg h]; simp

/-- The scatter of ones into zeros, read at an entry: the number of edges whose triple is that entry. -/
theorem scat_apply (idx : IVec S262144x3 32) (b : Fin 32) (i k : Fin 1024) :
    (Host.scatterAdd sd (broadcastInDim S32x1024x1024 ![] bcast_S_S32x1024x1024 (constant (F := Ideal) S_ .f32 0x00000000#32)) idx
        (broadcastInDim S262144 ![] bcast_S_S262144 (constant (F := Ideal) S_ .f32 0x3F800000#32)) : FVec Ideal S32x1024x1024 .f32) (ix3 b i k)
      = ∑ _e ∈ Finset.univ.filter (fun e : Fin 262144 =>
          (idx (ij e 0)).toInt = b.val ∧ (idx (ij e 1)).toInt = i.val ∧ (idx (ij e 2)).toInt = k.val), (1 : EReal) := by
  simp only [Host.scatterAdd, Ideal.hostScatterAdd_def, Ideal.hostScatterAdd]
  have h0 : ∀ j, broadcastInDim S32x1024x1024 ![] bcast_S_S32x1024x1024 (constant (F := Ideal) S_ .f32 0x00000000#32) j = (0 : EReal) := fun j => by
    show Ideal.ofBits .f32 0x00000000#32 = 0
    simp [Ideal.ofBits, Ideal.ieee]
  have h1 : ∀ j, broadcastInDim S262144 ![] bcast_S_S262144 (constant (F := Ideal) S_ .f32 0x3F800000#32) j = (1 : EReal) := fun j =>
    Ideal.ofBits_one_f32
  rw [h0, zero_add]
  simp only [h1]
  refine Finset.sum_bij' (fun j _ => j 0) (fun e _ => ix1 e) ?_ ?_ ?_ ?_ ?_
  · intro j hj
    have h2 := (Finset.mem_filter.1 hj).2
    rw [eq_ix1 j] at h2
    exact Finset.mem_filter.2 ⟨Finset.mem_univ _, (resultIdx_iff idx (j 0) b i k).1 h2⟩
  · intro e he
    exact Finset.mem_filter.2 ⟨Finset.mem_univ _, (resultIdx_iff idx e b i k).2 (Finset.mem_filter.1 he).2⟩
  · intro j _; exact (eq_ix1 j).symm
  · intro e _; rfl
  · intro j _; rfl

/-- The adjacency counts read at an entry, for index words that are small non-negative numbers. -/
theorem A34_apply (g d s : IVec S262144 32) (hg : ∀ e : Fin 262144, (g (ix1 e)).toNat < 2 ^ 31)
    (hd : ∀ e : Fin 262144, (d (ix1 e)).toNat < 2 ^ 31) (hs : ∀ e : Fin 262144, (s (ix1 e)).toNat < 2 ^ 31)
    (b : Fin 32) (i k : Fin 1024) :
    A34 g d s (ix3 b i k)
      = (∑ _e ∈ Finset.univ.filter (fun e : Fin 262144 =>
          (g (ix1 e)).toNat = b.val ∧ (d (ix1 e)).toNat = i.val ∧ (s (ix1 e)).toNat = k.val), (1 : EReal))
        + (if i = k then 1 else 0) := by
  unfold A34
  rw [ValueIdx.addf_apply, scat_apply, eye_apply]
  refine congrArg (fun t : EReal => t + (if i = k then (1 : EReal) else 0)) ?_
  refine Finset.sum_congr (Finset.filter_congr fun e _ => ?_) (fun _ _ => rfl)
  obtain ⟨e0, e1, e2⟩ := idxTab_apply g d s e
  rw [e0, e1, e2, wrapW_of_small _ _ (hg e), wrapW_of_small _ _ (hd e), wrapW_of_small _ _ (hs e),
    StableHlo.Predicate.toInt_eq_toNat_of_lt (hg e), StableHlo.Predicate.toInt_eq_toNat_of_lt (hd e),
    StableHlo.Predicate.toInt_eq_toNat_of_lt (hs e)]
  simp only [Nat.cast_inj]

/-! ## The buffer -/

/-- The adjacency buffer after the last host stretch, over any contents at its entry. -/
theorem v34_term (V : Valuation τ sig (Elt Ideal)) :
    (StableHlo.after hostOps0_6 V (Proc.devRef .tc main_v34) : FVec Ideal S32x1024x1024 .f32)
      = A34 (V (Proc.devRef .tc main_v1)) (V (Proc.devRef .tc main_v3)) (V (Proc.devRef .tc main_v2)) := by
  host_results_simp
  rfl

variable (m : (ℓ : Loc nD τ sig) → Buf (Elt Ideal) ℓ) (c : Dev nD)

/-- The adjacency counts as the host leaves them: the scattered ones plus the identity. -/
theorem VV7_v34 (hok : Cert.Spec.EdgesOk (m ((c : Thread nD τ).loc main_arg1)) (m ((c : Thread nD τ).loc main_arg2)))
    (b : Fin 32) (i k : Fin 1024) :
    (VV7 m c main_v34 : S32x1024x1024.Idx → EReal) (ix3 b i k)
      = Cert.Spec.Aval (Cert.Spec.mkGraph (m ((c : Thread nD τ).loc main_arg1)) (m ((c : Thread nD τ).loc main_arg2)) hok) b i k := by
  have hT : (VV7 m c main_v34 : S32x1024x1024.Idx → EReal)
      = A34 (Gen.V6 m c main_v1) (Gen.V6 m c main_v3) (Gen.V6 m c main_v2) := v34_term (Gen.V6 m c)
  have h1 : ∀ e : Fin 262144, (m ((c : Thread nD τ).loc main_arg1) (ix1 e)).toNat < 2 ^ 31 := fun e => by
    have := hok.hs e; omega
  have h2 : ∀ e : Fin 262144, (m ((c : Thread nD τ).loc main_arg2) (ix1 e)).toNat < 2 ^ 31 := fun e => by
    have := hok.hd e; omega
  have tn : ∀ n : ℕ, n < 2 ^ 31 → (BitVec.ofNat 32 n).toNat = n := fun n hn => by
    rw [BitVec.toNat_ofNat]; exact Nat.mod_eq_of_lt (by omega)
  have eg : ∀ e : Fin 262144, ((Gen.V6 m c main_v1 : S262144.Idx → BitVec 32) (ix1 e)).toNat
      = (m ((c : Thread nD τ).loc main_arg1) (ix1 e)).toNat / 1024 := fun e => by
    rw [Cert.KernelIdeal.HostIdx.V6_v1 m c e (h1 e)]; exact tn _ (by have := h1 e; omega)
  have es : ∀ e : Fin 262144, ((Gen.V6 m c main_v2 : S262144.Idx → BitVec 32) (ix1 e)).toNat
      = (m ((c : Thread nD τ).loc main_arg1) (ix1 e)).toNat % 1024 := fun e => by
    rw [Cert.KernelIdeal.HostIdx.V6_v2 m c e (h1 e)]; exact tn _ (by omega)
  have ed : ∀ e : Fin 262144, ((Gen.V6 m c main_v3 : S262144.Idx → BitVec 32) (ix1 e)).toNat
      = (m ((c : Thread nD τ).loc main_arg2) (ix1 e)).toNat % 1024 := fun e => by
    rw [Cert.KernelIdeal.HostIdx.V6_v3 m c e (h2 e)]; exact tn _ (by omega)
  rw [hT, A34_apply _ _ _ (fun e => by rw [eg e]; have := h1 e; omega) (fun e => by rw [ed e]; omega) (fun e => by rw [es e]; omega)]
  unfold Cert.Spec.Aval
  refine congrArg (fun t : EReal => t + (if i = k then (1 : EReal) else 0)) ?_
  refine Finset.sum_congr (Finset.filter_congr fun e _ => ?_) (fun _ _ => rfl)
  rw [eg e, ed e, es e]
  rfl

end Cert.KernelIdeal.HostAdj

end
-- ==== Proof.KIHostDeg.lean ====
/-
  The degree buffer the host leaves before region 0, at the ideal instance: the adjacency counts summed along
  each row from zero, then the inverse square root, which is `Spec.dinvK` of the graph the counts are those of.
-/
import proofs.«425183_j61959198212219_2_alg».proof.Proof.KIHostAdj
import proofs.«425183_j61959198212219_2_alg».proof.Proof.KIDat
import proofs.«425183_j61959198212219_2_alg».proof.Proof.SpecIO
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.HostDeg

open Idealize.ShloMosaic Idealize.ShloMosaic.TcCoe Idealize.ShloMosaic.ValueIdx Idealize.SL.Sem
open Cert.KernelIdeal Cert.KernelIdeal.Gen Cert.KernelIdeal.Hand

/-! ## A row sum and its inverse square root read at an index -/

/-- The host's sum over the last axis from the zero word, then the inverse square root, at row `(b, i)`: the
    inverse square root of the sum of the row's 1024 entries. -/
theorem rsqrt_rowsum_apply (x : S32x1024x1024.Idx → EReal) (b : Fin 32) (i : Fin 1024) :
    (Host.rsqrt (F := Ideal) (Host.reduceAdd (F := Ideal) (φ := .f32) x (constant (F := Ideal) S_ .f32 0x00000000#32)
        reducesTo_S32x1024x1024_S32x1024_d2 h_S_) : S32x1024.Idx → EReal) (ix2 b i)
      = Ideal.rsqrt (∑ k : Fin 1024, x (ix3 b i k)) := by
  show Ideal.rsqrt (Host.reduceAdd (F := Ideal) (φ := .f32) x (constant (F := Ideal) S_ .f32 0x00000000#32)
        reducesTo_S32x1024x1024_S32x1024_d2 h_S_ (ix2 b i)) = _
  refine congrArg Ideal.rsqrt ?_
  simp only [Host.reduceAdd, Ideal.hostReduceAdd_def]
  rw [Ideal.hostReduceAdd_single reducesTo_S32x1024x1024_S32x1024_d2 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl | ⟨2, _⟩ => rfl))

variable (m : (ℓ : Loc nD τ sig) → Buf (Elt Ideal) ℓ) (c : Dev nD)

/-! ## The degree operations of the last stretch before region 0 -/

/-- The stretch up to and including the adjacency counts. -/
abbrev preOps : List (HloOp τ sig (Elt Ideal)) := List.take 40 (hostOps0_6 (F := Ideal))
/-- What follows the adjacency counts: the zero, the row sums, their inverse square roots, the counts in the
    short float format, and the seven closing layout operations. -/
abbrev degOps : List (HloOp τ sig (Elt Ideal)) :=
  ( StableHlo.nullary main_cst_10 (constant (F := Ideal) S_ .f32 0x00000000#32)
  :: StableHlo.binary main_v34 main_cst_10 main_v35 ((fun x v => Host.reduceAdd (F := Ideal) (φ := .f32) x v reducesTo_S32x1024x1024_S32x1024_d2 h_S_) : (⟨S32x1024x1024, .f32⟩ : BufTy).Contents (Elt Ideal) → (⟨S_, .f32⟩ : BufTy).Contents (Elt Ideal) → (⟨S32x1024, .f32⟩ : BufTy).Contents (Elt Ideal))
  :: StableHlo.unary main_v35 main_v36 (Host.rsqrt (F := Ideal) (φ := .f32) : (⟨S32x1024, .f32⟩ : BufTy).Contents (Elt Ideal) → (⟨S32x1024, .f32⟩ : BufTy).Contents (Elt Ideal))
  :: StableHlo.unary main_v34 main_v37 ((truncf (F := Ideal) (φ := .f32) .bf16 · bitsLt_bf16_f32) : (⟨S32x1024x1024, .f32⟩ : BufTy).Contents (Elt Ideal) → (⟨S32x1024x1024, .bf16⟩ : BufTy).Contents (Elt Ideal))
  :: StableHlo.reshape main_v36 main_v38 rfl shapeCasts_S32x1024_S32768x1
  :: StableHlo.reshape main_arg4 main_v39 rfl shapeCasts_S512_S1x512
  :: StableHlo.reshape main_arg5 main_v40 rfl shapeCasts_S512_S1x512
  :: StableHlo.reshape main_arg6 main_v41 rfl shapeCasts_S512_S1x512
  :: StableHlo.reshape main_arg7 main_v42 rfl shapeCasts_S512_S1x512
  :: StableHlo.reshape main_arg8 main_v43 rfl shapeCasts_S512_S1x512
  :: StableHlo.reshape main_arg9 main_v44 rfl shapeCasts_S_S1x1
  :: [] )

theorem split_ops : (hostOps0_6 (F := Ideal)) = preOps ++ degOps :=
  (List.take_append_drop 40 (hostOps0_6 (F := Ideal))).symm

/-- The buffers once the adjacency counts are there. -/
abbrev Vpre : Valuation τ sig (Elt Ideal) := StableHlo.after preOps (Gen.V6 m c)

theorem V7_split : Gen.V7 m c = StableHlo.after degOps (Vpre m c) := by
  show StableHlo.after (hostOps0_6 (F := Ideal)) (Gen.V6 m c) = _
  rw [split_ops, StableHlo.after_append]

/-- Nothing after the adjacency counts writes them again. -/
theorem VV7_v34_pre : VV7 m c main_v34 = Vpre m c main_v34 := by
  show Gen.V7 m c (Proc.devRef .tc main_v34) = _
  rw [V7_split]
  after_results

/-- The degree buffer: inverse square roots of the row sums of the adjacency counts. -/
theorem VV7_v36_eq : (VV7 m c main_v36 : S32x1024.Idx → EReal)
    = Host.rsqrt (F := Ideal) (Host.reduceAdd (F := Ideal) (φ := .f32) (VV7 m c main_v34 : S32x1024x1024.Idx → EReal)
        (constant (F := Ideal) S_ .f32 0x00000000#32) reducesTo_S32x1024x1024_S32x1024_d2 h_S_) := by
  rw [VV7_v34_pre]
  show Gen.V7 m c (Proc.devRef .tc main_v36) = _
  rw [V7_split]
  after_results

/-- Whatever graph the adjacency counts are those of, the degree buffer holds its inverse square root degrees. -/
theorem VV7_v36_of (G : Cert.Spec.Graph)
    (hA : ∀ (b : Fin 32) (i k : Fin 1024), (VV7 m c main_v34 : S32x1024x1024.Idx → EReal) (ix3 b i k) = Cert.Spec.Aval G b i k)
    (b : Fin 32) (i : Fin 1024) :
    (VV7 m c main_v36 : S32x1024.Idx → EReal) (ix2 b i) = Cert.Spec.dinvK G b i := by
  rw [VV7_v36_eq, rsqrt_rowsum_apply]
  unfold Cert.Spec.dinvK Cert.Spec.degK
  exact congrArg Ideal.rsqrt (Finset.sum_congr rfl fun k _ => hA b i k)

/-- The inverse square roots of the degrees. -/
theorem VV7_v36 (hok : Cert.Spec.EdgesOk (m ((c : Thread nD τ).loc main_arg1)) (m ((c : Thread nD τ).loc main_arg2)))
    (b : Fin 32) (i : Fin 1024) :
    (VV7 m c main_v36 : S32x1024.Idx → EReal) (ix2 b i)
      = Cert.Spec.dinvK (Cert.Spec.mkGraph (m ((c : Thread nD τ).loc main_arg1)) (m ((c : Thread nD τ).loc main_arg2)) hok) b i :=
  VV7_v36_of m c _ (Cert.KernelIdeal.HostAdj.VV7_v34 m c hok) b i

/-- The counts in the short float format are the counts: at the ideal values the change of format is the identity. -/
theorem VV7_v37_eq : (VV7 m c main_v37 : S32x1024x1024.Idx → EReal) = (VV7 m c main_v34 : S32x1024x1024.Idx → EReal) := by
  rw [VV7_v34_pre]
  show Gen.V7 m c (Proc.devRef .tc main_v37) = _
  rw [V7_split]
  after_results
  rfl

/-- The adjacency counts (after the change of float format, which is the identity here). -/
theorem VV7_v37 (hok : Cert.Spec.EdgesOk (m ((c : Thread nD τ).loc main_arg1)) (m ((c : Thread nD τ).loc main_arg2)))
    (b : Fin 32) (i k : Fin 1024) :
    (VV7 m c main_v37 : S32x1024x1024.Idx → EReal) (ix3 b i k)
      = Cert.Spec.Aval (Cert.Spec.mkGraph (m ((c : Thread nD τ).loc main_arg1)) (m ((c : Thread nD τ).loc main_arg2)) hok) b i k := by
  rw [VV7_v37_eq]
  exact Cert.KernelIdeal.HostAdj.VV7_v34 m c hok b i k

end Cert.KernelIdeal.HostDeg

end
-- ==== Proof.KIHostMisc.lean ====
/-
  The layout operations of the host side, read at an index, at the ideal instance: the feature tensor flattened
  to rows, the per-feature vectors and the slopes re-laid as rows, the degree vector re-laid as columns, region
  0's result re-laid per graph; and the buffers that no host operation and no region writes.
-/
import proofs.«425183_j61959198212219_2_alg».proof.Proof.KIDat
import proofs.«425183_j61959198212219_2_alg».proof.Proof.SpecIO
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.HostMisc

open Idealize.ShloMosaic Idealize.ShloMosaic.TcCoe Idealize.ShloMosaic.ValueIdx Idealize.SL.Sem
open Cert.KernelIdeal Cert.KernelIdeal.Gen Cert.KernelIdeal.Hand

/-! ## Each kind of re-laying read at an index

A re-laying keeps the row-major position of every entry; each lemma names the entry of the operand that sits
at the position of the entry read. -/

section Generic
variable {α : Type}

/-- A vector of 512 entries laid as one row: entry `(0, f)` is entry `f`. -/
theorem cast_row (x : S512.Idx → α) (h : S512.ShapeCasts S1x512) (f : Fin 512) :
    shapeCast S1x512 x h (ix2 0 f) = x (ix1 f) := shapeCast_a_1a_apply x h 0 f

/-- A scalar laid as a 1 × 1 matrix: its one entry is the scalar. -/
theorem cast_scalar (x : S_.Idx → α) (h : S_.ShapeCasts S1x1) : shapeCast S1x1 x h (ix2 0 0) = x ix0 :=
  shapeCast_apply x h _ _ (by
    rw [Shape.rowMajor_val_two]
    have h0 := (S_.rowMajor ix0).isLt
    have h1 : S_.numel = 1 := by decide
    show (S_.rowMajor ix0).val = 0 * 1 + 0
    omega)

/-- 32 × 1024 × 512 flattened to 32768 rows: row `n` is node `n % 1024` of graph `n / 1024`. -/
theorem cast_rows (x : S32x1024x512.Idx → α) (h : S32x1024x512.ShapeCasts S32768x512) (n : Fin 32768) (k : Fin 512) :
    shapeCast S32768x512 x h (ix2 n k)
      = x (ix3 (⟨n.val / 1024, by omega⟩ : Fin 32) (⟨n.val % 1024, Nat.mod_lt _ (by norm_num)⟩ : Fin 1024) k) :=
  shapeCast_apply x h _ _ (by
    rw [Shape.rowMajor_val_three, Shape.rowMajor_val_two]
    show (n.val / 1024 * 1024 + n.val % 1024) * 512 + k.val = n.val * 512 + k.val
    omega)

/-- 32768 rows cut back into 32 graphs of 1024 nodes: node `k` of graph `b` is row `1024 b + k`. -/
theorem cast_graphs (x : S32768x512.Idx → α) (h : S32768x512.ShapeCasts S32x1024x512) (b : Fin 32) (k : Fin 1024)
    (f : Fin 512) : shapeCast S32x1024x512 x h (ix3 b k f) = x (ix2 (Cert.Spec.node b k) f) :=
  shapeCast_apply x h _ _ (by
    rw [Shape.rowMajor_val_three, Shape.rowMajor_val_two]
    show (b.val * 1024 + k.val) * 512 + f.val = (b.val * 1024 + k.val) * 512 + f.val
    rfl)

/-- A 32 × 1024 matrix laid as one column of 32768 entries: entry `n` is entry `(n / 1024, n % 1024)`. -/
theorem cast_col (x : S32x1024.Idx → α) (h : S32x1024.ShapeCasts S32768x1) (n : Fin 32768) :
    shapeCast S32768x1 x h (ix2 n 0)
      = x (ix2 (⟨n.val / 1024, by omega⟩ : Fin 32) (⟨n.val % 1024, Nat.mod_lt _ (by norm_num)⟩ : Fin 1024)) :=
  shapeCast_apply x h _ _ (by
    rw [Shape.rowMajor_val_two, Shape.rowMajor_val_two]
    show n.val / 1024 * 1024 + n.val % 1024 = n.val * 1 + 0
    omega)

/-- A 32 × 1024 matrix with a trailing unit axis added: entry `(b, i, 0)` is entry `(b, i)`. -/
theorem cast_unit (x : S32x1024.Idx → α) (h : S32x1024.ShapeCasts S32x1024x1) (b : Fin 32) (i : Fin 1024) :
    shapeCast S32x1024x1 x h (ix3 b i 0) = x (ix2 b i) :=
  shapeCast_apply x h _ _ (by
    rw [Shape.rowMajor_val_three, Shape.rowMajor_val_two]
    show b.val * 1024 + i.val = (b.val * 1024 + i.val) * 1 + 0
    omega)

end Generic

variable (m : (ℓ : Loc nD τ sig) → Buf (Elt Ideal) ℓ) (c : Dev nD)

/-! ## Before region 0 -/

/-- A buffer none of the first six host stretches writes holds its launch contents after them. -/
theorem V6_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    Gen.V6 m c r = m ((c : Thread nD τ).loc r) :=
  (V6_of m c r h5).trans <| (V5_of m c r h4).trans <| (V4_of m c r h3).trans <| (V3_of m c r h2).trans <|
    (V2_of m c r h1).trans <| (V1_of m c r h0).trans rfl

/-- The last stretch before region 0 without its seven closing layout operations. -/
abbrev headOps : List (HloOp τ sig (Elt Ideal)) := List.take 44 (hostOps0_6 (F := Ideal))
/-- The seven closing layout operations of that stretch: the degree vector as a column, the five per-feature
    vectors as rows, the slope as a 1 × 1 matrix. -/
abbrev tailOps : List (HloOp τ sig (Elt Ideal)) :=
  [ StableHlo.reshape main_v36 main_v38 rfl shapeCasts_S32x1024_S32768x1,
    StableHlo.reshape main_arg4 main_v39 rfl shapeCasts_S512_S1x512,
    StableHlo.reshape main_arg5 main_v40 rfl shapeCasts_S512_S1x512,
    StableHlo.reshape main_arg6 main_v41 rfl shapeCasts_S512_S1x512,
    StableHlo.reshape main_arg7 main_v42 rfl shapeCasts_S512_S1x512,
    StableHlo.reshape main_arg8 main_v43 rfl shapeCasts_S512_S1x512,
    StableHlo.reshape main_arg9 main_v44 rfl shapeCasts_S_S1x1 ]

theorem split_ops : (hostOps0_6 (F := Ideal)) = headOps ++ tailOps :=
  (List.take_append_drop 44 (hostOps0_6 (F := Ideal))).symm

/-- The buffers before the seven closing layout operations. -/
abbrev Vmid : Valuation τ sig (Elt Ideal) := StableHlo.after headOps (Gen.V6 m c)

theorem V7_split : Gen.V7 m c = StableHlo.after tailOps (Vmid m c) := by
  show StableHlo.after (hostOps0_6 (F := Ideal)) (Gen.V6 m c) = _
  rw [split_ops, StableHlo.after_append]

/-- A buffer the last stretch does not write is, before its closing operations, as before the stretch. -/
theorem Vmid_of (r : Ref sig .tc) (h : r ∉ hostOps0_6_W) : Vmid m c r = Gen.V6 m c r :=
  StableHlo.after_of_writes_sub headOps _
    (List.forall_iff_forall_mem.mpr fun op hop =>
      (List.forall_iff_forall_mem.mp (hostOps0_6_writes (F := Ideal))) op (List.mem_of_mem_take hop)) h

/-- An argument read by one of the closing layout operations holds its launch contents there. -/
theorem Vmid_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    Vmid m c r = m ((c : Thread nD τ).loc r) :=
  (Vmid_of m c r h6).trans (V6_launch m c r h0 h1 h2 h3 h4 h5)

theorem VV7_v0 (n : Fin 32768) (k : Fin 512) :
    (VV7 m c main_v0 : S32768x512.Idx → EReal) (ix2 n k)
      = (m ((c : Thread nD τ).loc main_arg0) : S32x1024x512.Idx → EReal)
          (ix3 (⟨n.val / 1024, by omega⟩ : Fin 32) (⟨n.val % 1024, Nat.mod_lt _ (by norm_num)⟩ : Fin 1024) k) := by
  have e : (VV7 m c main_v0 : S32768x512.Idx → EReal)
      = shapeCast S32768x512 (m ((c : Thread nD τ).loc main_arg0) : S32x1024x512.Idx → EReal)
          shapeCasts_S32x1024x512_S32768x512 := by
    have e1 : VV7 m c main_v0 = Gen.V1 m c main_v0 :=
      (V7_of m c main_v0 (by decide)).trans <| (V6_of m c main_v0 (by decide)).trans <|
        (V5_of m c main_v0 (by decide)).trans <| (V4_of m c main_v0 (by decide)).trans <|
        (V3_of m c main_v0 (by decide)).trans (V2_of m c main_v0 (by decide))
    rw [e1]
    show StableHlo.after (hostOps0 (F := Ideal)) (Gen.V0 m c) (Proc.devRef .tc main_v0) = _
    after_results
    rfl
  rw [e]
  exact cast_rows _ _ n k

theorem VV7_arg3 : VV7 m c main_arg3 = m ((c : Thread nD τ).loc main_arg3) :=
  (V7_of m c main_arg3 (by decide)).trans
    (V6_launch m c main_arg3 (by decide) (by decide) (by decide) (by decide) (by decide) (by decide))
theorem VV7_arg10 : VV7 m c main_arg10 = m ((c : Thread nD τ).loc main_arg10) :=
  (V7_of m c main_arg10 (by decide)).trans
    (V6_launch m c main_arg10 (by decide) (by decide) (by decide) (by decide) (by decide) (by decide))

theorem VV7_v39 (f : Fin 512) : (VV7 m c main_v39 : S1x512.Idx → EReal) (ix2 0 f) = (m ((c : Thread nD τ).loc main_arg4) : S512.Idx → EReal) (ix1 f) := by
  have e : (VV7 m c main_v39 : S1x512.Idx → EReal)
      = shapeCast S1x512 (Vmid m c main_arg4 : S512.Idx → EReal) shapeCasts_S512_S1x512 := by
    show Gen.V7 m c (Proc.devRef .tc main_v39) = _
    rw [V7_split]
    after_results
    rfl
  rw [e, cast_row, Vmid_launch m c main_arg4 (by decide) (by decide) (by decide) (by decide) (by decide) (by decide) (by decide)]
theorem VV7_v40 (f : Fin 512) : (VV7 m c main_v40 : S1x512.Idx → EReal) (ix2 0 f) = (m ((c : Thread nD τ).loc main_arg5) : S512.Idx → EReal) (ix1 f) := by
  have e : (VV7 m c main_v40 : S1x512.Idx → EReal)
      = shapeCast S1x512 (Vmid m c main_arg5 : S512.Idx → EReal) shapeCasts_S512_S1x512 := by
    show Gen.V7 m c (Proc.devRef .tc main_v40) = _
    rw [V7_split]
    after_results
    rfl
  rw [e, cast_row, Vmid_launch m c main_arg5 (by decide) (by decide) (by decide) (by decide) (by decide) (by decide) (by decide)]
theorem VV7_v41 (f : Fin 512) : (VV7 m c main_v41 : S1x512.Idx → EReal) (ix2 0 f) = (m ((c : Thread nD τ).loc main_arg6) : S512.Idx → EReal) (ix1 f) := by
  have e : (VV7 m c main_v41 : S1x512.Idx → EReal)
      = shapeCast S1x512 (Vmid m c main_arg6 : S512.Idx → EReal) shapeCasts_S512_S1x512 := by
    show Gen.V7 m c (Proc.devRef .tc main_v41) = _
    rw [V7_split]
    after_results
    rfl
  rw [e, cast_row, Vmid_launch m c main_arg6 (by decide) (by decide) (by decide) (by decide) (by decide) (by decide) (by decide)]
theorem VV7_v42 (f : Fin 512) : (VV7 m c main_v42 : S1x512.Idx → EReal) (ix2 0 f) = (m ((c : Thread nD τ).loc main_arg7) : S512.Idx → EReal) (ix1 f) := by
  have e : (VV7 m c main_v42 : S1x512.Idx → EReal)
      = shapeCast S1x512 (Vmid m c main_arg7 : S512.Idx → EReal) shapeCasts_S512_S1x512 := by
    show Gen.V7 m c (Proc.devRef .tc main_v42) = _
    rw [V7_split]
    after_results
    rfl
  rw [e, cast_row, Vmid_launch m c main_arg7 (by decide) (by decide) (by decide) (by decide) (by decide) (by decide) (by decide)]
theorem VV7_v43 (f : Fin 512) : (VV7 m c main_v43 : S1x512.Idx → EReal) (ix2 0 f) = (m ((c : Thread nD τ).loc main_arg8) : S512.Idx → EReal) (ix1 f) := by
  have e : (VV7 m c main_v43 : S1x512.Idx → EReal)
      = shapeCast S1x512 (Vmid m c main_arg8 : S512.Idx → EReal) shapeCasts_S512_S1x512 := by
    show Gen.V7 m c (Proc.devRef .tc main_v43) = _
    rw [V7_split]
    after_results
    rfl
  rw [e, cast_row, Vmid_launch m c main_arg8 (by decide) (by decide) (by decide) (by decide) (by decide) (by decide) (by decide)]
theorem VV7_v44 : (VV7 m c main_v44 : S1x1.Idx → EReal) (ix2 0 0) = (m ((c : Thread nD τ).loc main_arg9) : S_.Idx → EReal) ix0 := by
  have e : (VV7 m c main_v44 : S1x1.Idx → EReal)
      = shapeCast S1x1 (Vmid m c main_arg9 : S_.Idx → EReal) shapeCasts_S_S1x1 := by
    show Gen.V7 m c (Proc.devRef .tc main_v44) = _
    rw [V7_split]
    after_results
    rfl
  rw [e, cast_scalar, Vmid_launch m c main_arg9 (by decide) (by decide) (by decide) (by decide) (by decide) (by decide) (by decide)]

/-- The degree vector is not touched by the closing layout operations. -/
theorem VV7_v36_mid : VV7 m c main_v36 = Vmid m c main_v36 := by
  show Gen.V7 m c (Proc.devRef .tc main_v36) = _
  rw [V7_split]
  after_results

theorem VV7_v38 (n : Fin 32768) :
    (VV7 m c main_v38 : S32768x1.Idx → EReal) (ix2 n 0)
      = (VV7 m c main_v36 : S32x1024.Idx → EReal) (ix2 (⟨n.val / 1024, by omega⟩ : Fin 32) (⟨n.val % 1024, Nat.mod_lt _ (by norm_num)⟩ : Fin 1024)) := by
  have e : (VV7 m c main_v38 : S32768x1.Idx → EReal)
      = shapeCast S32768x1 (Vmid m c main_v36 : S32x1024.Idx → EReal) shapeCasts_S32x1024_S32768x1 := by
    show Gen.V7 m c (Proc.devRef .tc main_v38) = _
    rw [V7_split]
    after_results
    rfl
  rw [e, cast_col, VV7_v36_mid]

/-! ## Between the regions -/

/-- A buffer the stretch between the regions does not write is as region 0 left it. -/
theorem VV9_of (r : Ref sig .tc) (h : r ∉ hostOps1_W) : VV9 m c r = VV8 m c r :=
  StableHlo.after_of_writes_sub (hostOps1 (F := Ideal)) _ (hostOps1_writes (F := Ideal)) h

theorem VV9_v37 : VV9 m c main_v37 = VV7 m c main_v37 :=
  (VV9_of m c main_v37 (by decide)).trans (W8_of_ne m c main_v37 (by decide))
theorem VV9_arg0 : VV9 m c main_arg0 = m ((c : Thread nD τ).loc main_arg0) :=
  (VV9_of m c main_arg0 (by decide)).trans <| (W8_of_ne m c main_arg0 (by decide)).trans <|
    (V7_of m c main_arg0 (by decide)).trans
      (V6_launch m c main_arg0 (by decide) (by decide) (by decide) (by decide) (by decide) (by decide))

theorem VV9_v46 (b : Fin 32) (k : Fin 1024) (f : Fin 512) :
    (VV9 m c main_v46 : S32x1024x512.Idx → EReal) (ix3 b k f) = (VV8 m c main_v45 : S32768x512.Idx → EReal) (ix2 (Cert.Spec.node b k) f) := by
  have e : (VV9 m c main_v46 : S32x1024x512.Idx → EReal)
      = shapeCast S32x1024x512 (VV8 m c main_v45 : S32768x512.Idx → EReal) shapeCasts_S32768x512_S32x1024x512 := by
    show StableHlo.after (hostOps1 (F := Ideal)) (W8 m c) (Proc.devRef .tc main_v46) = _
    after_results
    rfl
  rw [e]
  exact cast_graphs _ _ b k f
theorem VV9_v47 (b : Fin 32) (i : Fin 1024) :
    (VV9 m c main_v47 : S32x1024x1.Idx → EReal) (ix3 b i 0) = (VV7 m c main_v36 : S32x1024.Idx → EReal) (ix2 b i) := by
  have e : (VV9 m c main_v47 : S32x1024x1.Idx → EReal)
      = shapeCast S32x1024x1 (VV8 m c main_v36 : S32x1024.Idx → EReal) shapeCasts_S32x1024_S32x1024x1 := by
    show StableHlo.after (hostOps1 (F := Ideal)) (W8 m c) (Proc.devRef .tc main_v47) = _
    after_results
    rfl
  have e8 : VV8 m c main_v36 = VV7 m c main_v36 := W8_of_ne m c main_v36 (by decide)
  rw [e, cast_unit, e8]
theorem VV9_v48 (f : Fin 512) : (VV9 m c main_v48 : S1x512.Idx → EReal) (ix2 0 f) = (m ((c : Thread nD τ).loc main_arg11) : S512.Idx → EReal) (ix1 f) := by
  have e : (VV9 m c main_v48 : S1x512.Idx → EReal)
      = shapeCast S1x512 (VV8 m c main_arg11 : S512.Idx → EReal) shapeCasts_S512_S1x512 := by
    show StableHlo.after (hostOps1 (F := Ideal)) (W8 m c) (Proc.devRef .tc main_v48) = _
    after_results
    rfl
  have e8 : VV8 m c main_arg11 = m ((c : Thread nD τ).loc main_arg11) :=
    (W8_of_ne m c main_arg11 (by decide)).trans <| (V7_of m c main_arg11 (by decide)).trans
      (V6_launch m c main_arg11 (by decide) (by decide) (by decide) (by decide) (by decide) (by decide))
  rw [e, cast_row, e8]
theorem VV9_v49 : (VV9 m c main_v49 : S1x1.Idx → EReal) (ix2 0 0) = (m ((c : Thread nD τ).loc main_arg12) : S_.Idx → EReal) ix0 := by
  have e : (VV9 m c main_v49 : S1x1.Idx → EReal)
      = shapeCast S1x1 (VV8 m c main_arg12 : S_.Idx → EReal) shapeCasts_S_S1x1 := by
    show StableHlo.after (hostOps1 (F := Ideal)) (W8 m c) (Proc.devRef .tc main_v49) = _
    after_results
    rfl
  have e8 : VV8 m c main_arg12 = m ((c : Thread nD τ).loc main_arg12) :=
    (W8_of_ne m c main_arg12 (by decide)).trans <| (V7_of m c main_arg12 (by decide)).trans
      (V6_launch m c main_arg12 (by decide) (by decide) (by decide) (by decide) (by decide) (by decide))
  rw [e, cast_scalar, e8]

end Cert.KernelIdeal.HostMisc

end
-- ==== Proof.KIValue.lean ====
/-
  The idealized kernel's result array, index by index, as `Spec.outK` of the argument arrays.

  Region 1's result is the epilogue of the dense aggregation of the arrays region 1 is entered with: the
  adjacency counts (left by the host before region 0 and untouched since), the degree column (the host's
  inverse square roots of the degrees, re-laid), region 0's result re-laid per graph, the bias row, the slope
  and the input features.  Region 0's result is the scaled second linear layer of the node MLP of the arrays
  region 0 is entered with, which the host re-laid from the arguments.  Substituting, every array is a
  function of the arguments, and the whole is `Spec.outK`.
-/
import proofs.«425183_j61959198212219_2_alg».proof.Proof.KIVal0
import proofs.«425183_j61959198212219_2_alg».proof.Proof.KIVal1
import proofs.«425183_j61959198212219_2_alg».proof.Proof.KIHostAdj
import proofs.«425183_j61959198212219_2_alg».proof.Proof.KIHostDeg
import proofs.«425183_j61959198212219_2_alg».proof.Proof.KIHostMisc

set_option maxRecDepth 16384

noncomputable section

namespace Cert.Spec

/-- The second linear layer reads only the first layer's and its own parameters. -/
theorem xw_congr {P P' : Params} (hX : ∀ n k, P.X n k = P'.X n k) (hW1 : ∀ k f, P.W1 k f = P'.W1 k f)
    (hb1 : ∀ f, P.b1 f = P'.b1 f) (hgm : ∀ f, P.gm f = P'.gm f) (hbt : ∀ f, P.bt f = P'.bt f)
    (hrm : ∀ f, P.rm f = P'.rm f) (hrv : ∀ f, P.rv f = P'.rv f) (ha1 : P.a1 = P'.a1)
    (hWg : ∀ k f, P.Wg k f = P'.Wg k f) (n : Fin 32768) (f : Fin 512) :
    xw P n f = xw P' n f := by
  unfold xw hid
  simp only [hX, hW1, hb1, hgm, hbt, hrm, hrv, ha1, hWg]

/-- `fin` reads only the bias, the second slope and the residual row. -/
theorem fin_congr {P P' : Params} (hbg : ∀ f, P.bg f = P'.bg f) (ha2 : P.a2 = P'.a2) (n : Fin 32768)
    (hX : ∀ k, P.X n k = P'.X n k) (d : EReal) (a : Fin 512 → EReal) (f : Fin 512) :
    fin P d a n f = fin P' d a n f := by
  unfold fin
  simp only [hbg, ha2, hX]

section
open Idealize.ShloMosaic Idealize.ShloMosaic.ValueIdx
variable (a0 : (⟨3, ![32, 1024, 512]⟩ : Shape).Idx → EReal) (a3 : (⟨2, ![512, 512]⟩ : Shape).Idx → EReal)
    (a4 a5 a6 a7 a8 : (⟨1, ![512]⟩ : Shape).Idx → EReal) (a9 : (⟨0, ![]⟩ : Shape).Idx → EReal)
    (a10 : (⟨2, ![512, 512]⟩ : Shape).Idx → EReal) (a11 : (⟨1, ![512]⟩ : Shape).Idx → EReal)
    (a12 : (⟨0, ![]⟩ : Shape).Idx → EReal)
/-! The fields of `mkParams`, read back. -/
theorem mkParams_X (n : Fin 32768) (k : Fin 512) : (mkParams a0 a3 a4 a5 a6 a7 a8 a9 a10 a11 a12).X n k
    = a0 (ix3 (⟨n.val / 1024, by omega⟩ : Fin 32) (⟨n.val % 1024, Nat.mod_lt _ (by norm_num)⟩ : Fin 1024) k) := rfl
theorem mkParams_W1 (k f : Fin 512) : (mkParams a0 a3 a4 a5 a6 a7 a8 a9 a10 a11 a12).W1 k f = a3 (ix2 k f) := rfl
theorem mkParams_b1 (f : Fin 512) : (mkParams a0 a3 a4 a5 a6 a7 a8 a9 a10 a11 a12).b1 f = a4 (ix1 f) := rfl
theorem mkParams_gm (f : Fin 512) : (mkParams a0 a3 a4 a5 a6 a7 a8 a9 a10 a11 a12).gm f = a5 (ix1 f) := rfl
theorem mkParams_bt (f : Fin 512) : (mkParams a0 a3 a4 a5 a6 a7 a8 a9 a10 a11 a12).bt f = a6 (ix1 f) := rfl
theorem mkParams_rm (f : Fin 512) : (mkParams a0 a3 a4 a5 a6 a7 a8 a9 a10 a11 a12).rm f = a7 (ix1 f) := rfl
theorem mkParams_rv (f : Fin 512) : (mkParams a0 a3 a4 a5 a6 a7 a8 a9 a10 a11 a12).rv f = a8 (ix1 f) := rfl
theorem mkParams_a1 : (mkParams a0 a3 a4 a5 a6 a7 a8 a9 a10 a11 a12).a1 = a9 ix0 := rfl
theorem mkParams_Wg (k f : Fin 512) : (mkParams a0 a3 a4 a5 a6 a7 a8 a9 a10 a11 a12).Wg k f = a10 (ix2 k f) := rfl
theorem mkParams_bg (f : Fin 512) : (mkParams a0 a3 a4 a5 a6 a7 a8 a9 a10 a11 a12).bg f = a11 (ix1 f) := rfl
theorem mkParams_a2 : (mkParams a0 a3 a4 a5 a6 a7 a8 a9 a10 a11 a12).a2 = a12 ix0 := rfl
end

end Cert.Spec

namespace Cert.KernelIdeal.Value

open Idealize.ShloMosaic Idealize.ShloMosaic.TcCoe Idealize.ShloMosaic.ValueIdx Idealize.SL.Sem
open Cert.KernelIdeal Cert.KernelIdeal.Gen Cert.KernelIdeal.Hand

section Fields
variable (V : (c : Dev nD) → (b : Ref sig .tc) → Buf (Elt Ideal) ((c : Thread nD τ).loc b)) (c : Dev nD)
/-! The fields of the regions' parameter records, read back. -/
theorem params0_X (n : Fin 32768) (k : Fin 512) : (Val0.params0 V c).X n k = (V c main_v0 : S32768x512.Idx → EReal) (ix2 n k) := rfl
theorem params0_W1 (k f : Fin 512) : (Val0.params0 V c).W1 k f = (V c main_arg3 : S512x512.Idx → EReal) (ix2 k f) := rfl
theorem params0_b1 (f : Fin 512) : (Val0.params0 V c).b1 f = (V c main_v39 : S1x512.Idx → EReal) (ix2 0 f) := rfl
theorem params0_gm (f : Fin 512) : (Val0.params0 V c).gm f = (V c main_v40 : S1x512.Idx → EReal) (ix2 0 f) := rfl
theorem params0_bt (f : Fin 512) : (Val0.params0 V c).bt f = (V c main_v41 : S1x512.Idx → EReal) (ix2 0 f) := rfl
theorem params0_rm (f : Fin 512) : (Val0.params0 V c).rm f = (V c main_v42 : S1x512.Idx → EReal) (ix2 0 f) := rfl
theorem params0_rv (f : Fin 512) : (Val0.params0 V c).rv f = (V c main_v43 : S1x512.Idx → EReal) (ix2 0 f) := rfl
theorem params0_a1 : (Val0.params0 V c).a1 = (V c main_v44 : S1x1.Idx → EReal) (ix2 0 0) := rfl
theorem params0_Wg (k f : Fin 512) : (Val0.params0 V c).Wg k f = (V c main_arg10 : S512x512.Idx → EReal) (ix2 k f) := rfl
theorem params1_X (n : Fin 32768) (k : Fin 512) : (Val1.params1 V c).X n k = (V c main_arg0 : S32x1024x512.Idx → EReal)
    (ix3 (⟨n.val / 1024, by omega⟩ : Fin 32) (⟨n.val % 1024, Nat.mod_lt _ (by norm_num)⟩ : Fin 1024) k) := rfl
theorem params1_bg (f : Fin 512) : (Val1.params1 V c).bg f = (V c main_v48 : S1x512.Idx → EReal) (ix2 0 f) := rfl
theorem params1_a2 : (Val1.params1 V c).a2 = (V c main_v49 : S1x1.Idx → EReal) (ix2 0 0) := rfl
end Fields

variable (m : (ℓ : Loc nD τ sig) → Buf (Elt Ideal) ℓ) (c : Dev nD)

/-- The parameters and the graph the argument arrays denote. -/
abbrev P : Cert.Spec.Params :=
  Cert.Spec.mkParams (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

abbrev G (hok : Cert.Spec.EdgesOk (m ((c : Thread nD τ).loc main_arg1)) (m ((c : Thread nD τ).loc main_arg2))) : Cert.Spec.Graph :=
  Cert.Spec.mkGraph (m ((c : Thread nD τ).loc main_arg1)) (m ((c : Thread nD τ).loc main_arg2)) hok

/-- Region 0's result at row `n`: the kernel's scaled second layer. -/
theorem region0_value (hok : Cert.Spec.EdgesOk (m ((c : Thread nD τ).loc main_arg1)) (m ((c : Thread nD τ).loc main_arg2)))
    (n : Fin 32768) (f : Fin 512) :
    (VV8 m c main_v45 : S32768x512.Idx → EReal) (ix2 n f) = Cert.Spec.scaledK (P m c) (G m c hok) n f := by
  have h1 : (VV8 m c main_v45 : S32768x512.Idx → EReal) = ((dat0 (VV7 m) c).arrAt 10 cfg0.N : S32768x512.Idx → EReal) :=
    W8_arr m c 10
  rw [h1, Val0.arr0 (VV7 m) c n f]
  unfold Cert.Spec.scaledK Cert.Spec.scaled
  beta_reduce
  rw [HostMisc.VV7_v38 m c n, HostDeg.VV7_v36 m c hok]
  have hx : Cert.Spec.xw (Val0.params0 (VV7 m) c) n f = Cert.Spec.xw (P m c) n f := by
    refine Cert.Spec.xw_congr (P := Val0.params0 (VV7 m) c) (P' := P m c) ?_ ?_ ?_ ?_ ?_ ?_ ?_ ?_ ?_ n f
    · intro n k; rw [params0_X, Cert.Spec.mkParams_X]; exact HostMisc.VV7_v0 m c n k
    · intro k f; rw [params0_W1, Cert.Spec.mkParams_W1, HostMisc.VV7_arg3]
    · intro f; rw [params0_b1, Cert.Spec.mkParams_b1]; exact HostMisc.VV7_v39 m c f
    · intro f; rw [params0_gm, Cert.Spec.mkParams_gm]; exact HostMisc.VV7_v40 m c f
    · intro f; rw [params0_bt, Cert.Spec.mkParams_bt]; exact HostMisc.VV7_v41 m c f
    · intro f; rw [params0_rm, Cert.Spec.mkParams_rm]; exact HostMisc.VV7_v42 m c f
    · intro f; rw [params0_rv, Cert.Spec.mkParams_rv]; exact HostMisc.VV7_v43 m c f
    · rw [params0_a1, Cert.Spec.mkParams_a1]; exact HostMisc.VV7_v44 m c
    · intro k f; rw [params0_Wg, Cert.Spec.mkParams_Wg, HostMisc.VV7_arg10]
  rw [hx]

/-- The kernel's result at node `i` of graph `b`, feature `f`. -/
theorem kernel_value (hok : Cert.Spec.EdgesOk (m ((c : Thread nD τ).loc main_arg1)) (m ((c : Thread nD τ).loc main_arg2)))
    (b : Fin 32) (i : Fin 1024) (f : Fin 512) :
    (VV10 m c main_v50 : S32x1024x512.Idx → EReal) (ix3 b i f) = Cert.Spec.outK (P m c) (G m c hok) b i f := by
  have h1 : (VV10 m c main_v50 : S32x1024x512.Idx → EReal) = ((dat1 (VV9 m) c).arrAt 6 cfg1.N : S32x1024x512.Idx → EReal) :=
    W10_arr m c 6
  rw [h1, Val1.arr1 (VV9 m) c b i f]
  unfold Cert.Spec.outK Cert.Spec.aggK
  have hd : Val1.dcol (VV9 m) c (ix3 b i 0) = Cert.Spec.dinvK (G m c hok) b i := by
    unfold Val1.dcol
    rw [HostMisc.VV9_v47 m c b i, HostDeg.VV7_v36 m c hok]
  have ha : ∀ k : Fin 1024, Val1.adj (VV9 m) c (ix3 b i k) = Cert.Spec.Aval (G m c hok) b i k := by
    intro k
    unfold Val1.adj
    rw [HostMisc.VV9_v37 m c, HostDeg.VV7_v37 m c hok]
  have hs : ∀ (k : Fin 1024) (f' : Fin 512), Val1.sca (VV9 m) c (ix3 b k f') = Cert.Spec.scaledK (P m c) (G m c hok) (Cert.Spec.node b k) f' := by
    intro k f'
    unfold Val1.sca
    rw [HostMisc.VV9_v46 m c b k f', region0_value m c hok]
  simp only [hd, ha, hs]
  refine Cert.Spec.fin_congr (P := Val1.params1 (VV9 m) c) (P' := P m c) ?_ ?_ (Cert.Spec.node b i) ?_ _ _ f
  · intro f; rw [params1_bg, Cert.Spec.mkParams_bg]; exact HostMisc.VV9_v48 m c f
  · rw [params1_a2, Cert.Spec.mkParams_a2]; exact HostMisc.VV9_v49 m c
  · intro k; rw [params1_X, Cert.Spec.mkParams_X, HostMisc.VV9_arg0 m c]

end Cert.KernelIdeal.Value

end
-- ==== Proof.RefValue.lean ====
/-
  The reference's result read index by index: at node `i` of graph `b` and feature `f` it is `Spec.outR` of the
  argument arrays — the node MLP, the degree count over the edge list with one self loop per node, the
  gather of scaled rows and their scatter-add into destination rows, and the epilogue.
-/
import proofs.«425183_j61959198212219_2_alg».proof.Proof.Gen.ReferenceIdeal.Read
import proofs.«425183_j61959198212219_2_alg».proof.Proof.SpecIO
import Idealize.ShloMosaic.Lib.StableHlo.Predicate
import Idealize.ShloMosaic.Lib.IdealHost

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.Read

section Stages

variable (x0 : (⟨S32x1024x512, .f32⟩ : BufTy).Contents (Elt Ideal)) (x1 x2 : (⟨S262144, .i32⟩ : BufTy).Contents (Elt Ideal))
    (x3 : (⟨S512x512, .f32⟩ : BufTy).Contents (Elt Ideal)) (x4 x5 x6 x7 x8 : (⟨S512, .f32⟩ : BufTy).Contents (Elt Ideal))
    (x9 : (⟨S_, .f32⟩ : BufTy).Contents (Elt Ideal)) (x10 : (⟨S512x512, .f32⟩ : BufTy).Contents (Elt Ideal))
    (x11 : (⟨S512, .f32⟩ : BufTy).Contents (Elt Ideal)) (x12 : (⟨S_, .f32⟩ : BufTy).Contents (Elt Ideal))

/-! ## The node MLP -/

/-- The first linear layer, the normalisation's affine map: the rectifier's argument at node `n`, feature `f`. -/
theorem pre1_apply (n : Fin 32768) (f : Fin 512) :
    val_main_v19 (F := Ideal) x0 x3 x4 x5 x6 x7 x8 (ix2 n f)
      = ((((∑ k : Fin 512, x0 (ix3 (⟨n.val / 1024, by omega⟩ : Fin 32) (⟨n.val % 1024, Nat.mod_lt _ (by norm_num)⟩ : Fin 1024) k) * x3 (ix2 k f))
            + x4 (ix1 f)) - x7 (ix1 f)) * Ideal.rsqrt (x8 (ix1 f) + Cert.Spec.epsBN)) * x5 (ix1 f) + x6 (ix1 f) := by
  have e0 : ∀ k : Fin 512, idx_main_v0 (lidx_main_v1 (ix2 n f) k)
      = ix3 (⟨n.val / 1024, by omega⟩ : Fin 32) (⟨n.val % 1024, Nat.mod_lt _ (by norm_num)⟩ : Fin 1024) k := fun k =>
    funext fun a => Fin.ext (by
      match a with
      | ⟨0, _⟩ => show (n.val * 512 + k.val) / 524288 = n.val / 1024; omega
      | ⟨1, _⟩ => show (n.val * 512 + k.val) / 512 % 1024 = n.val % 1024; omega
      | ⟨2, _⟩ => show (n.val * 512 + k.val) % 512 = k.val; omega)
  have e1 : ∀ k : Fin 512, ridx_main_v1 (ix2 n f) k = ix2 k f := fun k =>
    funext fun a => Fin.ext (by match a with | ⟨0, _⟩ => rfl | ⟨1, _⟩ => rfl)
  have e3 : idx_main_v2 (idx_main_v3 (ix2 n f)) = ix1 f := funext fun a => Fin.ext (by match a with | ⟨0, _⟩ => rfl)
  have e6 : idx_main_v5 (idx_main_v6 (ix2 n f)) = ix1 f := funext fun a => Fin.ext (by match a with | ⟨0, _⟩ => rfl)
  have e12 : idx_main_v11 (idx_main_v12 (ix2 n f)) = ix1 f := funext fun a => Fin.ext (by match a with | ⟨0, _⟩ => rfl)
  have e15 : idx_main_v14 (idx_main_v15 (ix2 n f)) = ix1 f := funext fun a => Fin.ext (by match a with | ⟨0, _⟩ => rfl)
  have e18 : idx_main_v17 (idx_main_v18 (ix2 n f)) = ix1 f := funext fun a => Fin.ext (by match a with | ⟨0, _⟩ => rfl)
  rw [val_main_v19_apply, val_main_v16_apply, val_main_v13_apply, val_main_v7_apply, val_main_v4_apply, val_main_v1_apply,
    val_main_v3_apply, val_main_v2_apply, val_main_v6_apply, val_main_v5_apply, val_main_v12_apply, val_main_v11_apply,
    val_main_v10_apply, val_main_v9_apply, val_main_v8_apply, val_main_cst_apply, val_main_v15_apply, val_main_v14_apply,
    val_main_v18_apply, val_main_v17_apply]
  simp only [val_main_v0_apply, e0, e1, e3, e6, e12, e15, e18, Ideal.addf_def, Ideal.mulf_def, Ideal.subf_def,
    Ideal.hostUnary_rsqrt_def, Ideal.ofBits_def]

/-- The hidden layer. -/
theorem hid_apply (n : Fin 32768) (f : Fin 512) :
    val_main_v24 (F := Ideal) x0 x3 x4 x5 x6 x7 x8 x9 (ix2 n f)
      = Cert.Spec.hid (Cert.Spec.mkParams x0 x3 x4 x5 x6 x7 x8 x9 x10 x11 x12) n f := by
  have e9 : idx_main_v22 (ix2 n f) = ix0 := funext fun a => a.elim0
  rw [val_main_v24_apply, val_main_v21_apply, val_main_v23_apply, val_main_v22_apply, val_main_v20_apply,
    val_main_cst_0_apply, pre1_apply, e9]
  simp only [Ideal.mulf_def, Ideal.cmpf_def, Ideal.ofBits_def, Ideal.ofBits_zero_f32]
  rfl

/-- The convolution's linear layer. -/
theorem xw_apply (n : Fin 32768) (f : Fin 512) :
    val_main_v38 (F := Ideal) x0 x3 x4 x5 x6 x7 x8 x9 x10 (ix2 n f)
      = Cert.Spec.xw (Cert.Spec.mkParams x0 x3 x4 x5 x6 x7 x8 x9 x10 x11 x12) n f := by
  rw [val_main_v38_apply]
  unfold Cert.Spec.xw
  refine Finset.sum_congr rfl fun k _ => ?_
  have el : lidx_main_v38 (ix2 n f) k = ix2 n k := funext fun a => Fin.ext (by match a with | ⟨0, _⟩ => rfl | ⟨1, _⟩ => rfl)
  have er : ridx_main_v38 (ix2 n f) k = ix2 k f := funext fun a => Fin.ext (by match a with | ⟨0, _⟩ => rfl | ⟨1, _⟩ => rfl)
  rw [el, er, hid_apply x0 x3 x4 x5 x6 x7 x8 x9 x10 x11 x12]
  rfl

/-! ## The extended edge list as words -/

/-- The destination list with the self loops appended, at extended edge `j`. -/
theorem v27_apply (j : Fin 294912) :
    val_main_v27 (F := Ideal) x2 (ix1 j)
      = if h : j.val < 262144 then x2 (ix1 (⟨j.val, h⟩ : Fin 262144)) else BitVec.ofNat 32 (j.val - 262144) := by
  unfold val_main_v27
  split
  · next h =>
    exact concatenate_pair_apply_left (t := S294912) (s₁ := S262144) (s₂ := S32768) 0 x2 (val_main_v25 (F := Ideal))
      concatenates_S262144_S32768_S294912_d0 (ix1 j) rfl (ix1 (⟨j.val, h⟩ : Fin 262144)) (fun b => by
        match b with
        | ⟨0, _⟩ => rfl)
  · next h =>
    have hlt : j.val - 262144 < 32768 := by have := j.isLt; omega
    refine (concatenate_pair_apply_right (t := S294912) (s₁ := S262144) (s₂ := S32768) 0 x2 (val_main_v25 (F := Ideal))
      concatenates_S262144_S32768_S294912_d0 (ix1 j) rfl rfl (ix1 (⟨j.val - 262144, hlt⟩ : Fin 32768))
      (fun b hb => absurd (Subsingleton.elim (α := Fin 1) _ _) hb) ?_).trans ?_
    · show (j.val - 262144) + 262144 = j.val
      omega
    · rfl

/-- The source list with the self loops appended, at extended edge `j`. -/
theorem v26_apply (j : Fin 294912) :
    val_main_v26 (F := Ideal) x1 (ix1 j)
      = if h : j.val < 262144 then x1 (ix1 (⟨j.val, h⟩ : Fin 262144)) else BitVec.ofNat 32 (j.val - 262144) := by
  unfold val_main_v26
  split
  · next h =>
    exact concatenate_pair_apply_left (t := S294912) (s₁ := S262144) (s₂ := S32768) 0 x1 (val_main_v25 (F := Ideal))
      concatenates_S262144_S32768_S294912_d0 (ix1 j) rfl (ix1 (⟨j.val, h⟩ : Fin 262144)) (fun b => by
        match b with
        | ⟨0, _⟩ => rfl)
  · next h =>
    have hlt : j.val - 262144 < 32768 := by have := j.isLt; omega
    refine (concatenate_pair_apply_right (t := S294912) (s₁ := S262144) (s₂ := S32768) 0 x1 (val_main_v25 (F := Ideal))
      concatenates_S262144_S32768_S294912_d0 (ix1 j) rfl rfl (ix1 (⟨j.val - 262144, hlt⟩ : Fin 32768))
      (fun b hb => absurd (Subsingleton.elim (α := Fin 1) _ _) hb) ?_).trans ?_
    · show (j.val - 262144) + 262144 = j.val
      omega
    · rfl

variable (hok : Cert.Spec.EdgesOk x1 x2)

theorem v27_toNat (j : Fin 294912) :
    (val_main_v27 (F := Ideal) x2 (ix1 j)).toNat = Cert.Spec.dstJ (Cert.Spec.mkGraph x1 x2 hok) j := by
  rw [v27_apply]
  unfold Cert.Spec.dstJ
  split
  · rfl
  · next h =>
    show (BitVec.ofNat 32 (j.val - 262144)).toNat = j.val - 262144
    rw [BitVec.toNat_ofNat]
    exact Nat.mod_eq_of_lt (by have := j.isLt; omega)

theorem v26_toNat (j : Fin 294912) :
    (val_main_v26 (F := Ideal) x1 (ix1 j)).toNat = Cert.Spec.srcJ (Cert.Spec.mkGraph x1 x2 hok) j := by
  rw [v26_apply]
  unfold Cert.Spec.srcJ
  split
  · rfl
  · next h =>
    show (BitVec.ofNat 32 (j.val - 262144)).toNat = j.val - 262144
    rw [BitVec.toNat_ofNat]
    exact Nat.mod_eq_of_lt (by have := j.isLt; omega)

/-- A word below 2³¹ is not negative, so the wrap of negative indices leaves it alone. -/
theorem wrap_select (w c : BitVec 32) (hw : w.toNat < 2 ^ 31) :
    Scalar.select (IntOp.cmpi .slt w 0#32) c w = w := by
  have h : ¬ IntOp.cmpi .slt w 0#32 = 1#1 := by
    rw [StableHlo.Predicate.slt_iff_toNat hw (by decide)]
    simp
  rw [eq_zero_of_ne_one h, select_zero]

/-- The destination column of the degree count, read signed. -/
theorem col34_toInt (j : Fin 294912) :
    (val_main_v34 (F := Ideal) x2 (ix2 j (0 : Fin 1))).toInt = (Cert.Spec.dstJ (Cert.Spec.mkGraph x1 x2 hok) j : ℤ) := by
  have e : idx_main_v34 (ix2 j (0 : Fin 1)) = ix1 j := funext fun a => Fin.ext (by match a with | ⟨0, _⟩ => rfl)
  have hlt : (val_main_v27 (F := Ideal) x2 (ix1 j)).toNat < 2 ^ 31 := by
    rw [v27_toNat x1 x2 hok]; have := Cert.Spec.dstJ_lt (Cert.Spec.mkGraph x1 x2 hok) j; omega
  rw [val_main_v34_apply, e, val_main_v33_apply, val_main_v30_apply, val_main_v29_apply, val_main_c_apply,
    wrap_select _ _ hlt, StableHlo.Predicate.toInt_eq_toNat_of_lt hlt, v27_toNat x1 x2 hok]

/-- The destination column of the aggregation, read signed. -/
theorem col55_toInt (j : Fin 294912) :
    (val_main_v55 (F := Ideal) x2 (ix2 j (0 : Fin 1))).toInt = (Cert.Spec.dstJ (Cert.Spec.mkGraph x1 x2 hok) j : ℤ) := by
  have e : idx_main_v55 (ix2 j (0 : Fin 1)) = ix1 j := funext fun a => Fin.ext (by match a with | ⟨0, _⟩ => rfl)
  have hlt : (val_main_v27 (F := Ideal) x2 (ix1 j)).toNat < 2 ^ 31 := by
    rw [v27_toNat x1 x2 hok]; have := Cert.Spec.dstJ_lt (Cert.Spec.mkGraph x1 x2 hok) j; omega
  rw [val_main_v55_apply, e, val_main_v54_apply, val_main_v51_apply, val_main_v50_apply, val_main_c_7_apply,
    wrap_select _ _ hlt, StableHlo.Predicate.toInt_eq_toNat_of_lt hlt, v27_toNat x1 x2 hok]

/-- The source column of the gather, read signed. -/
theorem col47_toInt (j : Fin 294912) :
    (val_main_v47 (F := Ideal) x1 (ix2 j (0 : Fin 1))).toInt = (Cert.Spec.srcJ (Cert.Spec.mkGraph x1 x2 hok) j : ℤ) := by
  have e : idx_main_v47 (ix2 j (0 : Fin 1)) = ix1 j := funext fun a => Fin.ext (by match a with | ⟨0, _⟩ => rfl)
  have hlt : (val_main_v26 (F := Ideal) x1 (ix1 j)).toNat < 2 ^ 31 := by
    rw [v26_toNat x1 x2 hok]; have := Cert.Spec.srcJ_lt (Cert.Spec.mkGraph x1 x2 hok) j; omega
  rw [val_main_v47_apply, e, val_main_v46_apply, val_main_v43_apply, val_main_v42_apply, val_main_c_4_apply,
    wrap_select _ _ hlt, StableHlo.Predicate.toInt_eq_toNat_of_lt hlt, v26_toNat x1 x2 hok]

/-! ## Where a scatter's update lands -/

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hh =>
      intro a
      have h1 := congrFun (Option.some.inj h) a
      have h2 := congrArg Fin.val h1
      simp only at h2
      have := hh a
      omega
    · cases h
  · intro h
    split
    · next hh =>
      congr 1
      funext a
      apply Fin.ext
      show (d.start j idx a + (d.window j a : ℤ)).toNat = (i a).val
      have := h a
      omega
    · next hh =>
      exact absurd (fun a => by have := h a; have := (i a).isLt; constructor <;> omega) hh

theorem mem_sKept_iff {s si u : Shape} (d : ScatterDims s si u) (a : Fin s.rank) :
    a ∈ d.sKept ↔ a ∉ d.insertedWindowDims := by
  simp [ScatterDims.sKept, Shape.kept, List.mem_filter, List.mem_finRange]

/-- The degree count's scatter: update `j` lands on the node its index word names. -/
theorem D1_result (idx : IVec S294912x1 32) (j : Fin 294912) (n : Fin 32768) :
    scatter_S32768_S294912x1_S294912_n_0_0_1.resultIdx? (ix1 j) idx = some (ix1 n)
      ↔ (idx (ix2 j (0 : Fin 1))).toInt = (n.val : ℤ) := by
  have hs : scatter_S32768_S294912x1_S294912_n_0_0_1.start (ix1 j) idx 0 = (idx (ix2 j (0 : Fin 1))).toInt := by
    unfold ScatterDims.start
    rw [dif_pos (show (0 : Fin S32768.rank) ∈ scatter_S32768_S294912x1_S294912_n_0_0_1.scatterDimsToOperandDims from
      List.mem_singleton.mpr rfl)]
    refine congrArg (fun z => (idx z).toInt) ?_
    funext b
    apply Fin.ext
    match b with
    | ⟨0, _⟩ => rfl
    | ⟨1, _⟩ => rfl
  have hw : scatter_S32768_S294912x1_S294912_n_0_0_1.window (ix1 j) 0 = 0 := by
    unfold ScatterDims.window
    rw [dif_neg (fun h => ((mem_sKept_iff _ _).1 h) (List.mem_singleton.mpr rfl))]
  rw [resultIdx?_eq_some_iff]
  constructor
  · intro h
    have := h 0
    rw [hs, hw] at this
    simpa using this
  · intro h a
    obtain rfl : a = 0 := Subsingleton.elim (α := Fin 1) _ _
    rw [hs, hw]
    simpa using h

/-- Extended edges as indices of the update array. -/
def edgeIdx : Fin 294912 ≃ S294912.Idx where
  toFun := ix1
  invFun j := j 0
  left_inv _ := rfl
  right_inv j := (eq_ix1 j).symm

/-- The degree: the number of extended edges entering node `n`. -/
theorem deg_apply (n : Fin 32768) :
    val_main_v36 (F := Ideal) x2 (ix1 n) = Cert.Spec.degR (Cert.Spec.mkGraph x1 x2 hok) n := by
  unfold val_main_v36
  show val_main_v28 (F := Ideal) (ix1 n)
    + ∑ j ∈ Finset.univ.filter (fun j => scatter_S32768_S294912x1_S294912_n_0_0_1.resultIdx? j (val_main_v34 (F := Ideal) x2) = some (ix1 n)),
        val_main_v35 (F := Ideal) j = _
  rw [val_main_v28_apply, val_main_cst_1_apply, Ideal.ofBits_def, Ideal.ofBits_zero_f32, zero_add]
  unfold Cert.Spec.degR
  rw [Finset.sum_filter, Finset.sum_filter]
  refine (Fintype.sum_equiv edgeIdx _ _ (fun j => ?_)).symm
  show _ = if scatter_S32768_S294912x1_S294912_n_0_0_1.resultIdx? (ix1 j) (val_main_v34 (F := Ideal) x2) = some (ix1 n)
    then val_main_v35 (F := Ideal) (ix1 j) else 0
  simp only [D1_result, col34_toInt x1 x2 hok, val_main_v35_apply, val_main_cst_3_apply, Ideal.ofBits_def,
    Ideal.ofBits_one_f32, Nat.cast_inj]

/-- The inverse square root of the degree, as both scalings read it. -/
theorem dinv_apply (n : Fin 32768) :
    val_main_v37 (F := Ideal) x2 (ix1 n) = Cert.Spec.dinvR (Cert.Spec.mkGraph x1 x2 hok) n := by
  rw [val_main_v37_apply, deg_apply x1 x2 hok, Ideal.hostUnary_rsqrt_def]
  rfl

/-! ## The scaled rows, their gather by source and their scatter-add by destination -/

/-- The rows scaled on the source side. -/
theorem scaled_apply (m : Fin 32768) (f : Fin 512) :
    val_main_v41 (F := Ideal) x0 x2 x3 x4 x5 x6 x7 x8 x9 x10 (ix2 m f)
      = Cert.Spec.scaled (Cert.Spec.mkParams x0 x3 x4 x5 x6 x7 x8 x9 x10 x11 x12)
          (Cert.Spec.dinvR (Cert.Spec.mkGraph x1 x2 hok)) m f := by
  have e : idx_main_v39 (idx_main_v40 (ix2 m f)) = ix1 m := funext fun a => Fin.ext (by match a with | ⟨0, _⟩ => rfl)
  rw [val_main_v41_apply, val_main_v40_apply, val_main_v39_apply, e, xw_apply x0 x3 x4 x5 x6 x7 x8 x9 x10 x11 x12,
    dinv_apply x1 x2 hok, Ideal.mulf_def]
  rfl

/-- The gather's row axis: the clamped start index, which an in-range source is. -/
theorem gather_axis0 (idx : IVec S294912x1 32) (j : Fin 294912) (f : Fin 512) (m : ℕ) (hm : m < 32768)
    (hidx : (idx (ix2 j (0 : Fin 1))).toInt = (m : ℤ)) :
    (gather_S32768x512_S294912x1_S294912x512_1_0_n_n_0_1_1512.operandIdx (ix2 j f) idx 0).val = m := by
  show gather_S32768x512_S294912x1_S294912x512_1_0_n_n_0_1_1512.start (ix2 j f) idx 0
    + gather_S32768x512_S294912x1_S294912x512_1_0_n_n_0_1_1512.batchCoord (ix2 j f) 0
    + gather_S32768x512_S294912x1_S294912x512_1_0_n_n_0_1_1512.offCoord (ix2 j f) 0 = m
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S32768x512.rank) ∈ gather_S32768x512_S294912x1_S294912x512_1_0_n_n_0_1_1512.startIndexMap from
    List.mem_singleton.mpr rfl)]
  have hsi : gather_S32768x512_S294912x1_S294912x512_1_0_n_n_0_1_1512.siIdx (ix2 j f)
      ⟨List.idxOf (0 : Fin S32768x512.rank) gather_S32768x512_S294912x1_S294912x512_1_0_n_n_0_1_1512.startIndexMap,
        List.idxOf_lt_length_iff.2 (List.mem_singleton.mpr rfl)⟩ = ix2 j (0 : Fin 1) := by
    funext b
    apply Fin.ext
    match b with
    | ⟨0, _⟩ => rfl
    | ⟨1, _⟩ => rfl
  rw [hsi, hidx]
  show min (Int.toNat (m : ℤ)) (32768 - 1) = m
  rw [Int.toNat_natCast]
  omega

/-- The gather's feature axis: the result's own feature. -/
theorem gather_axis1 (idx : IVec S294912x1 32) (j : Fin 294912) (f : Fin 512) :
    (gather_S32768x512_S294912x1_S294912x512_1_0_n_n_0_1_1512.operandIdx (ix2 j f) idx 1).val = f.val := by
  show gather_S32768x512_S294912x1_S294912x512_1_0_n_n_0_1_1512.start (ix2 j f) idx 1
    + gather_S32768x512_S294912x1_S294912x512_1_0_n_n_0_1_1512.batchCoord (ix2 j f) 1
    + gather_S32768x512_S294912x1_S294912x512_1_0_n_n_0_1_1512.offCoord (ix2 j f) 1 = f.val
  have hs : gather_S32768x512_S294912x1_S294912x512_1_0_n_n_0_1_1512.start (ix2 j f) idx 1 = 0 := by
    unfold GatherDims.start
    rw [dif_neg (show ¬ (1 : Fin S32768x512.rank) ∈ gather_S32768x512_S294912x1_S294912x512_1_0_n_n_0_1_1512.startIndexMap from
      fun h => absurd (congrArg Fin.val (List.mem_singleton.mp h)) (by decide))]
  have ho : gather_S32768x512_S294912x1_S294912x512_1_0_n_n_0_1_1512.offCoord (ix2 j f) 1 = f.val := by
    unfold GatherDims.offCoord
    rw [dif_pos ((GatherDims.mem_sKept _ _).mpr ⟨fun h => absurd (congrArg Fin.val (List.mem_singleton.mp h)) (by decide),
      List.not_mem_nil⟩)]
    rfl
  rw [hs, GatherDims.batchCoord_eq_zero _ _ _ List.not_mem_nil, ho]
  omega

/-- The gathered rows: extended edge `j` reads the scaled row of its source. -/
theorem gather_apply (j : Fin 294912) (f : Fin 512) :
    val_main_v48 (F := Ideal) x0 x1 x2 x3 x4 x5 x6 x7 x8 x9 x10 (ix2 j f)
      = val_main_v41 (F := Ideal) x0 x2 x3 x4 x5 x6 x7 x8 x9 x10
          (ix2 (⟨Cert.Spec.srcJ (Cert.Spec.mkGraph x1 x2 hok) j, Cert.Spec.srcJ_lt _ j⟩ : Fin 32768) f) := by
  unfold val_main_v48
  generalize val_main_v41 (F := Ideal) x0 x2 x3 x4 x5 x6 x7 x8 x9 x10 = y
  show y (gather_S32768x512_S294912x1_S294912x512_1_0_n_n_0_1_1512.operandIdx (ix2 j f) (val_main_v47 (F := Ideal) x1)) = _
  refine congrArg y ?_
  funext a
  apply Fin.ext
  match a with
  | ⟨0, _⟩ => exact gather_axis0 _ j f _ (Cert.Spec.srcJ_lt _ j) (col47_toInt x1 x2 hok j)
  | ⟨1, _⟩ => exact gather_axis1 _ j f

/-- The aggregation's scatter: update `(j, f')` lands on `(node its index word names, f')`. -/
theorem D2_result (idx : IVec S294912x1 32) (j : Fin 294912) (f' : Fin 512) (n : Fin 32768) (f : Fin 512) :
    scatter_S32768x512_S294912x1_S294912x512_1_0_0_1.resultIdx? (ix2 j f') idx = some (ix2 n f)
      ↔ (idx (ix2 j (0 : Fin 1))).toInt = (n.val : ℤ) ∧ f' = f := by
  have hs0 : scatter_S32768x512_S294912x1_S294912x512_1_0_0_1.start (ix2 j f') idx 0 = (idx (ix2 j (0 : Fin 1))).toInt := by
    unfold ScatterDims.start
    rw [dif_pos (show (0 : Fin S32768x512.rank) ∈ scatter_S32768x512_S294912x1_S294912x512_1_0_0_1.scatterDimsToOperandDims from
      List.mem_singleton.mpr rfl)]
    refine congrArg (fun z => (idx z).toInt) ?_
    funext b
    apply Fin.ext
    match b with
    | ⟨0, _⟩ => rfl
    | ⟨1, _⟩ => rfl
  have hs1 : scatter_S32768x512_S294912x1_S294912x512_1_0_0_1.start (ix2 j f') idx 1 = 0 := by
    unfold ScatterDims.start
    rw [dif_neg (show ¬ (1 : Fin S32768x512.rank) ∈ scatter_S32768x512_S294912x1_S294912x512_1_0_0_1.scatterDimsToOperandDims from
      fun h => absurd (congrArg Fin.val (List.mem_singleton.mp h)) (by decide))]
  have hw0 : scatter_S32768x512_S294912x1_S294912x512_1_0_0_1.window (ix2 j f') 0 = 0 := by
    unfold ScatterDims.window
    rw [dif_neg (fun h => ((mem_sKept_iff _ _).1 h) (List.mem_singleton.mpr rfl))]
  have hw1 : scatter_S32768x512_S294912x1_S294912x512_1_0_0_1.window (ix2 j f') 1 = f'.val := by
    unfold ScatterDims.window
    rw [dif_pos ((mem_sKept_iff _ _).2 (fun h => absurd (congrArg Fin.val (List.mem_singleton.mp h)) (by decide)))]
    rfl
  rw [resultIdx?_eq_some_iff]
  constructor
  · intro h
    have h0 : scatter_S32768x512_S294912x1_S294912x512_1_0_0_1.start (ix2 j f') idx 0
        + ((scatter_S32768x512_S294912x1_S294912x512_1_0_0_1.window (ix2 j f') 0 : ℕ) : ℤ) = ((n.val : ℕ) : ℤ) := h 0
    have h1 : scatter_S32768x512_S294912x1_S294912x512_1_0_0_1.start (ix2 j f') idx 1
        + ((scatter_S32768x512_S294912x1_S294912x512_1_0_0_1.window (ix2 j f') 1 : ℕ) : ℤ) = ((f.val : ℕ) : ℤ) := h 1
    rw [hs0, hw0] at h0
    rw [hs1, hw1] at h1
    exact ⟨by omega, Fin.ext (by omega)⟩
  · rintro ⟨h0, rfl⟩ a
    match a with
    | ⟨0, _⟩ =>
      show scatter_S32768x512_S294912x1_S294912x512_1_0_0_1.start (ix2 j f') idx 0
        + ((scatter_S32768x512_S294912x1_S294912x512_1_0_0_1.window (ix2 j f') 0 : ℕ) : ℤ) = ((n.val : ℕ) : ℤ)
      rw [hs0, hw0]; omega
    | ⟨1, _⟩ =>
      show scatter_S32768x512_S294912x1_S294912x512_1_0_0_1.start (ix2 j f') idx 1
        + ((scatter_S32768x512_S294912x1_S294912x512_1_0_0_1.window (ix2 j f') 1 : ℕ) : ℤ) = ((f'.val : ℕ) : ℤ)
      rw [hs1, hw1]; omega

/-- The aggregation: the scaled rows of the sources of the extended edges entering node `n`, added up. -/
theorem agg_apply (n : Fin 32768) (f : Fin 512) :
    val_main_v56 (F := Ideal) x0 x1 x2 x3 x4 x5 x6 x7 x8 x9 x10 (ix2 n f)
      = Cert.Spec.aggR (Cert.Spec.mkGraph x1 x2 hok)
          (Cert.Spec.scaled (Cert.Spec.mkParams x0 x3 x4 x5 x6 x7 x8 x9 x10 x11 x12)
            (Cert.Spec.dinvR (Cert.Spec.mkGraph x1 x2 hok))) n f := by
  unfold val_main_v56
  show val_main_v49 (F := Ideal) (ix2 n f)
    + ∑ J ∈ Finset.univ.filter (fun J => scatter_S32768x512_S294912x1_S294912x512_1_0_0_1.resultIdx? J (val_main_v55 (F := Ideal) x2) = some (ix2 n f)),
        val_main_v48 (F := Ideal) x0 x1 x2 x3 x4 x5 x6 x7 x8 x9 x10 J = _
  rw [val_main_v49_apply, val_main_cst_6_apply, Ideal.ofBits_def, Ideal.ofBits_zero_f32, zero_add]
  unfold Cert.Spec.aggR
  rw [Finset.sum_filter, Finset.sum_filter]
  refine (sum_idx2 _).trans ?_
  refine Finset.sum_congr rfl fun j _ => ?_
  simp only [D2_result, col55_toInt x1 x2 hok, Nat.cast_inj]
  by_cases hd : Cert.Spec.dstJ (Cert.Spec.mkGraph x1 x2 hok) j = n.val
  · simp only [hd, true_and]
    rw [Finset.sum_ite_eq' Finset.univ f, if_pos (Finset.mem_univ f), if_pos trivial, gather_apply x0 x1 x2 x3 x4 x5 x6 x7 x8 x9 x10 hok,
      scaled_apply x0 x1 x2 x3 x4 x5 x6 x7 x8 x9 x10 x11 x12 hok]
  · simp only [hd, false_and, if_false, Finset.sum_const_zero]

/-! ## The epilogue -/

/-- The second rectifier's value at node `n`, feature `f`. -/
theorem act2_apply (n : Fin 32768) (f : Fin 512) :
    val_main_v67 (F := Ideal) x0 x1 x2 x3 x4 x5 x6 x7 x8 x9 x10 x11 x12 (ix2 n f)
      = Cert.Spec.prelu (x12 ix0)
          (Cert.Spec.aggR (Cert.Spec.mkGraph x1 x2 hok)
              (Cert.Spec.scaled (Cert.Spec.mkParams x0 x3 x4 x5 x6 x7 x8 x9 x10 x11 x12)
                (Cert.Spec.dinvR (Cert.Spec.mkGraph x1 x2 hok))) n f
            * Cert.Spec.dinvR (Cert.Spec.mkGraph x1 x2 hok) n + x11 (ix1 f)) := by
  have e58 : idx_main_v57 (idx_main_v58 (ix2 n f)) = ix1 n := funext fun a => Fin.ext (by match a with | ⟨0, _⟩ => rfl)
  have e61 : idx_main_v60 (idx_main_v61 (ix2 n f)) = ix1 f := funext fun a => Fin.ext (by match a with | ⟨0, _⟩ => rfl)
  have e65 : idx_main_v65 (ix2 n f) = ix0 := funext fun a => a.elim0
  have h62 : val_main_v62 (F := Ideal) x0 x1 x2 x3 x4 x5 x6 x7 x8 x9 x10 x11 (ix2 n f)
      = Cert.Spec.aggR (Cert.Spec.mkGraph x1 x2 hok)
              (Cert.Spec.scaled (Cert.Spec.mkParams x0 x3 x4 x5 x6 x7 x8 x9 x10 x11 x12)
                (Cert.Spec.dinvR (Cert.Spec.mkGraph x1 x2 hok))) n f
            * Cert.Spec.dinvR (Cert.Spec.mkGraph x1 x2 hok) n + x11 (ix1 f) := by
    rw [val_main_v62_apply, val_main_v59_apply, val_main_v58_apply, val_main_v57_apply, e58, val_main_v61_apply,
      val_main_v60_apply, e61, agg_apply x0 x1 x2 x3 x4 x5 x6 x7 x8 x9 x10 x11 x12 hok, dinv_apply x1 x2 hok,
      Ideal.addf_def, Ideal.mulf_def]
  rw [val_main_v67_apply, val_main_v64_apply, val_main_v66_apply, val_main_v65_apply, e65, val_main_v63_apply,
    val_main_cst_9_apply, h62]
  simp only [Ideal.mulf_def, Ideal.cmpf_def, Ideal.ofBits_def, Ideal.ofBits_zero_f32]
  rfl

end Stages

theorem ref_value (x0 : (⟨S32x1024x512, .f32⟩ : BufTy).Contents (Elt Ideal)) (x1 x2 : (⟨S262144, .i32⟩ : BufTy).Contents (Elt Ideal))
    (x3 : (⟨S512x512, .f32⟩ : BufTy).Contents (Elt Ideal)) (x4 x5 x6 x7 x8 : (⟨S512, .f32⟩ : BufTy).Contents (Elt Ideal))
    (x9 : (⟨S_, .f32⟩ : BufTy).Contents (Elt Ideal)) (x10 : (⟨S512x512, .f32⟩ : BufTy).Contents (Elt Ideal))
    (x11 : (⟨S512, .f32⟩ : BufTy).Contents (Elt Ideal)) (x12 : (⟨S_, .f32⟩ : BufTy).Contents (Elt Ideal))
    (hok : Cert.Spec.EdgesOk x1 x2) (b : Fin 32) (i : Fin 1024) (f : Fin 512) :
    Cert.ReferenceIdeal.Read.val_main_v73 (F := Ideal) x0 x1 x2 x3 x4 x5 x6 x7 x8 x9 x10 x11 x12 (ix3 b i f)
      = Cert.Spec.outR (Cert.Spec.mkParams x0 x3 x4 x5 x6 x7 x8 x9 x10 x11 x12) (Cert.Spec.mkGraph x1 x2 hok) (Cert.Spec.node b i) f := by
  have e68 : ∀ k : Fin 512, idx_main_v68 (ix3 b i k) = ix2 (Cert.Spec.node b i) k := fun k =>
    funext fun a => Fin.ext (by
      match a with
      | ⟨0, _⟩ => show ((b.val * 1024 + i.val) * 512 + k.val) / 512 = b.val * 1024 + i.val; omega
      | ⟨1, _⟩ => show ((b.val * 1024 + i.val) * 512 + k.val) % 512 = k.val; omega)
  have e71 : idx_main_v71 (ix3 b i f) = ix3 b i (0 : Fin 1) :=
    funext fun a => Fin.ext (by match a with | ⟨0, _⟩ => rfl | ⟨1, _⟩ => rfl | ⟨2, _⟩ => rfl)
  have ec2 : idx_main_call2_v2 (ix3 b i (0 : Fin 1)) = ix2 b i :=
    funext fun a => Fin.ext (by match a with | ⟨0, _⟩ => rfl | ⟨1, _⟩ => rfl)
  have ec1 : ∀ k : Fin 512, idx_main_call2_v1 (ix2 b i) k = ix3 b i k := fun k =>
    funext fun a => Fin.ext (by match a with | ⟨0, _⟩ => rfl | ⟨1, _⟩ => rfl | ⟨2, _⟩ => rfl)
  have h68 : ∀ k : Fin 512, val_main_v68 (F := Ideal) x0 x1 x2 x3 x4 x5 x6 x7 x8 x9 x10 x11 x12 (ix3 b i k)
      = Cert.Spec.prelu (x12 ix0)
          (Cert.Spec.aggR (Cert.Spec.mkGraph x1 x2 hok)
              (Cert.Spec.scaled (Cert.Spec.mkParams x0 x3 x4 x5 x6 x7 x8 x9 x10 x11 x12)
                (Cert.Spec.dinvR (Cert.Spec.mkGraph x1 x2 hok))) (Cert.Spec.node b i) k
            * Cert.Spec.dinvR (Cert.Spec.mkGraph x1 x2 hok) (Cert.Spec.node b i) + x11 (ix1 k)) := fun k => by
    rw [val_main_v68_apply, e68, act2_apply x0 x1 x2 x3 x4 x5 x6 x7 x8 x9 x10 x11 x12 hok]
  have eX : (Cert.Spec.mkParams x0 x3 x4 x5 x6 x7 x8 x9 x10 x11 x12).X (Cert.Spec.node b i) f = x0 (ix3 b i f) := by
    show x0 (ix3 (⟨(Cert.Spec.node b i).val / 1024, _⟩ : Fin 32) (⟨(Cert.Spec.node b i).val % 1024, _⟩ : Fin 1024) f) = x0 (ix3 b i f)
    refine congrArg x0 (funext fun a => Fin.ext ?_)
    match a with
    | ⟨0, _⟩ => show (b.val * 1024 + i.val) / 1024 = b.val; omega
    | ⟨1, _⟩ => show (b.val * 1024 + i.val) % 1024 = i.val; omega
    | ⟨2, _⟩ => rfl
  rw [val_main_v73_apply, val_main_v72_apply, val_main_v71_apply, e71, val_main_v70_apply, val_main_call3_v1_apply,
    val_main_call3_v0_apply, val_main_cst_10_apply, val_main_v69_apply, val_main_call2_v2_apply, ec2,
    val_main_call2_v1_apply, val_main_call2_cst_apply, h68 f]
  simp only [val_main_call2_v0_apply, ec1, h68, Ideal.addf_def, Ideal.mulf_def, Ideal.hostDivf_def, Ideal.maximumf_def,
    Ideal.hostUnary_sqrt_def, Ideal.ofBits_def, Ideal.ofBits_zero_f32, zero_add]
  unfold Cert.Spec.outR Cert.Spec.fin
  rw [eX, max_comm]
  rfl

end Cert.ReferenceIdeal.RefValue

end
-- ==== Proof.Bridge.lean ====
/-
  The kernel's per-graph dense sums equal the reference's sums over the edge list, on all extended reals.

  Every edge stays inside one graph, so "the source lies in graph `b` and the destination has local index `i`"
  says exactly "the destination is node `b * 1024 + i`".  The dense entry `Aval b i k` is a natural number
  (a count of edges plus the identity's entry), and a natural number times `x` is `x` added that many times,
  also at the infinities; the sum over `k` then regroups the edges entering the node by the local index of
  their source.  The reference's extended list is the edge list followed by one self loop per node, which is
  the identity's contribution.
-/
import proofs.«425183_j61959198212219_2_alg».proof.Proof.Spec
import Mathlib.Data.EReal.Operations
import Mathlib.Algebra.BigOperators.Fin
import Mathlib.Algebra.BigOperators.Group.Finset.Basic

noncomputable section

namespace Cert.Spec

open Idealize.ShloMosaic

/-! ## Index arithmetic -/

/-- Inside one graph: source in graph `b` and destination of local index `i` iff the destination is node `(b, i)`. -/
theorem edge_cond_iff (G : Graph) (b : Fin 32) (i : Fin 1024) (e : Fin 262144) :
    (G.src e / 1024 = b.val ∧ G.dst e % 1024 = i.val) ↔ G.dst e = (node b i).val := by
  have h := G.hb e
  have hb := b.isLt
  have hi := i.isLt
  simp only [node]
  omega

/-- A node is recovered from its graph and its local index. -/
theorem node_of_src (G : Graph) (b : Fin 32) (e : Fin 262144) (h : G.src e / 1024 = b.val) :
    node b ⟨G.src e % 1024, Nat.mod_lt _ (by norm_num)⟩ = ⟨G.src e, G.hs e⟩ := by
  apply Fin.ext
  simp only [node]
  omega

theorem node_div_mod (n : Fin 32768) :
    node ⟨n.val / 1024, by omega⟩ ⟨n.val % 1024, Nat.mod_lt _ (by norm_num)⟩ = n := by
  apply Fin.ext
  simp only [node]
  omega

/-! ## The reference's sum: the edge list, then the self loops -/

theorem srcJ_castAdd (G : Graph) (e : Fin 262144) : srcJ G (Fin.castAdd 32768 e) = G.src e := by
  have h : (Fin.castAdd 32768 e).val < 262144 := e.isLt
  simp only [srcJ, h, dite_true]
  rfl

theorem dstJ_castAdd (G : Graph) (e : Fin 262144) : dstJ G (Fin.castAdd 32768 e) = G.dst e := by
  have h : (Fin.castAdd 32768 e).val < 262144 := e.isLt
  simp only [dstJ, h, dite_true]
  rfl

theorem srcJ_natAdd (G : Graph) (l : Fin 32768) : srcJ G (Fin.natAdd 262144 l) = l.val := by
  have hv : (Fin.natAdd 262144 l).val = 262144 + l.val := rfl
  unfold srcJ
  split <;> omega

theorem dstJ_natAdd (G : Graph) (l : Fin 32768) : dstJ G (Fin.natAdd 262144 l) = l.val := by
  have hv : (Fin.natAdd 262144 l).val = 262144 + l.val := rfl
  unfold dstJ
  split <;> omega

/-- The reference's sum into node `n`: the edges entering `n`, and `n`'s self loop. -/
theorem aggR_split (G : Graph) (s : Fin 32768 → Fin 512 → EReal) (n : Fin 32768) (f : Fin 512) :
    aggR G s n f
      = (∑ e : Fin 262144, if G.dst e = n.val then s ⟨G.src e, G.hs e⟩ f else 0) + s n f := by
  unfold aggR
  rw [Finset.sum_filter]
  have hsplit := Fin.sum_univ_add (a := 262144) (b := 32768)
    (fun j : Fin (262144 + 32768) => if dstJ G j = n.val then s ⟨srcJ G j, srcJ_lt G j⟩ f else 0)
  have h1 : (∑ e : Fin 262144, (if dstJ G (Fin.castAdd 32768 e) = n.val then
        s ⟨srcJ G (Fin.castAdd 32768 e), srcJ_lt G (Fin.castAdd 32768 e)⟩ f else 0))
      = ∑ e : Fin 262144, if G.dst e = n.val then s ⟨G.src e, G.hs e⟩ f else 0 := by
    refine Finset.sum_congr rfl (fun e _ => ?_)
    simp only [dstJ_castAdd, srcJ_castAdd]
  have h2 : (∑ l : Fin 32768, (if dstJ G (Fin.natAdd 262144 l) = n.val then
        s ⟨srcJ G (Fin.natAdd 262144 l), srcJ_lt G (Fin.natAdd 262144 l)⟩ f else 0)) = s n f := by
    have hl : ∀ l : Fin 32768,
        (if dstJ G (Fin.natAdd 262144 l) = n.val then
            s ⟨srcJ G (Fin.natAdd 262144 l), srcJ_lt G (Fin.natAdd 262144 l)⟩ f else 0)
          = if n = l then s l f else 0 := by
      intro l
      have e1 : (⟨srcJ G (Fin.natAdd 262144 l), srcJ_lt G (Fin.natAdd 262144 l)⟩ : Fin 32768) = l :=
        Fin.ext (srcJ_natAdd G l)
      rw [dstJ_natAdd, e1]
      by_cases hnl : n = l
      · subst hnl; simp
      · have : ¬ l.val = n.val := fun h => hnl (Fin.ext h.symm)
        simp [hnl, this]
    rw [Finset.sum_congr rfl (fun l _ => hl l)]
    simp
  exact hsplit.trans (congrArg₂ (· + ·) h1 h2)

/-! ## The kernel's sum: a count times a value is the value added that many times -/

/-- A dense entry times `x`: `x` once per counted edge, and once more on the diagonal. -/
theorem Aval_mul (G : Graph) (b : Fin 32) (i k : Fin 1024) (x : EReal) :
    Aval G b i k * x
      = (∑ e : Fin 262144,
          if (G.src e / 1024 = b.val ∧ G.dst e % 1024 = i.val) ∧ G.src e % 1024 = k.val then x else 0)
        + (if i = k then x else 0) := by
  unfold Aval
  have h1 : ∀ S : Finset (Fin 262144), (∑ _e ∈ S, (1 : EReal)) = ((S.card : ℕ) : EReal) := by
    intro S
    rw [Finset.sum_const, nsmul_one]
  have hδ : (if i = k then (1 : EReal) else 0) = (((if i = k then 1 else 0) : ℕ) : EReal) := by
    split <;> simp
  rw [h1, hδ, ← Nat.cast_add, ← EReal.nsmul_eq_mul, add_nsmul, ← Finset.sum_const, Finset.sum_filter]
  refine congrArg₂ (· + ·) (Finset.sum_congr rfl (fun e _ => ?_)) ?_
  · simp only [and_assoc]
  · split <;> simp

/-- The kernel's sum into node `(b, i)`: the edges entering it, and the diagonal entry. -/
theorem aggK_split (G : Graph) (s : Fin 32768 → Fin 512 → EReal) (b : Fin 32) (i : Fin 1024) (f : Fin 512) :
    aggK G s b i f
      = (∑ e : Fin 262144, if G.dst e = (node b i).val then s ⟨G.src e, G.hs e⟩ f else 0) + s (node b i) f := by
  unfold aggK
  rw [Finset.sum_congr rfl (fun k _ => Aval_mul G b i k (s (node b k) f)), Finset.sum_add_distrib,
    Finset.sum_ite_eq, if_pos (Finset.mem_univ i), Finset.sum_comm]
  refine congrArg₂ (· + ·) (Finset.sum_congr rfl (fun e _ => ?_)) rfl
  by_cases hAB : G.src e / 1024 = b.val ∧ G.dst e % 1024 = i.val
  · have hd : G.dst e = (node b i).val := (edge_cond_iff G b i e).1 hAB
    rw [if_pos hd]
    have hk : ∀ k : Fin 1024,
        (if (G.src e / 1024 = b.val ∧ G.dst e % 1024 = i.val) ∧ G.src e % 1024 = k.val then s (node b k) f else 0)
          = if (⟨G.src e % 1024, Nat.mod_lt _ (by norm_num)⟩ : Fin 1024) = k then s (node b k) f else 0 := by
      intro k
      have hiff : (G.src e % 1024 = k.val) ↔ (⟨G.src e % 1024, Nat.mod_lt _ (by norm_num)⟩ : Fin 1024) = k := by
        rw [Fin.ext_iff]
      simp only [hAB, and_self, true_and, hiff]
    rw [Finset.sum_congr rfl (fun k _ => hk k), Finset.sum_ite_eq, if_pos (Finset.mem_univ _),
      node_of_src G b e hAB.1]
  · have hd : ¬ G.dst e = (node b i).val := fun h => hAB ((edge_cond_iff G b i e).2 h)
    rw [if_neg hd]
    refine Finset.sum_eq_zero (fun k _ => ?_)
    rw [if_neg]
    exact fun h => hAB h.1

/-! ## The statements -/

theorem aggK_eq (G : Graph) (s : Fin 32768 → Fin 512 → EReal) (b : Fin 32) (i : Fin 1024) (f : Fin 512) :
    aggK G s b i f = aggR G s (node b i) f := by
  rw [aggK_split, aggR_split]

theorem degK_eq (G : Graph) (b : Fin 32) (i : Fin 1024) : degK G b i = degR G (node b i) := by
  have h := aggK_eq G (fun _ _ => (1 : EReal)) b i 0
  simpa only [aggK, aggR, degK, degR, mul_one] using h

theorem dinvK_eq (G : Graph) (b : Fin 32) (i : Fin 1024) : dinvK G b i = dinvR G (node b i) := by
  unfold dinvK dinvR
  rw [degK_eq]

theorem scaledK_eq (P : Params) (G : Graph) : scaledK P G = scaled P (dinvR G) := by
  funext n f
  unfold scaledK scaled
  rw [dinvK_eq, node_div_mod]

theorem outK_eq_outR (P : Params) (G : Graph) (b : Fin 32) (i : Fin 1024) (f : Fin 512) :
    outK P G b i f = outR P G (node b i) f := by
  unfold outK outR
  have h : aggK G (scaledK P G) b i = aggR G (scaled P (dinvR G)) (node b i) := by
    funext f'
    rw [aggK_eq, scaledK_eq]
  rw [dinvK_eq, h]

end Cert.Spec

end
-- ==== Proof.Claims.lean ====
/-
  The five claims.  The three frames: each program runs to the end, faults nowhere and leaves its arguments as
  launched (the two kernel programs by their runs through both regions; the reference by its run of host
  operations).  The idealization rewrote nothing, so its claim is empty.  The value claim: under the
  precondition the edge words are node indices and no edge leaves its graph, so the idealized kernel's result
  (`Spec.outK` of the arguments) and the reference's (`Spec.outR` of the same arguments) are one array.
-/
import proofs.«425183_j61959198212219_2_alg».proof.Defs
import proofs.«425183_j61959198212219_2_alg».proof.Proof.Gen.Kernel
import proofs.«425183_j61959198212219_2_alg».proof.Proof.Gen.KernelIdeal
import proofs.«425183_j61959198212219_2_alg».proof.Proof.Gen.ReferenceIdeal
import proofs.«425183_j61959198212219_2_alg».proof.Proof.Gen.Pre_finite_inputs
import proofs.«425183_j61959198212219_2_alg».proof.Proof.KIFrame
import proofs.«425183_j61959198212219_2_alg».proof.Proof.KFrame
import proofs.«425183_j61959198212219_2_alg».proof.Proof.KIValue
import proofs.«425183_j61959198212219_2_alg».proof.Proof.RefValue
import proofs.«425183_j61959198212219_2_alg».proof.Proof.Bridge
import proofs.«425183_j61959198212219_2_alg».proof.Proof.PreDecode

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.KernelIdeal.Hand

/-- Under the precondition the edge list is well formed, on every device. -/
theorem edgesOk (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.EdgesOk (m ((c : Thread nD τ).loc main_arg1)) (m ((c : Thread nD τ).loc main_arg2)) :=
  Cert.PreDecode.edgesOk_of_pre (F := Ideal) _ _ _ _ _ _ _ _ _ _ _ _ _ (hpre c)

theorem algebraic : Cert.algebraic_KernelIdeal_ReferenceIdeal := by
  intro m ρ m' ρ' hpre hagree
  refine ⟨fun c => VV10 m c main_v50, ?_, ?_⟩
  · refine (θ_run Cert.KernelIdeal.defs _ _).mono (fun r h c => ?_) (run_all m ρ)
    exact ⟨h c _ (mem_uc main_v50 (by decide)),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c),
      (h c _ (mem_uc main_arg9 (by decide))).trans (W10_main_arg9 m c),
      (h c _ (mem_uc main_arg10 (by decide))).trans (W10_main_arg10 m c),
      (h c _ (mem_uc main_arg11 (by decide))).trans (W10_main_arg11 m c),
      (h c _ (mem_uc main_arg12 (by decide))).trans (W10_main_arg12 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v73_eq]
    obtain ⟨e0, e1, e2, e3, e4, e5, e6, e7, e8, e9, e10, e11, e12⟩ := hagree c
    rw [e0, e1, e2, e3, e4, e5, e6, e7, e8, e9, e10, e11, e12]
    funext j
    obtain ⟨b, i, f, rfl⟩ : ∃ (b : Fin 32) (i : Fin 1024) (f : Fin 512), j = ix3 b i f := ⟨j 0, j 1, j 2, eq_ix3 j⟩
    have hok := edgesOk m hpre c
    exact (Cert.ReferenceIdeal.RefValue.ref_value _ _ _ _ _ _ _ _ _ _ _ _ _ hok b i f).trans
      ((Cert.Spec.outK_eq_outR _ _ b i f).symm.trans (Cert.KernelIdeal.Value.kernel_value m c hok b i f).symm)

end

end Cert.Proof.Claims

end
-- ==== Proof.lean ====
/-
  The certificate: the programs' stated side conditions are witnessed by the generated facts, and the five
  claims are those of `Proof/Claims.lean` — each program runs to the end without a fault and leaves its
  arguments unchanged; the idealization rewrote nothing; and, on edge lists whose endpoints are node indices
  with no edge leaving its graph, the idealized kernel and the idealized reference return the same array.
-/
import proofs.«425183_j61959198212219_2_alg».proof.Defs
import proofs.«425183_j61959198212219_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
